-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg2 main_v34
  let main_c_13 : IVec S_ 1 := constantI S_ 1 1#1
  let main_v36 : IVec S_ 1 := (fun x v => Host.reduce IntOp.andi x v reducesTo_S50000_S_d0 h_S_) main_v35 main_c_13
  let main_v37 : IVec S_ 1 := andi main_v33 main_v36
  main_v37

def fn_part1 {F : FTy → Type} [FloatOps F] (main_arg2 : IVec S50000 32) (main_arg6 : FVec F S256 .f32) (main_arg7 : FVec F S256x1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S50000x256 : Shape := ⟨2, ![50000, 256]⟩
abbrev S2000x128 : Shape := ⟨2, ![2000, 128]⟩
abbrev S2000x256 : Shape := ⟨2, ![2000, 256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S1x64 : Shape := ⟨2, ![1, 64]⟩
abbrev S50000x64 : Shape := ⟨2, ![50000, 64]⟩
abbrev S64 : Shape := ⟨1, ![64]⟩
abbrev S1x1 : Shape := ⟨2, ![1, 1]⟩
abbrev S64x1 : Shape := ⟨2, ![64, 1]⟩
abbrev S2000x64 : Shape := ⟨2, ![2000, 64]⟩
abbrev S64x256 : Shape := ⟨2, ![64, 256]⟩

abbrev nBuf : Space → Nat
  | .hbm => 98
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S50000x128, .bf16⟩
  | .hbm, ⟨10, _⟩ => ⟨S128x256, .bf16⟩
  | .hbm, ⟨11, _⟩ => ⟨S50000x256, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x1, .i32⟩
  | .hbm, ⟨71, _⟩ => ⟨S1x64, .i32⟩
  | .hbm, ⟨72, _⟩ => ⟨S50000x64, .i32⟩
  | .hbm, ⟨73, _⟩ => ⟨S50000x64, .i32⟩
  | .hbm, ⟨74, _⟩ => ⟨S50000x64, .i1⟩
  | .hbm, ⟨75, _⟩ => ⟨S50000x64, .bf16⟩
  | .hbm, ⟨76, _⟩ => ⟨S_, .i32⟩
  | .hbm, ⟨77, _⟩ => ⟨S64, .i32⟩
  | .hbm, ⟨78, _⟩ => ⟨S_, .i32⟩
  | .hbm, ⟨79, _⟩ => ⟨S_, .i32⟩
  | .hbm, ⟨80, _⟩ => ⟨S50000, .i32⟩
  | .hbm, ⟨81, _⟩ => ⟨S50000, .i32⟩
  | .hbm, ⟨82, _⟩ => ⟨S_, .i32⟩
  | .hbm, ⟨83, _⟩ => ⟨S50000, .i32⟩
  | .hbm, ⟨84, _⟩ => ⟨S50000, .i1⟩
  | .hbm, ⟨85, _⟩ => ⟨S_, .i32⟩
  | .hbm, ⟨86, _⟩ => ⟨S50000, .i32⟩
  | .hbm, ⟨87, _⟩ => ⟨S50000, .i32⟩
  | .hbm, ⟨88, _⟩ => ⟨S50000, .i32⟩
  | .hbm, ⟨89, _⟩ => ⟨S50000x1, .i32⟩
  | .hbm, ⟨90, _⟩ => ⟨S_, .i32⟩
  | .hbm, ⟨91, _⟩ => ⟨S50000, .i32⟩
  | .hbm, ⟨92, _⟩ => ⟨S64, .i32⟩
  | .hbm, ⟨93, _⟩ => ⟨S64, .f32⟩
  | .hbm, ⟨94, _⟩ => ⟨S1x256, .f32⟩
  | .hbm, ⟨95, _⟩ => ⟨S1x1, .f32⟩
  | .hbm, ⟨96, _⟩ => ⟨S64x1, .f32⟩
  | .hbm, ⟨97, _⟩ => ⟨S64x1, .f32⟩
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x64, .bf16⟩
  | .local _ .vmem, ⟨11, _⟩ => ⟨S2000x64, .bf16⟩
  | .local _ .vmem, ⟨12, _⟩ => ⟨S2000x256, .f32⟩
  | .local _ .vmem, ⟨13, _⟩ => ⟨S2000x256, .f32⟩
  | .local _ .vmem, ⟨14, _⟩ => ⟨S64x1, .f32⟩
  | .local _ .vmem, ⟨15, _⟩ => ⟨S256x256, .f32⟩
  | .local _ .vmem, ⟨16, _⟩ => ⟨S1x256, .f32⟩
  | .local _ .vmem, ⟨17, _⟩ => ⟨S256x1, .f32⟩
  | .local _ .vmem, ⟨18, _⟩ => ⟨S1x1, .f32⟩
  | .local _ .vmem, ⟨19, _⟩ => ⟨S64x1, .f32⟩
  | .local _ .vmem, ⟨20, _⟩ => ⟨S64x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_c_10 : Ref sig .tc := ⟨.hbm, 78, rfl⟩
abbrev main_call2_v0 : Ref sig .tc := ⟨.hbm, 79, rfl⟩
abbrev main_call2_v1 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S64 : S_.BroadcastsInDim S64 (![] : Fin 0 → Fin S64.rank)
  shapeCasts_S1_S1x1 : S1.ShapeCasts S1x1
  shapeCasts_S64_S64x1 : S64.ShapeCasts S64x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x256 : S64x1.Broadcasts S64x256
  inb_S256x256_S256x256_0_0 : ∀ a, (![0, 0] : Fin 2 → Nat) a + S256x256.size a ≤ S256x256.size a
  h_S256x256 : 0 < S256x256.numel
  broadcasts_S1x256_S64x256 : S1x256.Broadcasts S64x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S2000x128_S128x256_S2000x256_1_0_0_1_n_n_wf : DotDims.WF S2000x128 S128x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64_S50000x1_S50000_n_0_0_1_wf : ScatterDims.WF S64 S50000x1 S50000 [] [0] [0] 1
  dot_S2000x64_S2000x256_S64x256_0_0_1_1_n_n_wf : DotDims.WF S2000x64 S2000x256 S64x256 [0] [0] [1] [1] [] []
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .bf16 = 32 ∨ (Rect.block (s := S50000x64) S2000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S2000x64_S2000x256_S64x256_0_0_1_1_n_n : DotDims S2000x64 S2000x256 S64x256 where
  lhsContracting := [0]
  rhsContracting := [0]
  lhsNonContracting := [1]
  rhsNonContracting := [1]
  lhsBatch := []
  rhsBatch := []
  wf := dot_S2000x64_S2000x256_S64x256_0_0_1_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S256x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S64x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64 : Shape := ⟨1, ![64]⟩
abbrev S50000x1 : Shape := ⟨2, ![50000, 1]⟩
abbrev S64x256 : Shape := ⟨2, ![64, 256]⟩
abbrev S64x1 : Shape := ⟨2, ![64, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S50000x256, .f32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S64, .f32⟩
  | .hbm, ⟨76, _⟩ => ⟨S50000x1, .i32⟩
  | .hbm, ⟨77, _⟩ => ⟨S64, .f32⟩
  | .hbm, ⟨78, _⟩ => ⟨S_, .f32⟩
  | .hbm, ⟨79, _⟩ => ⟨S64x256, .f32⟩
  | .hbm, ⟨80, _⟩ => ⟨S50000x1, .i32⟩
  | .hbm, ⟨81, _⟩ => ⟨S64x256, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x256, .f32⟩
  | .hbm, ⟨87, _⟩ => ⟨S64x256, .f32⟩
  | .hbm, ⟨88, _⟩ => ⟨S64x256, .f32⟩
  | .hbm, ⟨89, _⟩ => ⟨S1x256, .f32⟩
  | .hbm, ⟨90, _⟩ => ⟨S64x256, .f32⟩
  | .hbm, ⟨91, _⟩ => ⟨S64x256, .f32⟩
  | .hbm, ⟨92, _⟩ => ⟨S_, .f32⟩
  | .hbm, ⟨93, _⟩ => ⟨S64x256, .f32⟩
  | .hbm, ⟨94, _⟩ => ⟨S64x256, .f32⟩
  | .hbm, ⟨95, _⟩ => ⟨S64x1, .f32⟩
  | .hbm, ⟨96, _⟩ => ⟨S1x1, .f32⟩
  | .hbm, ⟨97, _⟩ => ⟨S64x1, .f32⟩
  | .hbm, ⟨98, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.R0.lean ====
/-
  The first pallas_call: one grid point multiplies a 2000-row tile of the node features by the whole
  weight matrix on the matrix unit (zero accumulator) and stores the 2000 x 256 product tile.
  Here: the tile each window stages at a point, what the body leaves in the output tile, the proof
  data of the pipeline at an arbitrary entry valuation V, and the body's obligation at every point.
-/
import proofs.«423902_j15470472200268_1_alg».proof.Proof.Gen.KernelIdeal.Launch
import proofs.«423902_j15470472200268_1_alg».proof.Proof.Gen.KernelIdeal.Skeleton
import proofs.«423902_j15470472200268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-tile rectangles the body loads and stores through. -/
abbrev rX0 : Rect S2000x128 := Rect.unit (s := S2000x128) ![0, 0] S2000x128.size inb_S2000x128_S2000x128_0_0
abbrev rW0 : Rect S128x256 := Rect.unit (s := S128x256) ![0, 0] S128x256.size inb_S128x256_S128x256_0_0
abbrev rO0 : Rect S2000x256 := Rect.unit (s := S2000x256) ![0, 0] S2000x256.size inb_S2000x256_S2000x256_0_0

/-- What the body leaves in the output tile: the product of the feature tile and the weights. -/
def out0 (x0 : Vec F S2000x128 .bf16) (x1 : Vec F S128x256 .bf16) : Vec F S2000x256 .f32 :=
  View.canon [⟨rO0, k0_pay1 (View.ld x0 rX0) (View.ld x1 rW0)⟩]

/-- The pipeline's proof data: arrays as found, inputs left in place, the output tile at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-! ## What the body finds in the two input tiles -/

/-- The feature window is refilled at every point: its staging buffer holds the point's 2000-row tile. -/
theorem stays0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The weight window is filled once, at the first point, and its block index is the constant 0: at a later
    point the buffer still holds what the first fill put there, which is the same whole matrix. -/
theorem stays0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The body on its three staging memrefs -/

/-- The single whole-tile store covers the output tile. -/
theorem tiles0 (p : Vec F S2000x256 .f32) (y : S2000x256.Idx) :
    ∃ pc ∈ ([⟨rO0, p⟩] : List (View.Piece (Elt F) S2000x256 .f32)), y ∈ pc.1.set :=
  View.cover_of_tiled [⟨rO0, p⟩] S2000x256.size (by rfl) y

set_option maxHeartbeats 1000000 in
/-- The body reads the feature tile `x0` and the weights `x1`, reads the output tile without using what it reads,
    and overwrites the output tile with the product: the inputs are handed back as they were, the output at
    `out0 x0 x1`, whatever it held. -/
theorem run0 (c : Dev nD) (E : Set ℕ) (i : grid0.Coords)
    (a1 : Memref sig .tc .vmem S2000x128 .bf16) (h1 : a1.IsWhole) (a2 : Memref sig .tc .vmem S128x256 .bf16) (h2 : a2.IsWhole)
    (a3 : Memref sig .tc .vmem S2000x256 .f32) (h3 : a3.IsWhole)
    (x0 : Vec F S2000x128 .bf16) (x1 : Vec F S128x256 .bf16) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out0 x0 x1)) -∗ K ⟨⟩))
      ⊢ wp frame (wpE (defs₀ (F := F)) Variants.none c none) E (cc0__feat_transform_kernel i a1 h1 a2 h2 a3 h3) K := by
  simp only [cc0__feat_transform_kernel_eq_skeleton]; unfold cc0__feat_transform_kernel_skel
  unfold owns
  iintro ⟨⟨%f1, %e1, H1⟩, ⟨%f2, %e2, H2⟩, ⟨%d, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles0 _)

/-! ## The obligation at one point -/

/-- What the pipeline hands the body at point `t`: the invariant, what the core owes, and the three current
    staging buffers at what they then hold. -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same invariant and debt, each buffer at what the proof data say the body leaves. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their tiles (`stays0_0`, `stays0_1`), so `run0` applies; the
    invariant and the debt are not touched by the body and do not depend on the point. -/
theorem step0 (c : Dev nD) (t : Fin cfg0.N) :
    enter0 V c t ⊢ wp frame (wpE (defs₀ (F := F)) Variants.none c none) Set.univ (bodyAt0 t) (fun _ => leave0 V c t) := by
  unfold enter0 leave0 bodyAt0
  simp only [stays0_0, stays0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point of the grid. -/
theorem body_obligation0 (c : Dev nD) : BodyObligation (dat0 (F := F) V c) (defs₀ (F := F)) Variants.none () Set.univ := fun t => by
  rw [bigSep_W0, bigSep_W0]
  exact step0 V c t

end Cert.KernelIdeal.Hand

end
-- ==== Proof.R1.lean ====
/-
  The second pallas_call: one grid point adds the bias row to a 2000-row tile of the aggregated
  features and clamps at zero. Tiles, what the body leaves, proof data at an entry valuation V, and
  the body's obligation.
-/
import proofs.«423902_j15470472200268_1_alg».proof.Proof.Gen.KernelIdeal.Launch
import proofs.«423902_j15470472200268_1_alg».proof.Proof.Gen.KernelIdeal.Skeleton
import proofs.«423902_j15470472200268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH1 : Rect S2000x256 := Rect.unit (s := S2000x256) ![0, 0] S2000x256.size inb_S2000x256_S2000x256_0_0
abbrev rB1 : Rect S1x256 := Rect.unit (s := S1x256) ![0, 0] S1x256.size inb_S1x256_S1x256_0_0

/-- What the body leaves in the output tile: max (tile + bias row) 0. -/
def out1 (x0 : Vec F S2000x256 .f32) (x1 : Vec F S1x256 .f32) : Vec F S2000x256 .f32 :=
  View.canon [⟨rH1, k1_pay1 (View.ld x0 rH1) (View.ld x1 rB1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-! ## What the body finds in the two input tiles -/

/-- The aggregated-feature window is refilled at every point: its staging buffer holds the point's tile. -/
theorem stays1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The bias row is filled once, at the first point, and its block index is the constant 0: later points find
    in the buffer what the first fill put there, which is the same row. -/
theorem stays1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-! ## The body on its three staging memrefs -/

/-- The single whole-tile store covers the output tile. -/
theorem tiles1 (p : Vec F S2000x256 .f32) (y : S2000x256.Idx) :
    ∃ pc ∈ ([⟨rH1, p⟩] : List (View.Piece (Elt F) S2000x256 .f32)), y ∈ pc.1.set :=
  View.cover_of_tiled [⟨rH1, p⟩] S2000x256.size (by rfl) y

set_option maxHeartbeats 1000000 in
/-- The body reads the tile `x0` and the bias row `x1`, reads the output tile without using what it reads, and
    overwrites the output tile with the clamped sum: the inputs come back as they were, the output at
    `out1 x0 x1`, whatever it held. -/
theorem run1 (c : Dev nD) (E : Set ℕ) (i : grid1.Coords)
    (a1 : Memref sig .tc .vmem S2000x256 .f32) (h1 : a1.IsWhole) (a2 : Memref sig .tc .vmem S1x256 .f32) (h2 : a2.IsWhole)
    (a3 : Memref sig .tc .vmem S2000x256 .f32) (h3 : a3.IsWhole)
    (x0 : Vec F S2000x256 .f32) (x1 : Vec F S1x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out1 x0 x1)) -∗ K ⟨⟩))
      ⊢ wp frame (wpE (defs₀ (F := F)) Variants.none c none) E (cc1__bias_relu_kernel i a1 h1 a2 h2 a3 h3) K := by
  simp only [cc1__bias_relu_kernel_eq_skeleton]; unfold cc1__bias_relu_kernel_skel
  unfold owns
  iintro ⟨⟨%f1, %e1, H1⟩, ⟨%f2, %e2, H2⟩, ⟨%d, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles1 _)

/-! ## The obligation at one point -/

/-- What the pipeline hands the body at point `t`: the invariant, what the core owes, and the three current
    staging buffers at what they then hold. -/
def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it takes back: the same invariant and debt, each buffer at what the proof data say the body leaves. -/
def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two input buffers hold their tiles (`stays1_0`, `stays1_1`), so `run1` applies; the
    invariant and the debt are not touched by the body and do not depend on the point. -/
theorem step1 (c : Dev nD) (t : Fin cfg1.N) :
    enter1 V c t ⊢ wp frame (wpE (defs₀ (F := F)) Variants.none c none) Set.univ (bodyAt1 t) (fun _ => leave1 V c t) := by
  unfold enter1 leave1 bodyAt1
  simp only [stays1_0, stays1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point of the grid. -/
theorem body_obligation1 (c : Dev nD) : BodyObligation (dat1 (F := F) V c) (defs₀ (F := F)) Variants.none () Set.univ := fun t => by
  rw [bigSep_W1, bigSep_W1]
  exact step1 V c t

end Cert.KernelIdeal.Hand

end
-- ==== Proof.R2.lean ====
/-
  The third pallas_call: over 25 grid points a 64 x 256 scratch accumulates (one-hot tile)ᵀ · (feature
  tile); the first point starts it from zero, and the last point divides each row by its clamped count
  and runs the two-layer head into the 64 x 1 result. Here: the tiles, the scratch's contents after
  each point (accAt), what the last point stores (headOut), the invariant that carries the scratch
  between points, the proof data at an entry valuation V, and the body's obligation.
-/
import proofs.«423902_j15470472200268_1_alg».proof.Proof.Gen.KernelIdeal.Launch
import proofs.«423902_j15470472200268_1_alg».proof.Proof.Gen.KernelIdeal.Skeleton
import proofs.«423902_j15470472200268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator scratch, whole. -/
abbrev scM2 : Memref sig .tc .vmem S64x256 .f32 := Memref.whole cc2_scratch0

/-- The scratch after point n: the point's contribution added to what the point before left (zero at the first). -/
def accAt (c : Dev nD) : (n : ℕ) → n < cfg2.N → Vec F S64x256 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (accAt c n (Nat.lt_of_succ_lt hn))

theorem accAt_zero (c : Dev nD) (hn : 0 < cfg2.N) :
    accAt V c 0 hn = k2_pay2 (iblk2 V c 0 ⟨0, hn⟩) (iblk2 V c 1 ⟨0, hn⟩) (k2_pay1 (F := F)) := rfl
theorem accAt_succ (c : Dev nD) (n : ℕ) (hn : n + 1 < cfg2.N) :
    accAt V c (n + 1) hn = k2_pay2 (iblk2 V c 0 ⟨n + 1, hn⟩) (iblk2 V c 1 ⟨n + 1, hn⟩) (accAt V c n (Nat.lt_of_succ_lt hn)) := rfl

/-- What the head stores into the result tile at point t (meaningful at the last point, where the scratch is complete). -/
def headOut (c : Dev nD) (t : Fin cfg2.N) : Vec F S64x1 .f32 :=
  k2_pay3 (accAt V c t.val t.isLt) (iblk2 V c 2 t) (iblk2 V c 3 t) (iblk2 V c 4 t) (iblk2 V c 5 t) (iblk2 V c 6 t)

/-- The staging buffers of the other two calls, each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Between points: before the first, every scoped buffer the pipeline does not stage at anything; afterwards the
    scratch at what the point before left, the other calls' buffers at anything, the generator register somewhere. -/
def PhiS (c : Dev nD) : (n : ℕ) → n ≤ cfg2.N → sProp 𝕄
  | 0, _ => Pipeline.ΦA spec2 c
  | n + 1, hn => iprop(others2 (F := F) c ∗ owns (c : Thread nD τ) scM2 fullShare (accAt V c n hn) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => headOut V c t
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_7 (c : Dev nD) (t : Fin cfg2.N) : (dat2 V c).after 7 t = headOut V c t := by dsimp only [dat2]

/-- The class invariant, with the scratch split out of the scoped rest. -/
theorem PhiA2_eq (c : Dev nD) :
    (Pipeline.ΦA spec2 c : sProp 𝕄) = iprop(others2 (F := F) c ∗ (∃ d, owns (c : Thread nD τ) scM2 fullShare d) ∗ (∃ r, prngReg c r)) := by
  unfold Pipeline.ΦA; rw [scopedRest2_eq]; unfold others2; simp only [scM2, owns_whole]
  refine BI.equiv_iff.mp ⟨?_, ?_⟩
  · show (_ : sProp 𝕄) ⊢ _
    iintro ⟨⟨H1, H2, H3, H4, H5, H6, H7, H8, H9, H10, HS⟩, Hr⟩
    isplitl [H1 H2 H3 H4 H5 H6 H7 H8 H9 H10]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [HS]; · iexact HS
    iexact Hr
  · show (_ : sProp 𝕄) ⊢ _
    iintro ⟨⟨H1, H2, H3, H4, H5, H6, H7, H8, H9, H10⟩, HS, Hr⟩
    isplitr [Hr]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hr

/-! ## The two conditionals' tests, decided over the grid -/

/-- The first conditional's test as the body computes it from the grid coordinate: the coordinate is 0. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional's test: the coordinate is 24, the last point. -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

/-- The result window is idle wherever the second test fails, and is not written back there. -/
theorem idle2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point it is live: the head is stored into it. -/
theorem live2_7 : ∀ t : Fin cfg2.N, cond2_1 (grid2.coords t) → cfg2.idle 7 (grid2.coords t) = false := by decide +kernel

/-- The zero offsets of a whole-buffer rectangle, however they are spelt. -/
theorem zeroOffsets : (![0, 0] : Fin 2 → Nat) = fun _ => 0 := funext fun a => by fin_cases a <;> rfl

/-- A store through the whole rectangle, last, covers the scratch whatever was stored before it; -/
theorem cover_scratch (w : Vec F S64x256 .f32) (L : List (View.Piece (Elt F) S64x256 .f32)) (y : S64x256.Idx) :
    ∃ p ∈ ((⟨Rect.unit (s := S64x256) ![0, 0] S64x256.size inb_S64x256_S64x256_0_0, w⟩ : View.Piece (Elt F) S64x256 .f32) :: L), y ∈ p.1.set :=
  ⟨_, List.mem_cons_self, View.mem_set_unit_zero zeroOffsets inb_S64x256_S64x256_0_0 y⟩

/-- and likewise the result tile. -/
theorem cover_result (w : Vec F S64x1 .f32) (L : List (View.Piece (Elt F) S64x1 .f32)) (y : S64x1.Idx) :
    ∃ p ∈ ((⟨Rect.unit (s := S64x1) ![0, 0] S64x1.size inb_S64x1_S64x1_0_0, w⟩ : View.Piece (Elt F) S64x1 .f32) :: L), y ∈ p.1.set :=
  ⟨_, List.mem_cons_self, View.mem_set_unit_zero zeroOffsets inb_S64x1_S64x1_0_0 y⟩

/-! ## The body on whole memrefs, case by case -/

set_option maxHeartbeats 1000000 in
/-- A middle point (neither test holds): the two tiles and the scratch are loaded and the scratch is stored
    back at the tiles' contribution added to what it held; nothing else is touched. -/
theorem run_mid (c : Dev nD) (i : grid2.Coords) (arg1 : Memref sig .tc .vmem S2000x64 .bf16) (harg1 : arg1.IsWhole) (arg2 : Memref sig .tc .vmem S2000x256 .f32) (harg2 : arg2.IsWhole) (arg3 : Memref sig .tc .vmem S64x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S64x1 .f32) (harg8 : arg8.IsWhole) (arg9 : Memref sig .tc .vmem S64x256 .f32) (harg9 : arg9.IsWhole)
    (hc0 : ¬cond2_0 i) (hc1 : ¬cond2_1 i)
    (x0 : Vec F S2000x64 .bf16) (x1 : Vec F S2000x256 .f32) (xs : Vec F S64x256 .f32) (E : Set ℕ) (K : PUnit → sProp 𝕄) :
    iprop(owns (c : Thread nD τ) arg1 fullShare x0 ∗ owns (c : Thread nD τ) arg2 fullShare x1 ∗ owns (c : Thread nD τ) arg9 fullShare xs
        ∗ (iprop(owns (c : Thread nD τ) arg1 fullShare x0 ∗ owns (c : Thread nD τ) arg2 fullShare x1
            ∗ owns (c : Thread nD τ) arg9 fullShare (k2_pay2 x0 x1 xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  -- the one store covers the scratch, so what is read back is its payload; each load through the whole
  -- rectangle reads the buffer's contents
  rw [View.read_writes_eq_canon _ _ _ (cover_scratch _ _),
    View.canon_unit_zero zeroOffsets]
  simp only [View.readAt_eq_ld, harg1.read_unread, harg2.read_unread, harg9.read_unread,
    View.ld_unit_zero (S := S2000x64) zeroOffsets, View.ld_unit_zero (S := S2000x256) zeroOffsets,
    View.ld_unit_zero (S := S64x256) zeroOffsets]

set_option maxHeartbeats 1000000 in
/-- The first point (the first test holds, the second does not): the scratch, whatever it held, is stored at
    zero; then the tiles are loaded, the scratch is read back — the zeros just stored — and stored again at the
    tiles' contribution added to them. -/
theorem run_first (c : Dev nD) (i : grid2.Coords) (arg1 : Memref sig .tc .vmem S2000x64 .bf16) (harg1 : arg1.IsWhole) (arg2 : Memref sig .tc .vmem S2000x256 .f32) (harg2 : arg2.IsWhole) (arg3 : Memref sig .tc .vmem S64x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S64x1 .f32) (harg8 : arg8.IsWhole) (arg9 : Memref sig .tc .vmem S64x256 .f32) (harg9 : arg9.IsWhole)
    (hc0 : cond2_0 i) (hc1 : ¬cond2_1 i)
    (x0 : Vec F S2000x64 .bf16) (x1 : Vec F S2000x256 .f32) (E : Set ℕ) (K : PUnit → sProp 𝕄) :
    iprop(owns (c : Thread nD τ) arg1 fullShare x0 ∗ owns (c : Thread nD τ) arg2 fullShare x1 ∗ (∃ d, owns (c : Thread nD τ) arg9 fullShare d)
        ∗ (iprop(owns (c : Thread nD τ) arg1 fullShare x0 ∗ owns (c : Thread nD τ) arg2 fullShare x1
            ∗ owns (c : Thread nD τ) arg9 fullShare (k2_pay2 x0 x1 (k2_pay1 (F := F)))) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  -- two stores, the later covering: what is read back is the later payload, whose third operand is the
  -- scratch as loaded between the two stores, that is the zeros of the earlier one
  sl_unfold_words
  rw [View.read_writes_eq_canon _ _ _ (cover_scratch _ _),
    View.canon_cons_unit_zero zeroOffsets]
  simp only [View.readAt_eq_ld, harg1.read_unread, harg2.read_unread, View.readCov_unit_zero (S := S64x256) _ zeroOffsets,
    View.ld_unit_zero (S := S2000x64) zeroOffsets, View.ld_unit_zero (S := S2000x256) zeroOffsets]

set_option maxHeartbeats 1000000 in
/-- The last point (the second test holds, the first does not): the scratch is updated as at a middle point,
    then read back — the sum just stored — with the counts and the head's weights and biases, and the head of
    these is stored into the result tile, whatever that held. -/
theorem run_last (c : Dev nD) (i : grid2.Coords) (arg1 : Memref sig .tc .vmem S2000x64 .bf16) (harg1 : arg1.IsWhole) (arg2 : Memref sig .tc .vmem S2000x256 .f32) (harg2 : arg2.IsWhole) (arg3 : Memref sig .tc .vmem S64x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S64x1 .f32) (harg8 : arg8.IsWhole) (arg9 : Memref sig .tc .vmem S64x256 .f32) (harg9 : arg9.IsWhole)
    (hc0 : ¬cond2_0 i) (hc1 : cond2_1 i)
    (x0 : Vec F S2000x64 .bf16) (x1 : Vec F S2000x256 .f32) (x2 : Vec F S64x1 .f32) (x3 : Vec F S256x256 .f32)
    (x4 : Vec F S1x256 .f32) (x5 : Vec F S256x1 .f32) (x6 : Vec F S1x1 .f32) (xs : Vec F S64x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k2_pay3 (k2_pay2 x0 x1 xs) x2 x3 x4 x5 x6)
            ∗ owns (c : Thread nD τ) arg9 fullShare (k2_pay2 x0 x1 xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    -- the one store covers the result tile; its first operand is the scratch read back after the update
    sl_unfold_words
    rw [View.read_writes_eq_canon _ _ _ (cover_result _ _),
      View.canon_unit_zero zeroOffsets]
    simp only [View.readAt_eq_ld, harg1.read_unread, harg2.read_unread, harg3.read_unread, harg4.read_unread,
      harg5.read_unread, harg6.read_unread, harg7.read_unread, harg9.read_unread,
      View.readCov_unit_zero (S := S64x256) _ zeroOffsets,
      View.ld_unit_zero (S := S2000x64) zeroOffsets, View.ld_unit_zero (S := S2000x256) zeroOffsets,
      View.ld_unit_zero (S := S64x256) zeroOffsets, View.ld_unit_zero (S := S64x1) zeroOffsets,
      View.ld_unit_zero (S := S256x256) zeroOffsets, View.ld_unit_zero (S := S1x256) zeroOffsets,
      View.ld_unit_zero (S := S256x1) zeroOffsets, View.ld_unit_zero (S := S1x1) zeroOffsets]
  iexists _; isplitr
  swap; · iexact HS
  ipureintro
  sl_unfold_words
  rw [View.read_writes_eq_canon _ _ _ (cover_scratch _ _),
    View.canon_unit_zero zeroOffsets]
  simp only [View.readAt_eq_ld, harg1.read_unread, harg2.read_unread, harg9.read_unread,
    View.ld_unit_zero (S := S2000x64) zeroOffsets, View.ld_unit_zero (S := S2000x256) zeroOffsets,
    View.ld_unit_zero (S := S64x256) zeroOffsets]

/-! ## What the body finds in the input windows, and leaves there -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-- An input window is never idle and its body leaves the tile in place, so its current staging buffer holds
    the tile at every point, fetched there or not (unfetched, the block index has not moved). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- So the body's post for an input window is the buffer at its tile. -/
theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (st2_3 t) fullShare (iblk2 V c 3 t) := by
  unfold Dat.leavesExact; rw [show cfg2.idle 3 (cfg2.grid.coords t) = false from rfl, after2_3]
theorem leaves2_4 (c : Dev nD) (t : Fin cfg2.N) :
    (dat2 V c).leavesExact 4 t = owns (c : Thread nD τ) (st2_4 t) fullShare (iblk2 V c 4 t) := by
  unfold Dat.leavesExact; rw [show cfg2.idle 4 (cfg2.grid.coords t) = false from rfl, after2_4]
theorem leaves2_5 (c : Dev nD) (t : Fin cfg2.N) :
    (dat2 V c).leavesExact 5 t = owns (c : Thread nD τ) (st2_5 t) fullShare (iblk2 V c 5 t) := by
  unfold Dat.leavesExact; rw [show cfg2.idle 5 (cfg2.grid.coords t) = false from rfl, after2_5]
theorem leaves2_6 (c : Dev nD) (t : Fin cfg2.N) :
    (dat2 V c).leavesExact 6 t = owns (c : Thread nD τ) (st2_6 t) fullShare (iblk2 V c 6 t) := by
  unfold Dat.leavesExact; rw [show cfg2.idle 6 (cfg2.grid.coords t) = false from rfl, after2_6]

/-! ## The invariant, point by point -/

theorem PhiS_first (c : Dev nD) (n : ℕ) (h : n ≤ cfg2.N) (hz : n = 0) : PhiS V c n h = Pipeline.ΦA spec2 c := by
  subst hz; rfl

theorem PhiS_next (c : Dev nD) (n : ℕ) (hn : n < cfg2.N) :
    PhiS V c (n + 1) hn = iprop(others2 (F := F) c ∗ owns (c : Thread nD τ) scM2 fullShare (accAt V c n hn) ∗ (∃ r, prngReg c r)) := rfl

theorem PhiS_later (c : Dev nD) (n : ℕ) (h : n ≤ cfg2.N) (hz : n ≠ 0) :
    PhiS V c n h = iprop(others2 (F := F) c ∗ owns (c : Thread nD τ) scM2 fullShare (accAt V c (n - 1) (by omega)) ∗ (∃ r, prngReg c r)) := by
  cases n with
  | zero => exact absurd rfl hz
  | succ n => rfl

theorem Phi_castSucc (c : Dev nD) (t : Fin cfg2.N) :
    (dat2 V c).Φ t.castSucc = PhiS V c t.val (Nat.le_of_lt t.isLt) := by
  dsimp only [dat2]; simp only [Fin.coe_castSucc]

/-- The scratch after the first point: the tiles' contribution added to zero. -/
theorem accAt_first (c : Dev nD) (t : Fin cfg2.N) (h : t.val = 0) :
    accAt V c t.val t.isLt = k2_pay2 (iblk2 V c 0 t) (iblk2 V c 1 t) (k2_pay1 (F := F)) := by
  obtain ⟨n, hn⟩ := t
  cases n with
  | zero => rfl
  | succ n => exact absurd h (Nat.succ_ne_zero n)

/-- The scratch after a later point: the tiles' contribution added to what the point before left. -/
theorem accAt_later (c : Dev nD) (t : Fin cfg2.N) (h : t.val ≠ 0) :
    accAt V c t.val t.isLt = k2_pay2 (iblk2 V c 0 t) (iblk2 V c 1 t) (accAt V c (t.val - 1) (Nat.lt_of_le_of_lt (Nat.sub_le _ _) t.isLt)) := by
  obtain ⟨n, hn⟩ := t
  cases n with
  | zero => exact absurd rfl h
  | succ n => rfl

/-! ## The body's obligation at a point -/

/-- What the body is handed at point t: the invariant, what the core owes, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t ∗ (dat2 V c).leavesExact 7 t)

set_option maxHeartbeats 4000000 in
/-- The body at any point, by which of the three kinds of point it is. The input windows hold their tiles;
    the invariant hands over the scratch — at anything before the first point, at what the point before left
    afterwards — and takes it back at this point's contents; the result window is handed back untouched
    except at the last point, where it holds the head of the completed sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS V c (t.val + 1) t.isLt from rfl, PhiS_next, Phi_castSucc]
  rw [leaves2_0, leaves2_1, leaves2_2, leaves2_3, leaves2_4, leaves2_5, leaves2_6]
  have hN : t.val < 25 := lt_of_lt_of_eq t.isLt (show cfg2.N = 25 from N_2)
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 7 t (idle2_7 t hc1) (noFlush2_7 t hc1)]
    rw [PhiS_first V c _ _ h0, PhiA2_eq, accAt_first V c t h0]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, H7⟩
    iapply (run_first c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) scM2 (Memref.isWhole_whole _) hc0 hc1 (iblk2 V c 0 t) (iblk2 V c 1 t) Set.univ _)
    isplitl [H0]; · iexact H0
    isplitl [H1]; · iexact H1
    isplitl [HS]; · iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond2_0 (grid2.coords t) := fun h => h0 ((hcond2_0 t).mp h)
    rw [PhiS_later V c _ _ h0, accAt_later V c t h0]
    by_cases h1 : t.val = 24
    · -- the last point
      have hc1 : cond2_1 (grid2.coords t) := (hcond2_1 t).mpr h1
      rw [show (dat2 V c).leavesExact 7 t = owns (c : Thread nD τ) (st2_7 t) fullShare ((dat2 V c).after 7 t) from by
        unfold Dat.leavesExact; rw [live2_7 t hc1], after2_7]
      unfold headOut
      rw [accAt_later V c t h0]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) scM2 (Memref.isWhole_whole _) hc0 hc1 (iblk2 V c 0 t) (iblk2 V c 1 t) (iblk2 V c 2 t) (iblk2 V c 3 t) (iblk2 V c 4 t) (iblk2 V c 5 t) (iblk2 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      have hc1 : ¬cond2_1 (grid2.coords t) := fun h => h1 ((hcond2_1 t).mp h)
      rw [Dat.leavesExact_idle (dat2 V c) 7 t (idle2_7 t hc1) (noFlush2_7 t hc1)]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, H7⟩
      iapply (run_mid c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) scM2 (Memref.isWhole_whole _) hc0 hc1 (iblk2 V c 0 t) (iblk2 V c 1 t) _ Set.univ _)
      isplitl [H0]; · iexact H0
      isplitl [H1]; · iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body's obligation at every point of the grid. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_first V c 0 _ rfl]

/-- After the last point the invariant gives the class invariant back (the scratch's contents forgotten). -/
theorem hout2 (c : Dev nD) : (dat2 V c).Φ (Fin.last cfg2.N) ⊢ Pipeline.ΦA spec2 c := by
  have hne : (Fin.last cfg2.N).val ≠ 0 := by rw [Fin.val_last]; have : cfg2.N = 25 := N_2; omega
  rw [show (dat2 V c).Φ (Fin.last cfg2.N) = PhiS V c (Fin.last cfg2.N).val (Nat.le_of_lt_succ (Fin.last cfg2.N).isLt) from rfl,
    PhiS_later V c _ _ hne, PhiA2_eq]
  iintro ⟨Hoth, HS, Hg⟩
  isplitl [Hoth]; · iexact Hoth
  isplitl [HS]; · iexists _; iexact HS
  iexact Hg

end Cert.KernelIdeal.Hand

end
-- ==== Proof.Fold.lean ====
/-
  The contents of the TensorCore's buffers at each boundary between @main's items, from the launch
  memory: a host stretch applies its operations; a pallas_call leaves its arrays at what its pipeline's
  write-backs fold to and every other buffer as it found it.
-/
import proofs.«423902_j15470472200268_1_alg».proof.Proof.R0
import proofs.«423902_j15470472200268_1_alg».proof.Proof.R1
import proofs.«423902_j15470472200268_1_alg».proof.Proof.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the two casts of the operands (entry of the first call). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the three host stretches of the aggregation (entry of the second call). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- After the second call. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After the four host stretches of the pooling bookkeeping (entry of the third call). -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)
abbrev W10 : Dev nD → Valuation τ sig (Elt F) := fun c => StableHlo.after hostOps2_3 (W9 m c)
abbrev V10 : (c : Dev nD) → (b : Ref sig .tc) → Buf (Elt F) ((c : Thread nD τ).loc b) := fun c b => W10 m c b
/-- After the third call: the end of @main. -/
def W11 (c : Dev nD) : Valuation τ sig (Elt F) :=
  Pipeline.withArrays spec2 c (W10 m c) fun w => (dat2 (V10 m) c).arrAt w cfg2.N
abbrev V11 : (c : Dev nD) → (b : Ref sig .tc) → Buf (Elt F) ((c : Thread nD τ).loc b) := fun c b => W11 m c b

/-- What each call leaves in its result array. -/
def res0 (c : Dev nD) := (dat0 (V1 m) c).arrAt 2 cfg0.N
def res1 (c : Dev nD) := (dat1 (V5 m) c).arrAt 2 cfg1.N
def res2 (c : Dev nD) := (dat2 (V10 m) c).arrAt 7 cfg2.N

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb

end Cert.KernelIdeal.Hand

end
-- ==== Proof.Run.lean ====
/-
  The run of the whole @main: eleven items — a host stretch, the first pallas_call, three host stretches,
  the second pallas_call, four host stretches, the third pallas_call — each item taking every unscoped
  buffer of the TensorCore from one boundary's contents (Fold.lean) to the next. The final memory is read
  off the last boundary: the result array holds what the third pipeline folds to, and every argument
  array is walked back, item by item, to what it held at launch.
-/
import proofs.«423902_j15470472200268_1_alg».proof.Proof.Fold
import proofs.«423902_j15470472200268_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An argument array through the items

A reference that no host stretch writes and that is not an array of the first two calls holds at the entry of
the third call what it held at launch; across the third call it is either bypassed or read through an input
window, which is never written back. -/

/-- Untouched up to the third call's entry. -/
theorem W10_launch (c : Dev nD) (r : Ref sig .tc)
    (h0 : r ∉ hostOps0_W) (a0 : ∀ w, Pipeline.arrRef spec0 w ≠ r)
    (h1 : r ∉ hostOps1_W) (h1a : r ∉ hostOps1_1_W) (h1b : r ∉ hostOps1_2_W) (a1 : ∀ w, Pipeline.arrRef spec1 w ≠ r)
    (h2 : r ∉ hostOps2_W) (h2a : r ∉ hostOps2_1_W) (h2b : r ∉ hostOps2_2_W) (h2c : r ∉ hostOps2_3_W) :
    W10 m c (Proc.devRef .tc r) = m ((c : Thread nD τ).loc r) := by
  have e10 : W10 m c (Proc.devRef .tc r) = W9 m c (Proc.devRef .tc r) := StableHlo.after_of_writes_sub hostOps2_3 _ hostOps2_3_writes h2c
  have e9 : W9 m c (Proc.devRef .tc r) = W8 m c (Proc.devRef .tc r) := StableHlo.after_of_writes_sub hostOps2_2 _ hostOps2_2_writes h2b
  have e8 : W8 m c (Proc.devRef .tc r) = W7 m c (Proc.devRef .tc r) := StableHlo.after_of_writes_sub hostOps2_1 _ hostOps2_1_writes h2a
  have e7 : W7 m c (Proc.devRef .tc r) = W6 m c (Proc.devRef .tc r) := StableHlo.after_of_writes_sub hostOps2 _ hostOps2_writes h2
  have e6 : W6 m c (Proc.devRef .tc r) = W5 m c (Proc.devRef .tc r) := W6_of_ne m c r a1
  have e5 : W5 m c (Proc.devRef .tc r) = W4 m c (Proc.devRef .tc r) := StableHlo.after_of_writes_sub hostOps1_2 _ hostOps1_2_writes h1b
  have e4 : W4 m c (Proc.devRef .tc r) = W3 m c (Proc.devRef .tc r) := StableHlo.after_of_writes_sub hostOps1_1 _ hostOps1_1_writes h1a
  have e3 : W3 m c (Proc.devRef .tc r) = W2 m c (Proc.devRef .tc r) := StableHlo.after_of_writes_sub hostOps1 _ hostOps1_writes h1
  have e2 : W2 m c (Proc.devRef .tc r) = W1 m c (Proc.devRef .tc r) := W2_of_ne m c r a0
  have e1 : W1 m c (Proc.devRef .tc r) = W0 m c (Proc.devRef .tc r) := StableHlo.after_of_writes_sub hostOps0 _ hostOps0_writes h0
  rw [e10, e9, e8, e7, e6, e5, e4, e3, e2, e1]

/-- An argument the third call bypasses. -/
theorem W11_bypassed (c : Dev nD) (r : Ref sig .tc) (a2 : ∀ w, Pipeline.arrRef spec2 w ≠ r)
    (h : W10 m c (Proc.devRef .tc r) = m ((c : Thread nD τ).loc r)) :
    W11 m c (Proc.devRef .tc r) = m ((c : Thread nD τ).loc r) :=
  (W11_of_ne m c r a2).trans h

/-- An argument the third call reads through an input window. -/
theorem W11_input (c : Dev nD) (w : Fin cfg2.W) (hw : (cfg2.win w).isOut = false)
    (h : W10 m c (Proc.devRef .tc (Pipeline.arrRef spec2 w)) = m ((c : Thread nD τ).loc (Pipeline.arrRef spec2 w))) :
    W11 m c (Proc.devRef .tc (Pipeline.arrRef spec2 w)) = m ((c : Thread nD τ).loc (Pipeline.arrRef spec2 w)) :=
  (W11_arr m c w).trans (((dat2 (V10 m) c).arrAt_in w hw _).trans ((A_eq2 (V10 m) c w).trans h))

theorem W11_main_arg0 (c : Dev nD) : W11 m c (Proc.devRef .tc main_arg0) = m ((c : Thread nD τ).loc main_arg0) :=
  W11_bypassed m c main_arg0 (by decide) (W10_launch m c main_arg0 (by decide) (by decide) (by decide) (by decide) (by decide) (by decide) (by decide) (by decide) (by decide) (by decide))
theorem W11_main_arg1 (c : Dev nD) : W11 m c (Proc.devRef .tc main_arg1) = m ((c : Thread nD τ).loc main_arg1) :=
  W11_bypassed m c main_arg1 (by decide) (W10_launch m c main_arg1 (by decide) (by decide) (by decide) (by decide) (by decide) (by decide) (by decide) (by decide) (by decide) (by decide))
theorem W11_main_arg2 (c : Dev nD) : W11 m c (Proc.devRef .tc main_arg2) = m ((c : Thread nD τ).loc main_arg2) :=
  W11_bypassed m c main_arg2 (by decide) (W10_launch m c main_arg2 (by decide) (by decide) (by decide) (by decide) (by decide) (by decide) (by decide) (by decide) (by decide) (by decide))
theorem W11_main_arg3 (c : Dev nD) : W11 m c (Proc.devRef .tc main_arg3) = m ((c : Thread nD τ).loc main_arg3) :=
  W11_bypassed m c main_arg3 (by decide) (W10_launch m c main_arg3 (by decide) (by decide) (by decide) (by decide) (by decide) (by decide) (by decide) (by decide) (by decide) (by decide))
theorem W11_main_arg4 (c : Dev nD) : W11 m c (Proc.devRef .tc main_arg4) = m ((c : Thread nD τ).loc main_arg4) :=
  W11_bypassed m c main_arg4 (by decide) (W10_launch m c main_arg4 (by decide) (by decide) (by decide) (by decide) (by decide) (by decide) (by decide) (by decide) (by decide) (by decide))
theorem W11_main_arg6 (c : Dev nD) : W11 m c (Proc.devRef .tc main_arg6) = m ((c : Thread nD τ).loc main_arg6) :=
  W11_bypassed m c main_arg6 (by decide) (W10_launch m c main_arg6 (by decide) (by decide) (by decide) (by decide) (by decide) (by decide) (by decide) (by decide) (by decide) (by decide))
theorem W11_main_arg8 (c : Dev nD) : W11 m c (Proc.devRef .tc main_arg8) = m ((c : Thread nD τ).loc main_arg8) :=
  W11_bypassed m c main_arg8 (by decide) (W10_launch m c main_arg8 (by decide) (by decide) (by decide) (by decide) (by decide) (by decide) (by decide) (by decide) (by decide) (by decide))
theorem W11_main_arg5 (c : Dev nD) : W11 m c (Proc.devRef .tc main_arg5) = m ((c : Thread nD τ).loc main_arg5) :=
  W11_input m c 3 rfl (W10_launch m c main_arg5 (by decide) (by decide) (by decide) (by decide) (by decide) (by decide) (by decide) (by decide) (by decide) (by decide))
theorem W11_main_arg7 (c : Dev nD) : W11 m c (Proc.devRef .tc main_arg7) = m ((c : Thread nD τ).loc main_arg7) :=
  W11_input m c 5 rfl (W10_launch m c main_arg7 (by decide) (by decide) (by decide) (by decide) (by decide) (by decide) (by decide) (by decide) (by decide) (by decide))
/-- The result array at the end: the third pipeline's output window folded over the whole grid. -/
theorem W11_main_v63 (c : Dev nD) : W11 m c (Proc.devRef .tc main_v63) = res2 m c := W11_arr m c 7

/-! ## The proof data family and the thread state between items -/

/-- Every pipeline's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V10 m) c

abbrev 𝒱₀ : Variants := Variants.none
/-- No core waits on another: no level is assigned. -/
abbrev L : GSem nD τ sig → Finset Unit := fun _ => ∅
abbrev lv : GSem nD τ sig → Unit → ℕ := fun _ _ => 0

/-- Beside the buffers, between any two items: the core's generator register at some state, and the core owing nothing. -/
abbrev side (c : Dev nD) : sProp 𝕄 := iprop((∃ r, prngReg c r) ∗ ∃ T, owes (c : Thread nD τ) (0 : CellTallies nD τ sig Unit) T)

/-- The thread state at a boundary: every unscoped buffer at the boundary's contents, and the side state. -/
abbrev at_ (W : Dev nD → Valuation τ sig (Elt F)) (c : Dev nD) : sProp 𝕄 :=
  iprop(StableHlo.held (c : Thread nD τ) (Pipeline.ucRefs τ sig) (W c) ∗ side (F := F) c)

/-- A host stretch as a segment, from the contents W: it ends at the stretch applied to W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (side (F := F))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The core's debt into a pipeline and out of it -/

/-- Owing nothing, whatever is recorded, is owing a pipeline's first tallies within its first bound, when those tallies
    are zero and the data put no bound on what is recorded. -/
theorem owes_in {cfg : Cfg sig Λ₀} {c : Dev nD} (d : Dat τ (Elt F) Unit ℕ (UR sig nD τ) ℕ cfg c)
    (h0 : d.owed 0 = 0) (hr : d.recorded 0 = Set.univ) :
    (iprop(∃ T, owes (c : Thread nD τ) (0 : CellTallies nD τ sig Unit) T) : sProp 𝕄) ⊢ d.owesAt () 0 := by
  iintro ⟨%T, H⟩
  iexists T
  isplitr
  · ipureintro; intro x _; exact Or.inl (hr ▸ Set.mem_univ x)
  rw [h0]; iexact H

/-- The last tallies, zero, are owing nothing. -/
theorem owes_out {cfg : Cfg sig Λ₀} {c : Dev nD} (d : Dat τ (Elt F) Unit ℕ (UR sig nD τ) ℕ cfg c)
    (h0 : d.owed (Fin.last cfg.N) = 0) :
    d.owesAt () (Fin.last cfg.N) ⊢ (iprop(∃ T, owes (c : Thread nD τ) (0 : CellTallies nD τ sig Unit) T) : sProp 𝕄) := by
  iintro ⟨%T, -, H⟩
  iexists T
  rw [h0]; iexact H

/-! ## The three calls as segments -/

set_option backward.isDefEq.respectTransparency.types false in
/-- The first call: entered with every unscoped buffer at W1, left with them at W2. Its three arrays are cut out of the
    unscoped buffers and glued back at what the pipeline folds to; the generator register goes into the class invariant
    and comes back; the core owes nothing throughout. -/
def call0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := at_ (W1 m)
  post := at_ (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have cut := Pipeline.arrays_of_unscopedBufs (p := 0) (pcfgs (F := F)) adm (pdats m) launch0.win launch0.arr_whole c
      ((pdats m 0 c).share_full fun _ => rfl) (V1 m c) fun _ => rfl
    rw [Pipeline.unscopedBufs_held] at cut
    rw [Pipeline.ownSems0_none]
    iintro ⟨⟨Hbuf, Hreg, Howe⟩, -, -⟩
    ihave Hcut := cut $$ Hbuf
    icases Hcut with ⟨Harr, Hoff⟩
    imodintro
    isplitl [Harr]; · iexact Harr
    isplitr
    · unfold Pipeline.prefHeld
      rw [show (Finset.univ : Finset (Fin 0)) = ∅ from rfl, BI.bigSep_empty]; iempintro
    isplitl [Howe]; · iapply (owes_in (pdats m 0 c) rfl rfl); iexact Howe
    isplitl [Hreg]; · iexact Hreg
    iexact Hoff
  hin c := by
    show _ ⊢ Pipeline.ΦA spec0 c
    unfold Pipeline.ΦA
    iintro ⟨Hreg, -, Hsc⟩
    isplitl [Hsc]; · iexact Hsc
    iexact Hreg
  hout c := by
    rw [Pipeline.ownSems0_none]
    show Pipeline.ΦA spec0 c ⊢ _
    unfold Pipeline.ΦA
    iintro ⟨Hsc, Hreg⟩
    isplitl [Hreg]; · iexact Hreg
    isplitr; · iempintro
    iexact Hsc
  hexit c := by
    have glue := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at glue
    iintro ⟨Harr, Howe, Hreg, Hoff⟩
    imodintro
    isplitl [Harr Hoff]
    · iapply glue; isplitl [Harr] <;> iassumption
    isplitl [Hreg]; · iexact Hreg
    iapply (owes_out (pdats m 0 c) rfl); iexact Howe

set_option backward.isDefEq.respectTransparency.types false in
/-- The second call, from W5 to W6, in the same way. -/
def call1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre := at_ (W5 m)
  post := at_ (W6 m)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    have cut := Pipeline.arrays_of_unscopedBufs (p := 1) (pcfgs (F := F)) adm (pdats m) launch1.win launch1.arr_whole c
      ((pdats m 1 c).share_full fun _ => rfl) (V5 m c) fun _ => rfl
    rw [Pipeline.unscopedBufs_held] at cut
    rw [Pipeline.ownSems0_none]
    iintro ⟨⟨Hbuf, Hreg, Howe⟩, -, -⟩
    ihave Hcut := cut $$ Hbuf
    icases Hcut with ⟨Harr, Hoff⟩
    imodintro
    isplitl [Harr]; · iexact Harr
    isplitr
    · unfold Pipeline.prefHeld
      rw [show (Finset.univ : Finset (Fin 0)) = ∅ from rfl, BI.bigSep_empty]; iempintro
    isplitl [Howe]; · iapply (owes_in (pdats m 1 c) rfl rfl); iexact Howe
    isplitl [Hreg]; · iexact Hreg
    iexact Hoff
  hin c := by
    show _ ⊢ Pipeline.ΦA spec1 c
    unfold Pipeline.ΦA
    iintro ⟨Hreg, -, Hsc⟩
    isplitl [Hsc]; · iexact Hsc
    iexact Hreg
  hout c := by
    rw [Pipeline.ownSems0_none]
    show Pipeline.ΦA spec1 c ⊢ _
    unfold Pipeline.ΦA
    iintro ⟨Hsc, Hreg⟩
    isplitl [Hreg]; · iexact Hreg
    isplitr; · iempintro
    iexact Hsc
  hexit c := by
    have glue := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (fun w => (W6_arr m c w).symm)
      (fun b hb => W6_of_ne m c b fun w e => hb (Finset.mem_image.mpr ⟨w, Finset.mem_univ _, e⟩))
    rw [Pipeline.unscopedBufs_held] at glue
    iintro ⟨Harr, Howe, Hreg, Hoff⟩
    imodintro
    isplitl [Harr Hoff]
    · iapply glue; isplitl [Harr] <;> iassumption
    isplitl [Hreg]; · iexact Hreg
    iapply (owes_out (pdats m 1 c) rfl); iexact Howe

set_option backward.isDefEq.respectTransparency.types false in
/-- The third call, from W10 to W11. Its invariant carries the accumulator scratch from point to point: before the first
    point it is the class invariant (hin2), and after the last it gives the class invariant back (hout2). -/
def call2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m) c).loose
  hwaits := Pipeline.hwaits_of_owed_zero _ _ _ _ L lv 2 fun _ _ => rfl
  pre := at_ (W10 m)
  post := at_ (W11 m)
  X c := iprop(∃ r, prngReg c r)
  Y c := iprop(∃ r, prngReg c r)
  Z c := Pipeline.unscopedRest (Ix := Unit) (Name := ℕ) (U := UR sig nD τ) (Lvl := ℕ) spec2 c (V10 m c)
  hentry c := by
    have cut := Pipeline.arrays_of_unscopedBufs (p := 2) (pcfgs (F := F)) adm (pdats m) launch2.win launch2.arr_whole c
      ((pdats m 2 c).share_full fun _ => rfl) (V10 m c) fun _ => rfl
    rw [Pipeline.unscopedBufs_held] at cut
    rw [Pipeline.ownSems0_none]
    iintro ⟨⟨Hbuf, Hreg, Howe⟩, -, -⟩
    ihave Hcut := cut $$ Hbuf
    icases Hcut with ⟨Harr, Hoff⟩
    imodintro
    isplitl [Harr]; · iexact Harr
    isplitr
    · unfold Pipeline.prefHeld
      rw [show (Finset.univ : Finset (Fin 0)) = ∅ from rfl, BI.bigSep_empty]; iempintro
    isplitl [Howe]; · iapply (owes_in (pdats m 2 c) rfl rfl); iexact Howe
    isplitl [Hreg]; · iexact Hreg
    iexact Hoff
  hin c := by
    refine .trans ?_ (hin2 (V10 m) c)
    unfold Pipeline.ΦA
    iintro ⟨Hreg, -, Hsc⟩
    isplitl [Hsc]; · iexact Hsc
    iexact Hreg
  hout c := by
    rw [Pipeline.ownSems0_none]
    refine (hout2 (V10 m) c).trans ?_
    unfold Pipeline.ΦA
    iintro ⟨Hsc, Hreg⟩
    isplitl [Hreg]; · iexact Hreg
    isplitr; · iempintro
    iexact Hsc
  hexit c := by
    have glue := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V10 m c) (V11 m c) ((pdats m 2 c).arrAt · cfg2.N) (fun w => (W11_arr m c w).symm)
      (fun b hb => W11_of_ne m c b fun w e => hb (Finset.mem_image.mpr ⟨w, Finset.mem_univ _, e⟩))
    rw [Pipeline.unscopedBufs_held] at glue
    iintro ⟨Harr, Howe, Hreg, Hoff⟩
    imodintro
    isplitl [Harr Hoff]
    · iapply glue; isplitl [Harr] <;> iassumption
    isplitl [Hreg]; · iexact Hreg
    iapply (owes_out (pdats m 2 c) rfl); iexact Howe

/-! ## @main as its eleven items, and the launch -/

abbrev items : List (Pipeline.Seg (pcfgs (F := F)) adm (pdats m) () defs₀ 𝒱₀ L lv) :=
  [ .host (stretch hostOps0 hostOps0_sub hostOps0_fresh (W0 m)),
    .region (call0 m),
    .host (stretch hostOps1 hostOps1_sub hostOps1_fresh (W2 m)),
    .host (stretch hostOps1_1 hostOps1_1_sub hostOps1_1_fresh (W3 m)),
    .host (stretch hostOps1_2 hostOps1_2_sub hostOps1_2_fresh (W4 m)),
    .region (call1 m),
    .host (stretch hostOps2 hostOps2_sub hostOps2_fresh (W6 m)),
    .host (stretch hostOps2_1 hostOps2_1_sub hostOps2_1_fresh (W7 m)),
    .host (stretch hostOps2_2 hostOps2_2_sub hostOps2_2_fresh (W8 m)),
    .host (stretch hostOps2_3 hostOps2_3_sub hostOps2_3_fresh (W9 m)),
    .region (call2 m) ]

/-- @main is the run of the items: both are the chain of the same eleven fragments. -/
theorem main_items (c : Dev nD) : main (F := F) c = Pipeline.Seg.run (items m) := by
  rewrite [main_chain c, Pipeline.Seg.run_eq_chain]
  rfl

/-- The last boundary without the debt: every unscoped buffer at W11, the generator register somewhere. -/
abbrev last (c : Dev nD) : sProp 𝕄 := iprop(StableHlo.held (c : Thread nD τ) (Pipeline.ucRefs τ sig) (W11 m c) ∗ ∃ r, prngReg c r)

/-- The last boundary's state, with the debt set apart. -/
theorem at_last (c : Dev nD) :
    at_ (W11 m) c ⊢ iprop(last m c ∗ ∃ T, owes (c : Thread nD τ) (0 : CellTallies nD τ sig Unit) T) := by
  iintro ⟨Hb, Hr, Ho⟩
  isplitl [Hb Hr]
  · isplitl [Hb] <;> iassumption
  iexact Ho

set_option backward.isDefEq.respectTransparency.types false in
/-- From any memory with zero counters @main runs to the end on every core, and every final memory holds every unscoped
    buffer of the core at the last boundary's contents W11. -/
theorem run_W11 : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m)) (Tₙ := last m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => at_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hb, -, Ho, -, Hr, -⟩, -⟩
      imodintro
      isplitl [Hb]; · iexact Hb
      isplitl [Hr]; · iexists _; iexact Hr
      iexists ∅; iexact Ho)
    (QY := fun c s => ∀ b ∈ Pipeline.ucRefs τ sig, s.mem ((c : Thread nD τ).1, b) = W11 m c b)
    (hfin := fun c s' => by
      iintro ⟨⟨Hb, -⟩, HSI⟩
      unfold StableHlo.held
      imodintro
      iapply (pointsTo_read_all (Pipeline.ucRefs τ sig) (fun b => ((c : Thread nD τ).1, b)) (W11 m c) s')
      isplitl [Hb] <;> iassumption)
    (hQ := fun s h => h)

/-! ## The two statements -/

/-- THE RUN: @main terminates on every core, the result array ends holding what the third pipeline folds to, and every
    argument array ends as launched. -/
theorem run_all : θ_run defs (onTc (τ := τ) (main (F := F))) ⟨m, fun _ => 0, ρ⟩ (fun r => ∀ c : Dev nD,
      r.2.mem ((c.tc : Thread nD τ).loc main_v63) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v63 (by decide))).trans (W11_main_v63 m c),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_W11 m ρ)

/-- THE FRAME: the same run, read at the argument arrays only. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_all m ρ)

end Cert.KernelIdeal.Hand

end
-- ==== Proof.KR0.lean ====
/-
  The first pallas_call: one grid point multiplies a 2000-row tile of the node features by the whole
  weight matrix on the matrix unit (zero accumulator) and stores the 2000 x 256 product tile.
  Here: the tile each window stages at a point, what the body leaves in the output tile, the proof
  data of the pipeline at an arbitrary entry valuation V, and the body's obligation at every point.
-/
import proofs.«423902_j15470472200268_1_alg».proof.Proof.Gen.Kernel.Launch
import proofs.«423902_j15470472200268_1_alg».proof.Proof.Gen.Kernel.Skeleton
import proofs.«423902_j15470472200268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-tile rectangles the body loads and stores through. -/
abbrev rX0 : Rect S2000x128 := Rect.unit (s := S2000x128) ![0, 0] S2000x128.size inb_S2000x128_S2000x128_0_0
abbrev rW0 : Rect S128x256 := Rect.unit (s := S128x256) ![0, 0] S128x256.size inb_S128x256_S128x256_0_0
abbrev rO0 : Rect S2000x256 := Rect.unit (s := S2000x256) ![0, 0] S2000x256.size inb_S2000x256_S2000x256_0_0

/-- What the body leaves in the output tile: the product of the feature tile and the weights. -/
def out0 (x0 : Vec F S2000x128 .bf16) (x1 : Vec F S128x256 .bf16) : Vec F S2000x256 .f32 :=
  View.canon [⟨rO0, k0_pay1 (View.ld x0 rX0) (View.ld x1 rW0)⟩]

/-- The pipeline's proof data: arrays as found, inputs left in place, the output tile at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-! ## What the body finds in the two input tiles -/

/-- The feature window is refilled at every point: its staging buffer holds the point's 2000-row tile. -/
theorem stays0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The weight window is filled once, at the first point, and its block index is the constant 0: at a later
    point the buffer still holds what the first fill put there, which is the same whole matrix. -/
theorem stays0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The body on its three staging memrefs -/

/-- The single whole-tile store covers the output tile. -/
theorem tiles0 (p : Vec F S2000x256 .f32) (y : S2000x256.Idx) :
    ∃ pc ∈ ([⟨rO0, p⟩] : List (View.Piece (Elt F) S2000x256 .f32)), y ∈ pc.1.set :=
  View.cover_of_tiled [⟨rO0, p⟩] S2000x256.size (by rfl) y

set_option maxHeartbeats 1000000 in
/-- The body reads the feature tile `x0` and the weights `x1`, reads the output tile without using what it reads,
    and overwrites the output tile with the product: the inputs are handed back as they were, the output at
    `out0 x0 x1`, whatever it held. -/
theorem run0 (c : Dev nD) (E : Set ℕ) (i : grid0.Coords)
    (a1 : Memref sig .tc .vmem S2000x128 .bf16) (h1 : a1.IsWhole) (a2 : Memref sig .tc .vmem S128x256 .bf16) (h2 : a2.IsWhole)
    (a3 : Memref sig .tc .vmem S2000x256 .f32) (h3 : a3.IsWhole)
    (x0 : Vec F S2000x128 .bf16) (x1 : Vec F S128x256 .bf16) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out0 x0 x1)) -∗ K ⟨⟩))
      ⊢ wp frame (wpE (defs₀ (F := F)) Variants.none c none) E (cc0__feat_transform_kernel i a1 h1 a2 h2 a3 h3) K := by
  simp only [cc0__feat_transform_kernel_eq_skeleton]; unfold cc0__feat_transform_kernel_skel
  unfold owns
  iintro ⟨⟨%f1, %e1, H1⟩, ⟨%f2, %e2, H2⟩, ⟨%d, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles0 _)

/-! ## The obligation at one point -/

/-- What the pipeline hands the body at point `t`: the invariant, what the core owes, and the three current
    staging buffers at what they then hold. -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same invariant and debt, each buffer at what the proof data say the body leaves. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their tiles (`stays0_0`, `stays0_1`), so `run0` applies; the
    invariant and the debt are not touched by the body and do not depend on the point. -/
theorem step0 (c : Dev nD) (t : Fin cfg0.N) :
    enter0 V c t ⊢ wp frame (wpE (defs₀ (F := F)) Variants.none c none) Set.univ (bodyAt0 t) (fun _ => leave0 V c t) := by
  unfold enter0 leave0 bodyAt0
  simp only [stays0_0, stays0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point of the grid. -/
theorem body_obligation0 (c : Dev nD) : BodyObligation (dat0 (F := F) V c) (defs₀ (F := F)) Variants.none () Set.univ := fun t => by
  rw [bigSep_W0, bigSep_W0]
  exact step0 V c t

end Cert.Kernel.Hand

end
-- ==== Proof.KR1.lean ====
/-
  The second pallas_call: one grid point adds the bias row to a 2000-row tile of the aggregated
  features and clamps at zero. Tiles, what the body leaves, proof data at an entry valuation V, and
  the body's obligation.
-/
import proofs.«423902_j15470472200268_1_alg».proof.Proof.Gen.Kernel.Launch
import proofs.«423902_j15470472200268_1_alg».proof.Proof.Gen.Kernel.Skeleton
import proofs.«423902_j15470472200268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH1 : Rect S2000x256 := Rect.unit (s := S2000x256) ![0, 0] S2000x256.size inb_S2000x256_S2000x256_0_0
abbrev rB1 : Rect S1x256 := Rect.unit (s := S1x256) ![0, 0] S1x256.size inb_S1x256_S1x256_0_0

/-- What the body leaves in the output tile: max (tile + bias row) 0. -/
def out1 (x0 : Vec F S2000x256 .f32) (x1 : Vec F S1x256 .f32) : Vec F S2000x256 .f32 :=
  View.canon [⟨rH1, k1_pay1 (View.ld x0 rH1) (View.ld x1 rB1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-! ## What the body finds in the two input tiles -/

/-- The aggregated-feature window is refilled at every point: its staging buffer holds the point's tile. -/
theorem stays1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The bias row is filled once, at the first point, and its block index is the constant 0: later points find
    in the buffer what the first fill put there, which is the same row. -/
theorem stays1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-! ## The body on its three staging memrefs -/

/-- The single whole-tile store covers the output tile. -/
theorem tiles1 (p : Vec F S2000x256 .f32) (y : S2000x256.Idx) :
    ∃ pc ∈ ([⟨rH1, p⟩] : List (View.Piece (Elt F) S2000x256 .f32)), y ∈ pc.1.set :=
  View.cover_of_tiled [⟨rH1, p⟩] S2000x256.size (by rfl) y

set_option maxHeartbeats 1000000 in
/-- The body reads the tile `x0` and the bias row `x1`, reads the output tile without using what it reads, and
    overwrites the output tile with the clamped sum: the inputs come back as they were, the output at
    `out1 x0 x1`, whatever it held. -/
theorem run1 (c : Dev nD) (E : Set ℕ) (i : grid1.Coords)
    (a1 : Memref sig .tc .vmem S2000x256 .f32) (h1 : a1.IsWhole) (a2 : Memref sig .tc .vmem S1x256 .f32) (h2 : a2.IsWhole)
    (a3 : Memref sig .tc .vmem S2000x256 .f32) (h3 : a3.IsWhole)
    (x0 : Vec F S2000x256 .f32) (x1 : Vec F S1x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out1 x0 x1)) -∗ K ⟨⟩))
      ⊢ wp frame (wpE (defs₀ (F := F)) Variants.none c none) E (cc1__bias_relu_kernel i a1 h1 a2 h2 a3 h3) K := by
  simp only [cc1__bias_relu_kernel_eq_skeleton]; unfold cc1__bias_relu_kernel_skel
  unfold owns
  iintro ⟨⟨%f1, %e1, H1⟩, ⟨%f2, %e2, H2⟩, ⟨%d, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles1 _)

/-! ## The obligation at one point -/

/-- What the pipeline hands the body at point `t`: the invariant, what the core owes, and the three current
    staging buffers at what they then hold. -/
def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it takes back: the same invariant and debt, each buffer at what the proof data say the body leaves. -/
def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two input buffers hold their tiles (`stays1_0`, `stays1_1`), so `run1` applies; the
    invariant and the debt are not touched by the body and do not depend on the point. -/
theorem step1 (c : Dev nD) (t : Fin cfg1.N) :
    enter1 V c t ⊢ wp frame (wpE (defs₀ (F := F)) Variants.none c none) Set.univ (bodyAt1 t) (fun _ => leave1 V c t) := by
  unfold enter1 leave1 bodyAt1
  simp only [stays1_0, stays1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point of the grid. -/
theorem body_obligation1 (c : Dev nD) : BodyObligation (dat1 (F := F) V c) (defs₀ (F := F)) Variants.none () Set.univ := fun t => by
  rw [bigSep_W1, bigSep_W1]
  exact step1 V c t

end Cert.Kernel.Hand

end
-- ==== Proof.KR2.lean ====
/-
  The third pallas_call: over 25 grid points a 64 x 256 scratch accumulates (one-hot tile)ᵀ · (feature
  tile); the first point starts it from zero, and the last point divides each row by its clamped count
  and runs the two-layer head into the 64 x 1 result. Here: the tiles, the scratch's contents after
  each point (accAt), what the last point stores (headOut), the invariant that carries the scratch
  between points, the proof data at an entry valuation V, and the body's obligation.
-/
import proofs.«423902_j15470472200268_1_alg».proof.Proof.Gen.Kernel.Launch
import proofs.«423902_j15470472200268_1_alg».proof.Proof.Gen.Kernel.Skeleton
import proofs.«423902_j15470472200268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator scratch, whole. -/
abbrev scM2 : Memref sig .tc .vmem S64x256 .f32 := Memref.whole cc2_scratch0

/-- The scratch after point n: the point's contribution added to what the point before left (zero at the first). -/
def accAt (c : Dev nD) : (n : ℕ) → n < cfg2.N → Vec F S64x256 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (accAt c n (Nat.lt_of_succ_lt hn))

theorem accAt_zero (c : Dev nD) (hn : 0 < cfg2.N) :
    accAt V c 0 hn = k2_pay2 (iblk2 V c 0 ⟨0, hn⟩) (iblk2 V c 1 ⟨0, hn⟩) (k2_pay1 (F := F)) := rfl
theorem accAt_succ (c : Dev nD) (n : ℕ) (hn : n + 1 < cfg2.N) :
    accAt V c (n + 1) hn = k2_pay2 (iblk2 V c 0 ⟨n + 1, hn⟩) (iblk2 V c 1 ⟨n + 1, hn⟩) (accAt V c n (Nat.lt_of_succ_lt hn)) := rfl

/-- What the head stores into the result tile at point t (meaningful at the last point, where the scratch is complete). -/
def headOut (c : Dev nD) (t : Fin cfg2.N) : Vec F S64x1 .f32 :=
  k2_pay3 (accAt V c t.val t.isLt) (iblk2 V c 2 t) (iblk2 V c 3 t) (iblk2 V c 4 t) (iblk2 V c 5 t) (iblk2 V c 6 t)

/-- The staging buffers of the other two calls, each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Between points: before the first, every scoped buffer the pipeline does not stage at anything; afterwards the
    scratch at what the point before left, the other calls' buffers at anything, the generator register somewhere. -/
def PhiS (c : Dev nD) : (n : ℕ) → n ≤ cfg2.N → sProp 𝕄
  | 0, _ => Pipeline.ΦA spec2 c
  | n + 1, hn => iprop(others2 (F := F) c ∗ owns (c : Thread nD τ) scM2 fullShare (accAt V c n hn) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => headOut V c t
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_7 (c : Dev nD) (t : Fin cfg2.N) : (dat2 V c).after 7 t = headOut V c t := by dsimp only [dat2]

/-- The class invariant, with the scratch split out of the scoped rest. -/
theorem PhiA2_eq (c : Dev nD) :
    (Pipeline.ΦA spec2 c : sProp 𝕄) = iprop(others2 (F := F) c ∗ (∃ d, owns (c : Thread nD τ) scM2 fullShare d) ∗ (∃ r, prngReg c r)) := by
  unfold Pipeline.ΦA; rw [scopedRest2_eq]; unfold others2; simp only [scM2, owns_whole]
  refine BI.equiv_iff.mp ⟨?_, ?_⟩
  · show (_ : sProp 𝕄) ⊢ _
    iintro ⟨⟨H1, H2, H3, H4, H5, H6, H7, H8, H9, H10, HS⟩, Hr⟩
    isplitl [H1 H2 H3 H4 H5 H6 H7 H8 H9 H10]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [HS]; · iexact HS
    iexact Hr
  · show (_ : sProp 𝕄) ⊢ _
    iintro ⟨⟨H1, H2, H3, H4, H5, H6, H7, H8, H9, H10⟩, HS, Hr⟩
    isplitr [Hr]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hr

/-! ## The two conditionals' tests, decided over the grid -/

/-- The first conditional's test as the body computes it from the grid coordinate: the coordinate is 0. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional's test: the coordinate is 24, the last point. -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

/-- The result window is idle wherever the second test fails, and is not written back there. -/
theorem idle2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point it is live: the head is stored into it. -/
theorem live2_7 : ∀ t : Fin cfg2.N, cond2_1 (grid2.coords t) → cfg2.idle 7 (grid2.coords t) = false := by decide +kernel

/-- The zero offsets of a whole-buffer rectangle, however they are spelt. -/
theorem zeroOffsets : (![0, 0] : Fin 2 → Nat) = fun _ => 0 := funext fun a => by fin_cases a <;> rfl

/-- A store through the whole rectangle, last, covers the scratch whatever was stored before it; -/
theorem cover_scratch (w : Vec F S64x256 .f32) (L : List (View.Piece (Elt F) S64x256 .f32)) (y : S64x256.Idx) :
    ∃ p ∈ ((⟨Rect.unit (s := S64x256) ![0, 0] S64x256.size inb_S64x256_S64x256_0_0, w⟩ : View.Piece (Elt F) S64x256 .f32) :: L), y ∈ p.1.set :=
  ⟨_, List.mem_cons_self, View.mem_set_unit_zero zeroOffsets inb_S64x256_S64x256_0_0 y⟩

/-- and likewise the result tile. -/
theorem cover_result (w : Vec F S64x1 .f32) (L : List (View.Piece (Elt F) S64x1 .f32)) (y : S64x1.Idx) :
    ∃ p ∈ ((⟨Rect.unit (s := S64x1) ![0, 0] S64x1.size inb_S64x1_S64x1_0_0, w⟩ : View.Piece (Elt F) S64x1 .f32) :: L), y ∈ p.1.set :=
  ⟨_, List.mem_cons_self, View.mem_set_unit_zero zeroOffsets inb_S64x1_S64x1_0_0 y⟩

/-! ## The body on whole memrefs, case by case -/

set_option maxHeartbeats 1000000 in
/-- A middle point (neither test holds): the two tiles and the scratch are loaded and the scratch is stored
    back at the tiles' contribution added to what it held; nothing else is touched. -/
theorem run_mid (c : Dev nD) (i : grid2.Coords) (arg1 : Memref sig .tc .vmem S2000x64 .bf16) (harg1 : arg1.IsWhole) (arg2 : Memref sig .tc .vmem S2000x256 .f32) (harg2 : arg2.IsWhole) (arg3 : Memref sig .tc .vmem S64x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S64x1 .f32) (harg8 : arg8.IsWhole) (arg9 : Memref sig .tc .vmem S64x256 .f32) (harg9 : arg9.IsWhole)
    (hc0 : ¬cond2_0 i) (hc1 : ¬cond2_1 i)
    (x0 : Vec F S2000x64 .bf16) (x1 : Vec F S2000x256 .f32) (xs : Vec F S64x256 .f32) (E : Set ℕ) (K : PUnit → sProp 𝕄) :
    iprop(owns (c : Thread nD τ) arg1 fullShare x0 ∗ owns (c : Thread nD τ) arg2 fullShare x1 ∗ owns (c : Thread nD τ) arg9 fullShare xs
        ∗ (iprop(owns (c : Thread nD τ) arg1 fullShare x0 ∗ owns (c : Thread nD τ) arg2 fullShare x1
            ∗ owns (c : Thread nD τ) arg9 fullShare (k2_pay2 x0 x1 xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  -- the one store covers the scratch, so what is read back is its payload; each load through the whole
  -- rectangle reads the buffer's contents
  rw [View.read_writes_eq_canon _ _ _ (cover_scratch _ _),
    View.canon_unit_zero zeroOffsets]
  simp only [View.readAt_eq_ld, harg1.read_unread, harg2.read_unread, harg9.read_unread,
    View.ld_unit_zero (S := S2000x64) zeroOffsets, View.ld_unit_zero (S := S2000x256) zeroOffsets,
    View.ld_unit_zero (S := S64x256) zeroOffsets]

set_option maxHeartbeats 1000000 in
/-- The first point (the first test holds, the second does not): the scratch, whatever it held, is stored at
    zero; then the tiles are loaded, the scratch is read back — the zeros just stored — and stored again at the
    tiles' contribution added to them. -/
theorem run_first (c : Dev nD) (i : grid2.Coords) (arg1 : Memref sig .tc .vmem S2000x64 .bf16) (harg1 : arg1.IsWhole) (arg2 : Memref sig .tc .vmem S2000x256 .f32) (harg2 : arg2.IsWhole) (arg3 : Memref sig .tc .vmem S64x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S64x1 .f32) (harg8 : arg8.IsWhole) (arg9 : Memref sig .tc .vmem S64x256 .f32) (harg9 : arg9.IsWhole)
    (hc0 : cond2_0 i) (hc1 : ¬cond2_1 i)
    (x0 : Vec F S2000x64 .bf16) (x1 : Vec F S2000x256 .f32) (E : Set ℕ) (K : PUnit → sProp 𝕄) :
    iprop(owns (c : Thread nD τ) arg1 fullShare x0 ∗ owns (c : Thread nD τ) arg2 fullShare x1 ∗ (∃ d, owns (c : Thread nD τ) arg9 fullShare d)
        ∗ (iprop(owns (c : Thread nD τ) arg1 fullShare x0 ∗ owns (c : Thread nD τ) arg2 fullShare x1
            ∗ owns (c : Thread nD τ) arg9 fullShare (k2_pay2 x0 x1 (k2_pay1 (F := F)))) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  -- two stores, the later covering: what is read back is the later payload, whose third operand is the
  -- scratch as loaded between the two stores, that is the zeros of the earlier one
  sl_unfold_words
  rw [View.read_writes_eq_canon _ _ _ (cover_scratch _ _),
    View.canon_cons_unit_zero zeroOffsets]
  simp only [View.readAt_eq_ld, harg1.read_unread, harg2.read_unread, View.readCov_unit_zero (S := S64x256) _ zeroOffsets,
    View.ld_unit_zero (S := S2000x64) zeroOffsets, View.ld_unit_zero (S := S2000x256) zeroOffsets]

set_option maxHeartbeats 1000000 in
/-- The last point (the second test holds, the first does not): the scratch is updated as at a middle point,
    then read back — the sum just stored — with the counts and the head's weights and biases, and the head of
    these is stored into the result tile, whatever that held. -/
theorem run_last (c : Dev nD) (i : grid2.Coords) (arg1 : Memref sig .tc .vmem S2000x64 .bf16) (harg1 : arg1.IsWhole) (arg2 : Memref sig .tc .vmem S2000x256 .f32) (harg2 : arg2.IsWhole) (arg3 : Memref sig .tc .vmem S64x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S64x1 .f32) (harg8 : arg8.IsWhole) (arg9 : Memref sig .tc .vmem S64x256 .f32) (harg9 : arg9.IsWhole)
    (hc0 : ¬cond2_0 i) (hc1 : cond2_1 i)
    (x0 : Vec F S2000x64 .bf16) (x1 : Vec F S2000x256 .f32) (x2 : Vec F S64x1 .f32) (x3 : Vec F S256x256 .f32)
    (x4 : Vec F S1x256 .f32) (x5 : Vec F S256x1 .f32) (x6 : Vec F S1x1 .f32) (xs : Vec F S64x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k2_pay3 (k2_pay2 x0 x1 xs) x2 x3 x4 x5 x6)
            ∗ owns (c : Thread nD τ) arg9 fullShare (k2_pay2 x0 x1 xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    -- the one store covers the result tile; its first operand is the scratch read back after the update
    sl_unfold_words
    rw [View.read_writes_eq_canon _ _ _ (cover_result _ _),
      View.canon_unit_zero zeroOffsets]
    simp only [View.readAt_eq_ld, harg1.read_unread, harg2.read_unread, harg3.read_unread, harg4.read_unread,
      harg5.read_unread, harg6.read_unread, harg7.read_unread, harg9.read_unread,
      View.readCov_unit_zero (S := S64x256) _ zeroOffsets,
      View.ld_unit_zero (S := S2000x64) zeroOffsets, View.ld_unit_zero (S := S2000x256) zeroOffsets,
      View.ld_unit_zero (S := S64x256) zeroOffsets, View.ld_unit_zero (S := S64x1) zeroOffsets,
      View.ld_unit_zero (S := S256x256) zeroOffsets, View.ld_unit_zero (S := S1x256) zeroOffsets,
      View.ld_unit_zero (S := S256x1) zeroOffsets, View.ld_unit_zero (S := S1x1) zeroOffsets]
  iexists _; isplitr
  swap; · iexact HS
  ipureintro
  sl_unfold_words
  rw [View.read_writes_eq_canon _ _ _ (cover_scratch _ _),
    View.canon_unit_zero zeroOffsets]
  simp only [View.readAt_eq_ld, harg1.read_unread, harg2.read_unread, harg9.read_unread,
    View.ld_unit_zero (S := S2000x64) zeroOffsets, View.ld_unit_zero (S := S2000x256) zeroOffsets,
    View.ld_unit_zero (S := S64x256) zeroOffsets]

/-! ## What the body finds in the input windows, and leaves there -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-- An input window is never idle and its body leaves the tile in place, so its current staging buffer holds
    the tile at every point, fetched there or not (unfetched, the block index has not moved). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- So the body's post for an input window is the buffer at its tile. -/
theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (st2_3 t) fullShare (iblk2 V c 3 t) := by
  unfold Dat.leavesExact; rw [show cfg2.idle 3 (cfg2.grid.coords t) = false from rfl, after2_3]
theorem leaves2_4 (c : Dev nD) (t : Fin cfg2.N) :
    (dat2 V c).leavesExact 4 t = owns (c : Thread nD τ) (st2_4 t) fullShare (iblk2 V c 4 t) := by
  unfold Dat.leavesExact; rw [show cfg2.idle 4 (cfg2.grid.coords t) = false from rfl, after2_4]
theorem leaves2_5 (c : Dev nD) (t : Fin cfg2.N) :
    (dat2 V c).leavesExact 5 t = owns (c : Thread nD τ) (st2_5 t) fullShare (iblk2 V c 5 t) := by
  unfold Dat.leavesExact; rw [show cfg2.idle 5 (cfg2.grid.coords t) = false from rfl, after2_5]
theorem leaves2_6 (c : Dev nD) (t : Fin cfg2.N) :
    (dat2 V c).leavesExact 6 t = owns (c : Thread nD τ) (st2_6 t) fullShare (iblk2 V c 6 t) := by
  unfold Dat.leavesExact; rw [show cfg2.idle 6 (cfg2.grid.coords t) = false from rfl, after2_6]

/-! ## The invariant, point by point -/

theorem PhiS_first (c : Dev nD) (n : ℕ) (h : n ≤ cfg2.N) (hz : n = 0) : PhiS V c n h = Pipeline.ΦA spec2 c := by
  subst hz; rfl

theorem PhiS_next (c : Dev nD) (n : ℕ) (hn : n < cfg2.N) :
    PhiS V c (n + 1) hn = iprop(others2 (F := F) c ∗ owns (c : Thread nD τ) scM2 fullShare (accAt V c n hn) ∗ (∃ r, prngReg c r)) := rfl

theorem PhiS_later (c : Dev nD) (n : ℕ) (h : n ≤ cfg2.N) (hz : n ≠ 0) :
    PhiS V c n h = iprop(others2 (F := F) c ∗ owns (c : Thread nD τ) scM2 fullShare (accAt V c (n - 1) (by omega)) ∗ (∃ r, prngReg c r)) := by
  cases n with
  | zero => exact absurd rfl hz
  | succ n => rfl

theorem Phi_castSucc (c : Dev nD) (t : Fin cfg2.N) :
    (dat2 V c).Φ t.castSucc = PhiS V c t.val (Nat.le_of_lt t.isLt) := by
  dsimp only [dat2]; simp only [Fin.coe_castSucc]

/-- The scratch after the first point: the tiles' contribution added to zero. -/
theorem accAt_first (c : Dev nD) (t : Fin cfg2.N) (h : t.val = 0) :
    accAt V c t.val t.isLt = k2_pay2 (iblk2 V c 0 t) (iblk2 V c 1 t) (k2_pay1 (F := F)) := by
  obtain ⟨n, hn⟩ := t
  cases n with
  | zero => rfl
  | succ n => exact absurd h (Nat.succ_ne_zero n)

/-- The scratch after a later point: the tiles' contribution added to what the point before left. -/
theorem accAt_later (c : Dev nD) (t : Fin cfg2.N) (h : t.val ≠ 0) :
    accAt V c t.val t.isLt = k2_pay2 (iblk2 V c 0 t) (iblk2 V c 1 t) (accAt V c (t.val - 1) (Nat.lt_of_le_of_lt (Nat.sub_le _ _) t.isLt)) := by
  obtain ⟨n, hn⟩ := t
  cases n with
  | zero => exact absurd rfl h
  | succ n => rfl

/-! ## The body's obligation at a point -/

/-- What the body is handed at point t: the invariant, what the core owes, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t ∗ (dat2 V c).leavesExact 7 t)

set_option maxHeartbeats 4000000 in
/-- The body at any point, by which of the three kinds of point it is. The input windows hold their tiles;
    the invariant hands over the scratch — at anything before the first point, at what the point before left
    afterwards — and takes it back at this point's contents; the result window is handed back untouched
    except at the last point, where it holds the head of the completed sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS V c (t.val + 1) t.isLt from rfl, PhiS_next, Phi_castSucc]
  rw [leaves2_0, leaves2_1, leaves2_2, leaves2_3, leaves2_4, leaves2_5, leaves2_6]
  have hN : t.val < 25 := lt_of_lt_of_eq t.isLt (show cfg2.N = 25 from N_2)
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 7 t (idle2_7 t hc1) (noFlush2_7 t hc1)]
    rw [PhiS_first V c _ _ h0, PhiA2_eq, accAt_first V c t h0]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, H7⟩
    iapply (run_first c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) scM2 (Memref.isWhole_whole _) hc0 hc1 (iblk2 V c 0 t) (iblk2 V c 1 t) Set.univ _)
    isplitl [H0]; · iexact H0
    isplitl [H1]; · iexact H1
    isplitl [HS]; · iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond2_0 (grid2.coords t) := fun h => h0 ((hcond2_0 t).mp h)
    rw [PhiS_later V c _ _ h0, accAt_later V c t h0]
    by_cases h1 : t.val = 24
    · -- the last point
      have hc1 : cond2_1 (grid2.coords t) := (hcond2_1 t).mpr h1
      rw [show (dat2 V c).leavesExact 7 t = owns (c : Thread nD τ) (st2_7 t) fullShare ((dat2 V c).after 7 t) from by
        unfold Dat.leavesExact; rw [live2_7 t hc1], after2_7]
      unfold headOut
      rw [accAt_later V c t h0]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) scM2 (Memref.isWhole_whole _) hc0 hc1 (iblk2 V c 0 t) (iblk2 V c 1 t) (iblk2 V c 2 t) (iblk2 V c 3 t) (iblk2 V c 4 t) (iblk2 V c 5 t) (iblk2 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      have hc1 : ¬cond2_1 (grid2.coords t) := fun h => h1 ((hcond2_1 t).mp h)
      rw [Dat.leavesExact_idle (dat2 V c) 7 t (idle2_7 t hc1) (noFlush2_7 t hc1)]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, H7⟩
      iapply (run_mid c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) scM2 (Memref.isWhole_whole _) hc0 hc1 (iblk2 V c 0 t) (iblk2 V c 1 t) _ Set.univ _)
      isplitl [H0]; · iexact H0
      isplitl [H1]; · iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body's obligation at every point of the grid. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_first V c 0 _ rfl]

/-- After the last point the invariant gives the class invariant back (the scratch's contents forgotten). -/
theorem hout2 (c : Dev nD) : (dat2 V c).Φ (Fin.last cfg2.N) ⊢ Pipeline.ΦA spec2 c := by
  have hne : (Fin.last cfg2.N).val ≠ 0 := by rw [Fin.val_last]; have : cfg2.N = 25 := N_2; omega
  rw [show (dat2 V c).Φ (Fin.last cfg2.N) = PhiS V c (Fin.last cfg2.N).val (Nat.le_of_lt_succ (Fin.last cfg2.N).isLt) from rfl,
    PhiS_later V c _ _ hne, PhiA2_eq]
  iintro ⟨Hoth, HS, Hg⟩
  isplitl [Hoth]; · iexact Hoth
  isplitl [HS]; · iexists _; iexact HS
  iexact Hg

end Cert.Kernel.Hand

end
-- ==== Proof.KFold.lean ====
/-
  The contents of the TensorCore's buffers at each boundary between @main's items, from the launch
  memory: a host stretch applies its operations; a pallas_call leaves its arrays at what its pipeline's
  write-backs fold to and every other buffer as it found it.
-/
import proofs.«423902_j15470472200268_1_alg».proof.Proof.KR0
import proofs.«423902_j15470472200268_1_alg».proof.Proof.KR1
import proofs.«423902_j15470472200268_1_alg».proof.Proof.KR2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the two casts of the operands (entry of the first call). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the three host stretches of the aggregation (entry of the second call). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- After the second call. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After the four host stretches of the pooling bookkeeping (entry of the third call). -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)
abbrev W10 : Dev nD → Valuation τ sig (Elt F) := fun c => StableHlo.after hostOps2_3 (W9 m c)
abbrev V10 : (c : Dev nD) → (b : Ref sig .tc) → Buf (Elt F) ((c : Thread nD τ).loc b) := fun c b => W10 m c b
/-- After the third call: the end of @main. -/
def W11 (c : Dev nD) : Valuation τ sig (Elt F) :=
  Pipeline.withArrays spec2 c (W10 m c) fun w => (dat2 (V10 m) c).arrAt w cfg2.N
abbrev V11 : (c : Dev nD) → (b : Ref sig .tc) → Buf (Elt F) ((c : Thread nD τ).loc b) := fun c b => W11 m c b

/-- What each call leaves in its result array. -/
def res0 (c : Dev nD) := (dat0 (V1 m) c).arrAt 2 cfg0.N
def res1 (c : Dev nD) := (dat1 (V5 m) c).arrAt 2 cfg1.N
def res2 (c : Dev nD) := (dat2 (V10 m) c).arrAt 7 cfg2.N

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb

end Cert.Kernel.Hand

end
-- ==== Proof.KRun.lean ====
/-
  The run of the whole @main: eleven items — a host stretch, the first pallas_call, three host stretches,
  the second pallas_call, four host stretches, the third pallas_call — each item taking every unscoped
  buffer of the TensorCore from one boundary's contents (Fold.lean) to the next. The final memory is read
  off the last boundary: the result array holds what the third pipeline folds to, and every argument
  array is walked back, item by item, to what it held at launch.
-/
import proofs.«423902_j15470472200268_1_alg».proof.Proof.KFold
import proofs.«423902_j15470472200268_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An argument array through the items

A reference that no host stretch writes and that is not an array of the first two calls holds at the entry of
the third call what it held at launch; across the third call it is either bypassed or read through an input
window, which is never written back. -/

/-- Untouched up to the third call's entry. -/
theorem W10_launch (c : Dev nD) (r : Ref sig .tc)
    (h0 : r ∉ hostOps0_W) (a0 : ∀ w, Pipeline.arrRef spec0 w ≠ r)
    (h1 : r ∉ hostOps1_W) (h1a : r ∉ hostOps1_1_W) (h1b : r ∉ hostOps1_2_W) (a1 : ∀ w, Pipeline.arrRef spec1 w ≠ r)
    (h2 : r ∉ hostOps2_W) (h2a : r ∉ hostOps2_1_W) (h2b : r ∉ hostOps2_2_W) (h2c : r ∉ hostOps2_3_W) :
    W10 m c (Proc.devRef .tc r) = m ((c : Thread nD τ).loc r) := by
  have e10 : W10 m c (Proc.devRef .tc r) = W9 m c (Proc.devRef .tc r) := StableHlo.after_of_writes_sub hostOps2_3 _ hostOps2_3_writes h2c
  have e9 : W9 m c (Proc.devRef .tc r) = W8 m c (Proc.devRef .tc r) := StableHlo.after_of_writes_sub hostOps2_2 _ hostOps2_2_writes h2b
  have e8 : W8 m c (Proc.devRef .tc r) = W7 m c (Proc.devRef .tc r) := StableHlo.after_of_writes_sub hostOps2_1 _ hostOps2_1_writes h2a
  have e7 : W7 m c (Proc.devRef .tc r) = W6 m c (Proc.devRef .tc r) := StableHlo.after_of_writes_sub hostOps2 _ hostOps2_writes h2
  have e6 : W6 m c (Proc.devRef .tc r) = W5 m c (Proc.devRef .tc r) := W6_of_ne m c r a1
  have e5 : W5 m c (Proc.devRef .tc r) = W4 m c (Proc.devRef .tc r) := StableHlo.after_of_writes_sub hostOps1_2 _ hostOps1_2_writes h1b
  have e4 : W4 m c (Proc.devRef .tc r) = W3 m c (Proc.devRef .tc r) := StableHlo.after_of_writes_sub hostOps1_1 _ hostOps1_1_writes h1a
  have e3 : W3 m c (Proc.devRef .tc r) = W2 m c (Proc.devRef .tc r) := StableHlo.after_of_writes_sub hostOps1 _ hostOps1_writes h1
  have e2 : W2 m c (Proc.devRef .tc r) = W1 m c (Proc.devRef .tc r) := W2_of_ne m c r a0
  have e1 : W1 m c (Proc.devRef .tc r) = W0 m c (Proc.devRef .tc r) := StableHlo.after_of_writes_sub hostOps0 _ hostOps0_writes h0
  rw [e10, e9, e8, e7, e6, e5, e4, e3, e2, e1]

/-- An argument the third call bypasses. -/
theorem W11_bypassed (c : Dev nD) (r : Ref sig .tc) (a2 : ∀ w, Pipeline.arrRef spec2 w ≠ r)
    (h : W10 m c (Proc.devRef .tc r) = m ((c : Thread nD τ).loc r)) :
    W11 m c (Proc.devRef .tc r) = m ((c : Thread nD τ).loc r) :=
  (W11_of_ne m c r a2).trans h

/-- An argument the third call reads through an input window. -/
theorem W11_input (c : Dev nD) (w : Fin cfg2.W) (hw : (cfg2.win w).isOut = false)
    (h : W10 m c (Proc.devRef .tc (Pipeline.arrRef spec2 w)) = m ((c : Thread nD τ).loc (Pipeline.arrRef spec2 w))) :
    W11 m c (Proc.devRef .tc (Pipeline.arrRef spec2 w)) = m ((c : Thread nD τ).loc (Pipeline.arrRef spec2 w)) :=
  (W11_arr m c w).trans (((dat2 (V10 m) c).arrAt_in w hw _).trans ((A_eq2 (V10 m) c w).trans h))

theorem W11_main_arg0 (c : Dev nD) : W11 m c (Proc.devRef .tc main_arg0) = m ((c : Thread nD τ).loc main_arg0) :=
  W11_bypassed m c main_arg0 (by decide) (W10_launch m c main_arg0 (by decide) (by decide) (by decide) (by decide) (by decide) (by decide) (by decide) (by decide) (by decide) (by decide))
theorem W11_main_arg1 (c : Dev nD) : W11 m c (Proc.devRef .tc main_arg1) = m ((c : Thread nD τ).loc main_arg1) :=
  W11_bypassed m c main_arg1 (by decide) (W10_launch m c main_arg1 (by decide) (by decide) (by decide) (by decide) (by decide) (by decide) (by decide) (by decide) (by decide) (by decide))
theorem W11_main_arg2 (c : Dev nD) : W11 m c (Proc.devRef .tc main_arg2) = m ((c : Thread nD τ).loc main_arg2) :=
  W11_bypassed m c main_arg2 (by decide) (W10_launch m c main_arg2 (by decide) (by decide) (by decide) (by decide) (by decide) (by decide) (by decide) (by decide) (by decide) (by decide))
theorem W11_main_arg3 (c : Dev nD) : W11 m c (Proc.devRef .tc main_arg3) = m ((c : Thread nD τ).loc main_arg3) :=
  W11_bypassed m c main_arg3 (by decide) (W10_launch m c main_arg3 (by decide) (by decide) (by decide) (by decide) (by decide) (by decide) (by decide) (by decide) (by decide) (by decide))
theorem W11_main_arg4 (c : Dev nD) : W11 m c (Proc.devRef .tc main_arg4) = m ((c : Thread nD τ).loc main_arg4) :=
  W11_bypassed m c main_arg4 (by decide) (W10_launch m c main_arg4 (by decide) (by decide) (by decide) (by decide) (by decide) (by decide) (by decide) (by decide) (by decide) (by decide))
theorem W11_main_arg6 (c : Dev nD) : W11 m c (Proc.devRef .tc main_arg6) = m ((c : Thread nD τ).loc main_arg6) :=
  W11_bypassed m c main_arg6 (by decide) (W10_launch m c main_arg6 (by decide) (by decide) (by decide) (by decide) (by decide) (by decide) (by decide) (by decide) (by decide) (by decide))
theorem W11_main_arg8 (c : Dev nD) : W11 m c (Proc.devRef .tc main_arg8) = m ((c : Thread nD τ).loc main_arg8) :=
  W11_bypassed m c main_arg8 (by decide) (W10_launch m c main_arg8 (by decide) (by decide) (by decide) (by decide) (by decide) (by decide) (by decide) (by decide) (by decide) (by decide))
theorem W11_main_arg5 (c : Dev nD) : W11 m c (Proc.devRef .tc main_arg5) = m ((c : Thread nD τ).loc main_arg5) :=
  W11_input m c 3 rfl (W10_launch m c main_arg5 (by decide) (by decide) (by decide) (by decide) (by decide) (by decide) (by decide) (by decide) (by decide) (by decide))
theorem W11_main_arg7 (c : Dev nD) : W11 m c (Proc.devRef .tc main_arg7) = m ((c : Thread nD τ).loc main_arg7) :=
  W11_input m c 5 rfl (W10_launch m c main_arg7 (by decide) (by decide) (by decide) (by decide) (by decide) (by decide) (by decide) (by decide) (by decide) (by decide))
/-- The result array at the end: the third pipeline's output window folded over the whole grid. -/
theorem W11_main_v63 (c : Dev nD) : W11 m c (Proc.devRef .tc main_v63) = res2 m c := W11_arr m c 7

/-! ## The proof data family and the thread state between items -/

/-- Every pipeline's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V10 m) c

abbrev 𝒱₀ : Variants := Variants.none
/-- No core waits on another: no level is assigned. -/
abbrev L : GSem nD τ sig → Finset Unit := fun _ => ∅
abbrev lv : GSem nD τ sig → Unit → ℕ := fun _ _ => 0

/-- Beside the buffers, between any two items: the core's generator register at some state, and the core owing nothing. -/
abbrev side (c : Dev nD) : sProp 𝕄 := iprop((∃ r, prngReg c r) ∗ ∃ T, owes (c : Thread nD τ) (0 : CellTallies nD τ sig Unit) T)

/-- The thread state at a boundary: every unscoped buffer at the boundary's contents, and the side state. -/
abbrev at_ (W : Dev nD → Valuation τ sig (Elt F)) (c : Dev nD) : sProp 𝕄 :=
  iprop(StableHlo.held (c : Thread nD τ) (Pipeline.ucRefs τ sig) (W c) ∗ side (F := F) c)

/-- A host stretch as a segment, from the contents W: it ends at the stretch applied to W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (side (F := F))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The core's debt into a pipeline and out of it -/

/-- Owing nothing, whatever is recorded, is owing a pipeline's first tallies within its first bound, when those tallies
    are zero and the data put no bound on what is recorded. -/
theorem owes_in {cfg : Cfg sig Λ₀} {c : Dev nD} (d : Dat τ (Elt F) Unit ℕ (UR sig nD τ) ℕ cfg c)
    (h0 : d.owed 0 = 0) (hr : d.recorded 0 = Set.univ) :
    (iprop(∃ T, owes (c : Thread nD τ) (0 : CellTallies nD τ sig Unit) T) : sProp 𝕄) ⊢ d.owesAt () 0 := by
  iintro ⟨%T, H⟩
  iexists T
  isplitr
  · ipureintro; intro x _; exact Or.inl (hr ▸ Set.mem_univ x)
  rw [h0]; iexact H

/-- The last tallies, zero, are owing nothing. -/
theorem owes_out {cfg : Cfg sig Λ₀} {c : Dev nD} (d : Dat τ (Elt F) Unit ℕ (UR sig nD τ) ℕ cfg c)
    (h0 : d.owed (Fin.last cfg.N) = 0) :
    d.owesAt () (Fin.last cfg.N) ⊢ (iprop(∃ T, owes (c : Thread nD τ) (0 : CellTallies nD τ sig Unit) T) : sProp 𝕄) := by
  iintro ⟨%T, -, H⟩
  iexists T
  rw [h0]; iexact H

/-! ## The three calls as segments -/

set_option backward.isDefEq.respectTransparency.types false in
/-- The first call: entered with every unscoped buffer at W1, left with them at W2. Its three arrays are cut out of the
    unscoped buffers and glued back at what the pipeline folds to; the generator register goes into the class invariant
    and comes back; the core owes nothing throughout. -/
def call0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := at_ (W1 m)
  post := at_ (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have cut := Pipeline.arrays_of_unscopedBufs (p := 0) (pcfgs (F := F)) adm (pdats m) launch0.win launch0.arr_whole c
      ((pdats m 0 c).share_full fun _ => rfl) (V1 m c) fun _ => rfl
    rw [Pipeline.unscopedBufs_held] at cut
    rw [Pipeline.ownSems0_none]
    iintro ⟨⟨Hbuf, Hreg, Howe⟩, -, -⟩
    ihave Hcut := cut $$ Hbuf
    icases Hcut with ⟨Harr, Hoff⟩
    imodintro
    isplitl [Harr]; · iexact Harr
    isplitr
    · unfold Pipeline.prefHeld
      rw [show (Finset.univ : Finset (Fin 0)) = ∅ from rfl, BI.bigSep_empty]; iempintro
    isplitl [Howe]; · iapply (owes_in (pdats m 0 c) rfl rfl); iexact Howe
    isplitl [Hreg]; · iexact Hreg
    iexact Hoff
  hin c := by
    show _ ⊢ Pipeline.ΦA spec0 c
    unfold Pipeline.ΦA
    iintro ⟨Hreg, -, Hsc⟩
    isplitl [Hsc]; · iexact Hsc
    iexact Hreg
  hout c := by
    rw [Pipeline.ownSems0_none]
    show Pipeline.ΦA spec0 c ⊢ _
    unfold Pipeline.ΦA
    iintro ⟨Hsc, Hreg⟩
    isplitl [Hreg]; · iexact Hreg
    isplitr; · iempintro
    iexact Hsc
  hexit c := by
    have glue := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at glue
    iintro ⟨Harr, Howe, Hreg, Hoff⟩
    imodintro
    isplitl [Harr Hoff]
    · iapply glue; isplitl [Harr] <;> iassumption
    isplitl [Hreg]; · iexact Hreg
    iapply (owes_out (pdats m 0 c) rfl); iexact Howe

set_option backward.isDefEq.respectTransparency.types false in
/-- The second call, from W5 to W6, in the same way. -/
def call1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre := at_ (W5 m)
  post := at_ (W6 m)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    have cut := Pipeline.arrays_of_unscopedBufs (p := 1) (pcfgs (F := F)) adm (pdats m) launch1.win launch1.arr_whole c
      ((pdats m 1 c).share_full fun _ => rfl) (V5 m c) fun _ => rfl
    rw [Pipeline.unscopedBufs_held] at cut
    rw [Pipeline.ownSems0_none]
    iintro ⟨⟨Hbuf, Hreg, Howe⟩, -, -⟩
    ihave Hcut := cut $$ Hbuf
    icases Hcut with ⟨Harr, Hoff⟩
    imodintro
    isplitl [Harr]; · iexact Harr
    isplitr
    · unfold Pipeline.prefHeld
      rw [show (Finset.univ : Finset (Fin 0)) = ∅ from rfl, BI.bigSep_empty]; iempintro
    isplitl [Howe]; · iapply (owes_in (pdats m 1 c) rfl rfl); iexact Howe
    isplitl [Hreg]; · iexact Hreg
    iexact Hoff
  hin c := by
    show _ ⊢ Pipeline.ΦA spec1 c
    unfold Pipeline.ΦA
    iintro ⟨Hreg, -, Hsc⟩
    isplitl [Hsc]; · iexact Hsc
    iexact Hreg
  hout c := by
    rw [Pipeline.ownSems0_none]
    show Pipeline.ΦA spec1 c ⊢ _
    unfold Pipeline.ΦA
    iintro ⟨Hsc, Hreg⟩
    isplitl [Hreg]; · iexact Hreg
    isplitr; · iempintro
    iexact Hsc
  hexit c := by
    have glue := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (fun w => (W6_arr m c w).symm)
      (fun b hb => W6_of_ne m c b fun w e => hb (Finset.mem_image.mpr ⟨w, Finset.mem_univ _, e⟩))
    rw [Pipeline.unscopedBufs_held] at glue
    iintro ⟨Harr, Howe, Hreg, Hoff⟩
    imodintro
    isplitl [Harr Hoff]
    · iapply glue; isplitl [Harr] <;> iassumption
    isplitl [Hreg]; · iexact Hreg
    iapply (owes_out (pdats m 1 c) rfl); iexact Howe

set_option backward.isDefEq.respectTransparency.types false in
/-- The third call, from W10 to W11. Its invariant carries the accumulator scratch from point to point: before the first
    point it is the class invariant (hin2), and after the last it gives the class invariant back (hout2). -/
def call2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m) c).loose
  hwaits := Pipeline.hwaits_of_owed_zero _ _ _ _ L lv 2 fun _ _ => rfl
  pre := at_ (W10 m)
  post := at_ (W11 m)
  X c := iprop(∃ r, prngReg c r)
  Y c := iprop(∃ r, prngReg c r)
  Z c := Pipeline.unscopedRest (Ix := Unit) (Name := ℕ) (U := UR sig nD τ) (Lvl := ℕ) spec2 c (V10 m c)
  hentry c := by
    have cut := Pipeline.arrays_of_unscopedBufs (p := 2) (pcfgs (F := F)) adm (pdats m) launch2.win launch2.arr_whole c
      ((pdats m 2 c).share_full fun _ => rfl) (V10 m c) fun _ => rfl
    rw [Pipeline.unscopedBufs_held] at cut
    rw [Pipeline.ownSems0_none]
    iintro ⟨⟨Hbuf, Hreg, Howe⟩, -, -⟩
    ihave Hcut := cut $$ Hbuf
    icases Hcut with ⟨Harr, Hoff⟩
    imodintro
    isplitl [Harr]; · iexact Harr
    isplitr
    · unfold Pipeline.prefHeld
      rw [show (Finset.univ : Finset (Fin 0)) = ∅ from rfl, BI.bigSep_empty]; iempintro
    isplitl [Howe]; · iapply (owes_in (pdats m 2 c) rfl rfl); iexact Howe
    isplitl [Hreg]; · iexact Hreg
    iexact Hoff
  hin c := by
    refine .trans ?_ (hin2 (V10 m) c)
    unfold Pipeline.ΦA
    iintro ⟨Hreg, -, Hsc⟩
    isplitl [Hsc]; · iexact Hsc
    iexact Hreg
  hout c := by
    rw [Pipeline.ownSems0_none]
    refine (hout2 (V10 m) c).trans ?_
    unfold Pipeline.ΦA
    iintro ⟨Hsc, Hreg⟩
    isplitl [Hreg]; · iexact Hreg
    isplitr; · iempintro
    iexact Hsc
  hexit c := by
    have glue := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V10 m c) (V11 m c) ((pdats m 2 c).arrAt · cfg2.N) (fun w => (W11_arr m c w).symm)
      (fun b hb => W11_of_ne m c b fun w e => hb (Finset.mem_image.mpr ⟨w, Finset.mem_univ _, e⟩))
    rw [Pipeline.unscopedBufs_held] at glue
    iintro ⟨Harr, Howe, Hreg, Hoff⟩
    imodintro
    isplitl [Harr Hoff]
    · iapply glue; isplitl [Harr] <;> iassumption
    isplitl [Hreg]; · iexact Hreg
    iapply (owes_out (pdats m 2 c) rfl); iexact Howe

/-! ## @main as its eleven items, and the launch -/

abbrev items : List (Pipeline.Seg (pcfgs (F := F)) adm (pdats m) () defs₀ 𝒱₀ L lv) :=
  [ .host (stretch hostOps0 hostOps0_sub hostOps0_fresh (W0 m)),
    .region (call0 m),
    .host (stretch hostOps1 hostOps1_sub hostOps1_fresh (W2 m)),
    .host (stretch hostOps1_1 hostOps1_1_sub hostOps1_1_fresh (W3 m)),
    .host (stretch hostOps1_2 hostOps1_2_sub hostOps1_2_fresh (W4 m)),
    .region (call1 m),
    .host (stretch hostOps2 hostOps2_sub hostOps2_fresh (W6 m)),
    .host (stretch hostOps2_1 hostOps2_1_sub hostOps2_1_fresh (W7 m)),
    .host (stretch hostOps2_2 hostOps2_2_sub hostOps2_2_fresh (W8 m)),
    .host (stretch hostOps2_3 hostOps2_3_sub hostOps2_3_fresh (W9 m)),
    .region (call2 m) ]

/-- @main is the run of the items: both are the chain of the same eleven fragments. -/
theorem main_items (c : Dev nD) : main (F := F) c = Pipeline.Seg.run (items m) := by
  rewrite [main_chain c, Pipeline.Seg.run_eq_chain]
  rfl

/-- The last boundary without the debt: every unscoped buffer at W11, the generator register somewhere. -/
abbrev last (c : Dev nD) : sProp 𝕄 := iprop(StableHlo.held (c : Thread nD τ) (Pipeline.ucRefs τ sig) (W11 m c) ∗ ∃ r, prngReg c r)

/-- The last boundary's state, with the debt set apart. -/
theorem at_last (c : Dev nD) :
    at_ (W11 m) c ⊢ iprop(last m c ∗ ∃ T, owes (c : Thread nD τ) (0 : CellTallies nD τ sig Unit) T) := by
  iintro ⟨Hb, Hr, Ho⟩
  isplitl [Hb Hr]
  · isplitl [Hb] <;> iassumption
  iexact Ho

set_option backward.isDefEq.respectTransparency.types false in
/-- From any memory with zero counters @main runs to the end on every core, and every final memory holds every unscoped
    buffer of the core at the last boundary's contents W11. -/
theorem run_W11 : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m)) (Tₙ := last m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => at_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hb, -, Ho, -, Hr, -⟩, -⟩
      imodintro
      isplitl [Hb]; · iexact Hb
      isplitl [Hr]; · iexists _; iexact Hr
      iexists ∅; iexact Ho)
    (QY := fun c s => ∀ b ∈ Pipeline.ucRefs τ sig, s.mem ((c : Thread nD τ).1, b) = W11 m c b)
    (hfin := fun c s' => by
      iintro ⟨⟨Hb, -⟩, HSI⟩
      unfold StableHlo.held
      imodintro
      iapply (pointsTo_read_all (Pipeline.ucRefs τ sig) (fun b => ((c : Thread nD τ).1, b)) (W11 m c) s')
      isplitl [Hb] <;> iassumption)
    (hQ := fun s h => h)

/-! ## The two statements -/

/-- THE RUN: @main terminates on every core, the result array ends holding what the third pipeline folds to, and every
    argument array ends as launched. -/
theorem run_all : θ_run defs (onTc (τ := τ) (main (F := F))) ⟨m, fun _ => 0, ρ⟩ (fun r => ∀ c : Dev nD,
      r.2.mem ((c.tc : Thread nD τ).loc main_v63) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v63 (by decide))).trans (W11_main_v63 m c),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_W11 m ρ)

/-- THE FRAME: the same run, read at the argument arrays only. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_all m ρ)

end Cert.Kernel.Hand

end
-- ==== Proof.Spec.lean ====
/-
  The mathematics of the model, stated once over the extended reals and literal shapes, free of either
  program: the feature product, the bias-and-clamp, the per-graph pooled sums, and the two-layer head
  on the pooled means. Both programs' results are proved equal to these.
-/
import Idealize.ShloMosaic.PureOps.Ideal
import Idealize.ShloMosaic.Lib.ValueIdx

noncomputable section

namespace Cert.Spec

open Idealize.ShloMosaic Idealize.ShloMosaic.ValueIdx

abbrev SNxI : Shape := ⟨2, ![50000, 128]⟩
abbrev SIxH : Shape := ⟨2, ![128, 256]⟩
abbrev SNxH : Shape := ⟨2, ![50000, 256]⟩
abbrev S1xH : Shape := ⟨2, ![1, 256]⟩
abbrev SNxG : Shape := ⟨2, ![50000, 64]⟩
abbrev SGxH : Shape := ⟨2, ![64, 256]⟩
abbrev SGx1 : Shape := ⟨2, ![64, 1]⟩
abbrev SHxH : Shape := ⟨2, ![256, 256]⟩
abbrev SHx1 : Shape := ⟨2, ![256, 1]⟩
abbrev S1x1' : Shape := ⟨2, ![1, 1]⟩

/-- x · w : entry (n, j) is the sum over the 128 input channels. -/
def featProduct (x : SNxI.Idx → EReal) (w : SIxH.Idx → EReal) : SNxH.Idx → EReal :=
  fun i => ∑ k : Fin 128, x (ix2 (i 0) k) * w (ix2 k (i 1))

/-- max (h + b) 0, the bias a row broadcast down the nodes; the zero is the f32 zero word. -/
def biasClamp (h : SNxH.Idx → EReal) (b : S1xH.Idx → EReal) : SNxH.Idx → EReal :=
  fun i => max (h i + b (ix2 0 (i 1))) (Ideal.ofBits .f32 0x00000000#32)

/-- The pooled sums: entry (g, j) adds feature j of every node, weighted by that node's indicator of graph g. -/
def pooled (oh : SNxG.Idx → EReal) (h : SNxH.Idx → EReal) : SGxH.Idx → EReal :=
  fun i => ∑ n : Fin 50000, oh (ix2 n (i 0)) * h (ix2 n (i 1))

/-- The head: pooled sums divided by the clamped counts, a 256 x 256 layer with bias and clamp, a 256 x 1 layer with bias. -/
def head (acc : SGxH.Idx → EReal) (cnt : SGx1.Idx → EReal) (w2 : SHxH.Idx → EReal) (b2 : S1xH.Idx → EReal)
    (w3 : SHx1.Idx → EReal) (b3 : S1x1'.Idx → EReal) : SGx1.Idx → EReal :=
  fun i => (∑ k : Fin 256,
      max ((∑ j : Fin 256, Ideal.div (acc (ix2 (i 0) j)) (max (cnt (ix2 (i 0) 0)) (Ideal.ofBits .f32 0x3F800000#32)) * w2 (ix2 j k))
            + b2 (ix2 0 k)) (Ideal.ofBits .f32 0x00000000#32)
        * w3 (ix2 k 0))
    + b3 (ix2 0 0)

end Cert.Spec

end
-- ==== Proof.Val0.lean ====
/-
  The first pallas_call's result array as one function of the arrays it found: entry (n, j) of the
  product array is the sum over the 128 input channels k of feature (n, k) times weight (k, j).
  Here: the matrix unit's product tile read at an entry, each window's tile as rows of its array,
  what a grid point writes back as its block of the whole product, and the cover of the 50000 rows
  by the 25 blocks of 2000.
-/
import proofs.«423902_j15470472200268_1_alg».proof.Proof.R0
import proofs.«423902_j15470472200268_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The product tile at an entry -/

/-- The left operand's index at output entry `i` and contraction index `q`: the row is the entry's row. -/
theorem lhs_tile_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and the column is the contraction index. -/
theorem lhs_tile_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's index: the row is the contraction index … -/
theorem rhs_tile_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- … and the column is the entry's column. -/
theorem rhs_tile_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (p, q) of the product of a 2000 x 128 tile and the 128 x 256 weights, accumulated from zero:
    the sum over the channel k of x (p, k) · w (k, q). -/
theorem prodTile_apply (x : Vec Ideal S2000x128 .bf16) (w : Vec Ideal S128x256 .bf16) (p : Fin 2000) (q : Fin 256) :
    k0_pay1 (F := Ideal) x w (ix2 p q) = ∑ k : Fin 128, x (ix2 p k) * w (ix2 k q) := by
  unfold k0_pay1
  simp only [shapeCast_self, matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-! ## What a grid point leaves in the result tile -/

theorem zero_offsets0 : (![0, 0] : Fin 2 → Nat) = fun _ => 0 := funext fun a => by fin_cases a <;> rfl

/-- The body loads both whole tiles and stores the whole product tile: entry (p, q) of what it leaves. -/
theorem out0_apply (x : Vec Ideal S2000x128 .bf16) (w : Vec Ideal S128x256 .bf16) (p : Fin 2000) (q : Fin 256) :
    out0 (F := Ideal) x w (ix2 p q) = ∑ k : Fin 128, x (ix2 p k) * w (ix2 k q) := by
  unfold out0
  rw [View.canon_unit_zero zero_offsets0]
  simp only [View.ld_unit_zero (S := S2000x128) zero_offsets0, View.ld_unit_zero (S := S128x256) zero_offsets0]
  exact prodTile_apply x w p q

/-! ## The tiles as rows of their arrays -/

/-- The printed index maps over the 25 grid points: the feature window and the result window are at
    block (t, 0), the weight window always at block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows_lt0 (t : Fin cfg0.N) (p : Fin 2000) : 2000 * t.val + p.val < 50000 := by
  have ht : t.val < 25 := lt_of_lt_of_eq t.isLt N_0
  have hp := p.isLt
  omega

/-- Row p of the feature tile at point t is row 2000 t + p of the feature array. -/
theorem featTile_apply (c : Dev nD) (t : Fin cfg0.N) (p : Fin 2000) (k : Fin 128) :
    (iblk0 (F := Ideal) V c 0 t : Vec Ideal S2000x128 .bf16) (ix2 p k)
      = (V c main_v0 : Cert.Spec.SNxI.Idx → EReal) (ix2 ⟨2000 * t.val + p.val, rows_lt0 t p⟩ k) := by
  obtain ⟨e0, e1, -, -, -, -⟩ := blockIndex0 t
  unfold iblk0
  rw [View.read_apply]
  show V c main_v0 _ = V c main_v0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The weight tile at every point is the whole weight array. -/
theorem weightTile_apply (c : Dev nD) (t : Fin cfg0.N) (k : Fin 128) (q : Fin 256) :
    (iblk0 (F := Ideal) V c 1 t : Vec Ideal S128x256 .bf16) (ix2 k q)
      = (V c main_v1 : Cert.Spec.SIxH.Idx → EReal) (ix2 k q) := by
  obtain ⟨-, -, e0, e1, -, -⟩ := blockIndex0 t
  unfold iblk0
  rw [View.read_apply]
  show V c main_v1 _ = V c main_v1 _
  congr 1
  funext a
  apply Fin.ext
  match a with
  | ⟨0, _⟩ => show win0_1.index t (0 : Fin 2) * 128 + 1 * k.val = k.val; rw [e0]; omega
  | ⟨1, _⟩ => show win0_1.index t (1 : Fin 2) * 256 + 1 * q.val = q.val; rw [e1]; omega

/-! ## What a grid point writes back, and the whole array -/

/-- What the body leaves, read at an index given by its coordinates. -/
theorem out0_at (x : Vec Ideal S2000x128 .bf16) (w : Vec Ideal S128x256 .bf16) (y : S2000x256.Idx) (p : Fin 2000) (q : Fin 256)
    (h0 : (y 0).val = p.val) (h1 : (y 1).val = q.val) :
    out0 (F := Ideal) x w y = ∑ k : Fin 128, x (ix2 p k) * w (ix2 k q) := by
  have e : y = ix2 p q := funext fun a => Fin.ext (by
    match a with
    | ⟨0, _⟩ => exact h0
    | ⟨1, _⟩ => exact h1)
  rw [e]
  exact out0_apply x w p q

/-- The whole product array, read at an index given by its coordinates. -/
theorem featProduct_at (X : Cert.Spec.SNxI.Idx → EReal) (W : Cert.Spec.SIxH.Idx → EReal) (i : Cert.Spec.SNxH.Idx)
    (n : Fin 50000) (q : Fin 256) (h0 : (i 0).val = n.val) (h1 : (i 1).val = q.val) :
    Cert.Spec.featProduct X W i = ∑ k : Fin 128, X (ix2 n k) * W (ix2 k q) := by
  have e0 : i 0 = n := Fin.ext h0
  have e1 : i 1 = q := Fin.ext h1
  unfold Cert.Spec.featProduct
  rw [e0, e1]

/-- What point t writes back is block t of the whole product array: rows 2000 t … 2000 t + 1999. -/
theorem flushed0_eq (c : Dev nD) (t : Fin cfg0.N) :
    (dat0 (F := Ideal) V c).flushed 2 t
      = ((cfg0.win 2).blk t).view.read (Elt Ideal) (Cert.Spec.featProduct (V c main_v0) (V c main_v1)) := by
  show (cfg0.win 2).cut (grid0.coords t) ((dat0 V c).after 2 t) = _
  rw [after0_2]
  obtain ⟨-, -, -, -, e0, e1⟩ := blockIndex0 t
  funext j
  have hj0 : (j 0).val < 2000 := (j 0).isLt
  have hj1 : (j 1).val < 256 := (j 1).isLt
  show out0 (iblk0 V c 0 t) (iblk0 V c 1 t) ((cfg0.win 2).xinj (grid0.coords t) j)
    = Cert.Spec.featProduct (V c main_v0) (V c main_v1) (((cfg0.win 2).blk t).view.emb j)
  refine (out0_at (iblk0 V c 0 t) (iblk0 V c 1 t) _ ⟨(j 0).val, hj0⟩ ⟨(j 1).val, hj1⟩ rfl rfl).trans ?_
  refine Eq.trans ?_ (featProduct_at (V c main_v0) (V c main_v1) _
    ⟨2000 * t.val + (j 0).val, rows_lt0 t ⟨(j 0).val, hj0⟩⟩ ⟨(j 1).val, hj1⟩ ?h0 ?h1).symm
  · exact Finset.sum_congr rfl fun k _ => by rw [featTile_apply, weightTile_apply]
  case h0 =>
    show win0_2.index t (0 : Fin 2) * 2000 + 1 * (j 0).val = 2000 * t.val + (j 0).val
    rw [e0]; omega
  case h1 =>
    show win0_2.index t (1 : Fin 2) * 256 + 1 * (j 1).val = (j 1).val
    rw [e1]; omega

/-- An index of the product array is in point t's block iff each coordinate is in the block's range. -/
theorem mem_block0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v2).slice (win0_2.rect t)).set ↔ _
  rw [View.set_slice_whole, Rect.mem_set_unit]
  exact Iff.rfl

/-- Row r lies in the block of point r / 2000, and every point writes its block back. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, lt_of_lt_of_eq (by omega) N_0.symm⟩, rfl⟩
  obtain ⟨-, -, -, -, e0, e1⟩ := blockIndex0 t
  refine ⟨t, flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 256 ≤ (i 1).val ∧ (i 1).val < win0_2.index t (1 : Fin 2) * 256 + 256
    rw [e1]; omega

/-- The product array after the call: entry (n, j) is the sum over the channels of feature times weight. -/
theorem arr0_eq (c : Dev nD) :
    (dat0 (F := Ideal) V c).arrAt 2 cfg0.N = Cert.Spec.featProduct (V c main_v0) (V c main_v1) :=
  (dat0 V c).arrAt_eq_of_cover 2 (Cert.Spec.featProduct (V c main_v0) (V c main_v1))
    (fun t _ => flushed0_eq V c t) covered0

end Cert.KernelIdeal.Hand

end
-- ==== Proof.Val1.lean ====
/-
  The second pallas_call's result array as one function of the arrays it found: entry (n, j) is the
  larger of zero and the aggregated feature (n, j) plus bias j.
  Here: the body's pointwise tile read at an entry, each window's tile as rows of its array, what a
  grid point writes back as its block of the whole array, and the cover of the 50000 rows by the 25
  blocks of 2000.
-/
import proofs.«423902_j15470472200268_1_alg».proof.Proof.R1
import proofs.«423902_j15470472200268_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The clamped tile at an entry -/

/-- Entry (p, q) of the tile plus the bias row, clamped below at the zero word. -/
theorem clampTile_apply (h : Vec Ideal S2000x256 .f32) (b : Vec Ideal S1x256 .f32) (p : Fin 2000) (q : Fin 256) :
    k1_pay1 (F := Ideal) h b (ix2 p q)
      = max (h (ix2 p q) + b (ix2 (0 : Fin 1) q)) (Ideal.ofBits .f32 0x00000000#32) := by
  unfold k1_pay1
  simp only [shapeCast_self]
  rw [maximumf_apply, addf_apply, broadcastTo_1b_ab_apply, broadcast_apply]
  rfl

/-! ## What a grid point leaves in the result tile -/

theorem zero_offsets1 : (![0, 0] : Fin 2 → Nat) = fun _ => 0 := funext fun a => by fin_cases a <;> rfl

/-- The body loads the whole feature tile and the bias row and stores the whole clamped tile. -/
theorem out1_apply (h : Vec Ideal S2000x256 .f32) (b : Vec Ideal S1x256 .f32) (p : Fin 2000) (q : Fin 256) :
    out1 (F := Ideal) h b (ix2 p q)
      = max (h (ix2 p q) + b (ix2 (0 : Fin 1) q)) (Ideal.ofBits .f32 0x00000000#32) := by
  unfold out1
  rw [View.canon_unit_zero zero_offsets1]
  simp only [View.ld_unit_zero (S := S2000x256) zero_offsets1, View.ld_unit_zero (S := S1x256) zero_offsets1]
  exact clampTile_apply h b p q

/-- The same at an index given by its coordinates. -/
theorem out1_at (h : Vec Ideal S2000x256 .f32) (b : Vec Ideal S1x256 .f32) (y : S2000x256.Idx) (p : Fin 2000) (q : Fin 256)
    (h0 : (y 0).val = p.val) (h1 : (y 1).val = q.val) :
    out1 (F := Ideal) h b y = max (h (ix2 p q) + b (ix2 (0 : Fin 1) q)) (Ideal.ofBits .f32 0x00000000#32) := by
  have e : y = ix2 p q := funext fun a => Fin.ext (by
    match a with
    | ⟨0, _⟩ => exact h0
    | ⟨1, _⟩ => exact h1)
  rw [e]
  exact out1_apply h b p q

/-! ## The tiles as rows of their arrays -/

/-- The printed index maps over the 25 grid points: the feature window and the result window are at
    block (t, 0), the bias window always at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem rows_lt1 (t : Fin cfg1.N) (p : Fin 2000) : 2000 * t.val + p.val < 50000 := by
  have ht : t.val < 25 := lt_of_lt_of_eq t.isLt N_1
  have hp := p.isLt
  omega

/-- Row p of the feature tile at point t is row 2000 t + p of the aggregated feature array. -/
theorem aggTile_apply (c : Dev nD) (t : Fin cfg1.N) (p : Fin 2000) (q : Fin 256) :
    (iblk1 (F := Ideal) V c 0 t : Vec Ideal S2000x256 .f32) (ix2 p q)
      = (V c main_v45 : Cert.Spec.SNxH.Idx → EReal) (ix2 ⟨2000 * t.val + p.val, rows_lt1 t p⟩ q) := by
  obtain ⟨e0, e1, -, -, -, -⟩ := blockIndex1 t
  unfold iblk1
  rw [View.read_apply]
  show V c main_v45 _ = V c main_v45 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 256 + 1 * q.val = q.val; rw [e1]; omega

/-- The bias tile at every point is the whole bias row. -/
theorem biasTile_apply (c : Dev nD) (t : Fin cfg1.N) (q : Fin 256) :
    (iblk1 (F := Ideal) V c 1 t : Vec Ideal S1x256 .f32) (ix2 (0 : Fin 1) q)
      = (V c main_v46 : Cert.Spec.S1xH.Idx → EReal) (ix2 (0 : Fin 1) q) := by
  obtain ⟨-, -, e0, e1, -, -⟩ := blockIndex1 t
  unfold iblk1
  rw [View.read_apply]
  show V c main_v46 _ = V c main_v46 _
  congr 1
  funext a
  apply Fin.ext
  match a with
  | ⟨0, _⟩ => show win1_1.index t (0 : Fin 2) * 1 + 1 * 0 = 0; rw [e0]
  | ⟨1, _⟩ => show win1_1.index t (1 : Fin 2) * 256 + 1 * q.val = q.val; rw [e1]; omega

/-! ## What a grid point writes back, and the whole array -/

/-- The whole clamped array, read at an index given by its coordinates. -/
theorem biasClamp_at (H : Cert.Spec.SNxH.Idx → EReal) (B : Cert.Spec.S1xH.Idx → EReal) (i : Cert.Spec.SNxH.Idx)
    (n : Fin 50000) (q : Fin 256) (h0 : (i 0).val = n.val) (h1 : (i 1).val = q.val) :
    Cert.Spec.biasClamp H B i = max (H (ix2 n q) + B (ix2 (0 : Fin 1) q)) (Ideal.ofBits .f32 0x00000000#32) := by
  have e : i = ix2 n q := funext fun a => Fin.ext (by
    match a with
    | ⟨0, _⟩ => exact h0
    | ⟨1, _⟩ => exact h1)
  rw [e]
  rfl

/-- What point t writes back is block t of the whole clamped array: rows 2000 t … 2000 t + 1999. -/
theorem flushed1_eq (c : Dev nD) (t : Fin cfg1.N) :
    (dat1 (F := Ideal) V c).flushed 2 t
      = ((cfg1.win 2).blk t).view.read (Elt Ideal) (Cert.Spec.biasClamp (V c main_v45) (V c main_v46)) := by
  show (cfg1.win 2).cut (grid1.coords t) ((dat1 V c).after 2 t) = _
  rw [after1_2]
  obtain ⟨-, -, -, -, e0, e1⟩ := blockIndex1 t
  funext j
  have hj0 : (j 0).val < 2000 := (j 0).isLt
  have hj1 : (j 1).val < 256 := (j 1).isLt
  show out1 (iblk1 V c 0 t) (iblk1 V c 1 t) ((cfg1.win 2).xinj (grid1.coords t) j)
    = Cert.Spec.biasClamp (V c main_v45) (V c main_v46) (((cfg1.win 2).blk t).view.emb j)
  refine (out1_at (iblk1 V c 0 t) (iblk1 V c 1 t) _ ⟨(j 0).val, hj0⟩ ⟨(j 1).val, hj1⟩ rfl rfl).trans ?_
  refine Eq.trans ?_ (biasClamp_at (V c main_v45) (V c main_v46) _
    ⟨2000 * t.val + (j 0).val, rows_lt1 t ⟨(j 0).val, hj0⟩⟩ ⟨(j 1).val, hj1⟩ ?h0 ?h1).symm
  · rw [aggTile_apply, biasTile_apply]
  case h0 =>
    show win1_2.index t (0 : Fin 2) * 2000 + 1 * (j 0).val = 2000 * t.val + (j 0).val
    rw [e0]; omega
  case h1 =>
    show win1_2.index t (1 : Fin 2) * 256 + 1 * (j 1).val = (j 1).val
    rw [e1]; omega

/-- An index of the result array is in point t's block iff each coordinate is in the block's range. -/
theorem mem_block1 (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v47).slice (win1_2.rect t)).set ↔ _
  rw [View.set_slice_whole, Rect.mem_set_unit]
  exact Iff.rfl

/-- Row r lies in the block of point r / 2000, and every point writes its block back. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, lt_of_lt_of_eq (by omega) N_1.symm⟩, rfl⟩
  obtain ⟨-, -, -, -, e0, e1⟩ := blockIndex1 t
  refine ⟨t, flush1_2 t, ?_⟩
  rw [mem_block1]
  intro a
  match a with
  | ⟨0, _⟩ =>
    show win1_2.index t (0 : Fin 2) * 2000 ≤ (i 0).val ∧ (i 0).val < win1_2.index t (0 : Fin 2) * 2000 + 2000
    rw [e0, ht]; omega
  | ⟨1, _⟩ =>
    show win1_2.index t (1 : Fin 2) * 256 ≤ (i 1).val ∧ (i 1).val < win1_2.index t (1 : Fin 2) * 256 + 256
    rw [e1]; omega

/-- The result array after the call: entry (n, j) is max (aggregated feature (n, j) + bias j) 0. -/
theorem arr1_eq (c : Dev nD) :
    (dat1 (F := Ideal) V c).arrAt 2 cfg1.N = Cert.Spec.biasClamp (V c main_v45) (V c main_v46) :=
  (dat1 V c).arrAt_eq_of_cover 2 (Cert.Spec.biasClamp (V c main_v45) (V c main_v46))
    (fun t _ => flushed1_eq V c t) covered1

end Cert.KernelIdeal.Hand

end
-- ==== Proof.Val2.lean ====
/-
  What the third pallas_call leaves in its 64 x 1 result array, at the ideal values and for any contents V of the
  arrays it is given. Over its 25 grid points the 64 x 256 scratch adds up (indicator tile)ᵀ · (feature tile): point t
  sees rows 2000 t … 2000 t + 1999, so after point n the scratch holds, at (g, j), the sum over the rows below
  2000 (n + 1) of indicator (r, g) · feature (r, j) (induction on n; extended-real addition is associative and
  0 + x = x, so nothing has to be finite), and after the last point the sum over all 50000 rows: the pooled sums.
  The last point divides row g by its count clamped below at one, runs the 256 x 256 layer with bias and clamp and the
  256 x 1 layer with bias, and stores the 64 x 1 tile; that tile is the whole result array and is written back at
  the last point only, so the array ends holding it. Each matrix product contracts one axis and is read at an index
  as the sum over that axis's coordinate; the narrowing to bf16 and the casts to the same shape are the identity here.
-/
import proofs.«423902_j15470472200268_1_alg».proof.Proof.R2
import proofs.«423902_j15470472200268_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The three matrix products at an index

Each contracts ONE axis; the contraction index is its one coordinate. -/

theorem lhs_pool_0 (i : S64x256.Idx) (q : dot_S2000x64_S2000x256_S64x256_0_0_1_1_n_n.contr.Idx) :
    (dot_S2000x64_S2000x256_S64x256_0_0_1_1_n_n.lhsIdx i q 0).val = (q ⟨0, by decide⟩).val :=
  dot_S2000x64_S2000x256_S64x256_0_0_1_1_n_n.lhsIdx_val_of_single rfl i q
theorem lhs_pool_1 (i : S64x256.Idx) (q : dot_S2000x64_S2000x256_S64x256_0_0_1_1_n_n.contr.Idx) :
    (dot_S2000x64_S2000x256_S64x256_0_0_1_1_n_n.lhsIdx i q 1).val = (i 0).val := by
  unfold DotDims.lhsIdx
  rw [dif_neg (show ¬(1 : Fin S2000x64.rank) ∈ dot_S2000x64_S2000x256_S64x256_0_0_1_1_n_n.lhsBatch by decide), dif_pos (show (1 : Fin S2000x64.rank) ∈ dot_S2000x64_S2000x256_S64x256_0_0_1_1_n_n.lhsNonContracting by decide)]
  rfl
theorem rhs_pool_0 (i : S64x256.Idx) (q : dot_S2000x64_S2000x256_S64x256_0_0_1_1_n_n.contr.Idx) :
    (dot_S2000x64_S2000x256_S64x256_0_0_1_1_n_n.rhsIdx i q 0).val = (q ⟨0, by decide⟩).val :=
  dot_S2000x64_S2000x256_S64x256_0_0_1_1_n_n.rhsIdx_val_of_single rfl i q
theorem rhs_pool_1 (i : S64x256.Idx) (q : dot_S2000x64_S2000x256_S64x256_0_0_1_1_n_n.contr.Idx) :
    (dot_S2000x64_S2000x256_S64x256_0_0_1_1_n_n.rhsIdx i q 1).val = (i 1).val := by
  unfold DotDims.rhsIdx
  rw [dif_neg (show ¬(1 : Fin S2000x256.rank) ∈ dot_S2000x64_S2000x256_S64x256_0_0_1_1_n_n.rhsBatch by decide), dif_pos (show (1 : Fin S2000x256.rank) ∈ dot_S2000x64_S2000x256_S64x256_0_0_1_1_n_n.rhsNonContracting by decide)]
  rfl

/-- The pooled product into a zero accumulator: entry (g, j) sums, over the tile's 2000 rows, indicator times feature. -/
theorem pool_matmul_apply (oh : FVec Ideal S2000x64 .bf16) (h : FVec Ideal S2000x256 .bf16) (g : Fin 64) (j : Fin 256) :
    matmul dot_S2000x64_S2000x256_S64x256_0_0_1_1_n_n none oh h (constant S64x256 .f32 0x00000000#32) (ix2 g j)
      = ∑ r : Fin 2000, oh (ix2 r g) * h (ix2 r j) := by
  simp only [matmul]
  rw [Ideal.matmul_constant_zero_apply, ← Equiv.sum_comp (ValueIdx.contrEquiv1 dot_S2000x64_S2000x256_S64x256_0_0_1_1_n_n 2000 rfl rfl).symm]
  refine Finset.sum_congr rfl fun k _ => ?_
  have hk := ValueIdx.contrEquiv1_symm_val dot_S2000x64_S2000x256_S64x256_0_0_1_1_n_n 2000 rfl rfl k
  have el : dot_S2000x64_S2000x256_S64x256_0_0_1_1_n_n.lhsIdx (ix2 g j) ((ValueIdx.contrEquiv1 dot_S2000x64_S2000x256_S64x256_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x64_S2000x256_S64x256_0_0_1_1_n_n.rhsIdx (ix2 g j) ((ValueIdx.contrEquiv1 dot_S2000x64_S2000x256_S64x256_0_0_1_1_n_n 2000 rfl rfl).symm k) = ix2 k j := funext fun a => Fin.ext (by
    match a with
    | ⟨0, _⟩ => exact (rhs_pool_0 _ _).trans hk
    | ⟨1, _⟩ => exact rhs_pool_1 _ _)
  rw [el, er]

theorem lhs_l2_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem lhs_l2_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem rhs_l2_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem rhs_l2_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

/-- The first layer's product into a zero accumulator: entry (g, k) sums row g of the left against column k of the right. -/
theorem l2_matmul_apply (a : FVec Ideal S64x256 .bf16) (w : FVec Ideal S256x256 .bf16) (g : Fin 64) (k : Fin 256) :
    matmul dot_S64x256_S256x256_S64x256_1_0_0_1_n_n none a w (constant S64x256 .f32 0x00000000#32) (ix2 g k)
      = ∑ j : Fin 256, a (ix2 g j) * w (ix2 j k) := by
  simp only [matmul]
  rw [Ideal.matmul_constant_zero_apply, ← Equiv.sum_comp (ValueIdx.contrEquiv1 dot_S64x256_S256x256_S64x256_1_0_0_1_n_n 256 rfl rfl).symm]
  refine Finset.sum_congr rfl fun j _ => ?_
  have hj := ValueIdx.contrEquiv1_symm_val dot_S64x256_S256x256_S64x256_1_0_0_1_n_n 256 rfl rfl j
  have el : dot_S64x256_S256x256_S64x256_1_0_0_1_n_n.lhsIdx (ix2 g k) ((ValueIdx.contrEquiv1 dot_S64x256_S256x256_S64x256_1_0_0_1_n_n 256 rfl rfl).symm j) = ix2 g j := funext fun a => Fin.ext (by
    match a with
    | ⟨0, _⟩ => exact lhs_l2_0 _ _
    | ⟨1, _⟩ => exact (lhs_l2_1 _ _).trans hj)
  have er : dot_S64x256_S256x256_S64x256_1_0_0_1_n_n.rhsIdx (ix2 g k) ((ValueIdx.contrEquiv1 dot_S64x256_S256x256_S64x256_1_0_0_1_n_n 256 rfl rfl).symm j) = ix2 j k := funext fun a => Fin.ext (by
    match a with
    | ⟨0, _⟩ => exact (rhs_l2_0 _ _).trans hj
    | ⟨1, _⟩ => exact rhs_l2_1 _ _)
  rw [el, er]

theorem lhs_l3_0 (i : S64x1.Idx) (q : dot_S64x256_S256x1_S64x1_1_0_0_1_n_n.contr.Idx) :
    (dot_S64x256_S256x1_S64x1_1_0_0_1_n_n.lhsIdx i q 0).val = (i 0).val := by
  unfold DotDims.lhsIdx
  rw [dif_neg (show ¬(0 : Fin S64x256.rank) ∈ dot_S64x256_S256x1_S64x1_1_0_0_1_n_n.lhsBatch by decide), dif_pos (show (0 : Fin S64x256.rank) ∈ dot_S64x256_S256x1_S64x1_1_0_0_1_n_n.lhsNonContracting by decide)]
  rfl
theorem lhs_l3_1 (i : S64x1.Idx) (q : dot_S64x256_S256x1_S64x1_1_0_0_1_n_n.contr.Idx) :
    (dot_S64x256_S256x1_S64x1_1_0_0_1_n_n.lhsIdx i q 1).val = (q ⟨0, by decide⟩).val :=
  dot_S64x256_S256x1_S64x1_1_0_0_1_n_n.lhsIdx_val_of_single rfl i q
theorem rhs_l3_0 (i : S64x1.Idx) (q : dot_S64x256_S256x1_S64x1_1_0_0_1_n_n.contr.Idx) :
    (dot_S64x256_S256x1_S64x1_1_0_0_1_n_n.rhsIdx i q 0).val = (q ⟨0, by decide⟩).val :=
  dot_S64x256_S256x1_S64x1_1_0_0_1_n_n.rhsIdx_val_of_single rfl i q
theorem rhs_l3_1 (i : S64x1.Idx) (q : dot_S64x256_S256x1_S64x1_1_0_0_1_n_n.contr.Idx) :
    (dot_S64x256_S256x1_S64x1_1_0_0_1_n_n.rhsIdx i q 1).val = (i 1).val := by
  unfold DotDims.rhsIdx
  rw [dif_neg (show ¬(1 : Fin S256x1.rank) ∈ dot_S64x256_S256x1_S64x1_1_0_0_1_n_n.rhsBatch by decide), dif_pos (show (1 : Fin S256x1.rank) ∈ dot_S64x256_S256x1_S64x1_1_0_0_1_n_n.rhsNonContracting by decide)]
  rfl

/-- The second layer's product into a zero accumulator: entry (g, z) sums row g of the left against the right's column z. -/
theorem l3_matmul_apply (a : FVec Ideal S64x256 .bf16) (w : FVec Ideal S256x1 .bf16) (g : Fin 64) (z : Fin 1) :
    matmul dot_S64x256_S256x1_S64x1_1_0_0_1_n_n none a w (constant S64x1 .f32 0x00000000#32) (ix2 g z)
      = ∑ k : Fin 256, a (ix2 g k) * w (ix2 k z) := by
  simp only [matmul]
  rw [Ideal.matmul_constant_zero_apply, ← Equiv.sum_comp (ValueIdx.contrEquiv1 dot_S64x256_S256x1_S64x1_1_0_0_1_n_n 256 rfl rfl).symm]
  refine Finset.sum_congr rfl fun k _ => ?_
  have hk := ValueIdx.contrEquiv1_symm_val dot_S64x256_S256x1_S64x1_1_0_0_1_n_n 256 rfl rfl k
  have el : dot_S64x256_S256x1_S64x1_1_0_0_1_n_n.lhsIdx (ix2 g z) ((ValueIdx.contrEquiv1 dot_S64x256_S256x1_S64x1_1_0_0_1_n_n 256 rfl rfl).symm k) = ix2 g k := funext fun a => Fin.ext (by
    match a with
    | ⟨0, _⟩ => exact lhs_l3_0 _ _
    | ⟨1, _⟩ => exact (lhs_l3_1 _ _).trans hk)
  have er : dot_S64x256_S256x1_S64x1_1_0_0_1_n_n.rhsIdx (ix2 g z) ((ValueIdx.contrEquiv1 dot_S64x256_S256x1_S64x1_1_0_0_1_n_n 256 rfl rfl).symm k) = ix2 k z := funext fun a => Fin.ext (by
    match a with
    | ⟨0, _⟩ => exact (rhs_l3_0 _ _).trans hk
    | ⟨1, _⟩ => exact rhs_l3_1 _ _)
  rw [el, er]

/-! ## The payloads at an index -/

/-- The reset stores the zero array. -/
theorem pay1_apply (g : Fin 64) (j : Fin 256) : (k2_pay1 (F := Ideal)) (ix2 g j) = 0 := by
  unfold k2_pay1
  simp only [shapeCast_self]
  exact Ideal.ofBits_zero_f32

/-- A point's update: what the scratch held plus the tile's pooled product (the narrowing to bf16 and the casts to the
    same shape are the identity on extended reals). -/
theorem pay2_apply (oh : Vec Ideal S2000x64 .bf16) (h : Vec Ideal S2000x256 .f32) (prev : Vec Ideal S64x256 .f32)
    (g : Fin 64) (j : Fin 256) :
    k2_pay2 oh h prev (ix2 g j) = prev (ix2 g j) + ∑ r : Fin 2000, oh (ix2 r g) * h (ix2 r j) := by
  unfold k2_pay2
  simp only [shapeCast_self]
  refine (addf_apply _ _ _).trans ?_
  refine congrArg (prev (ix2 g j) + ·) ?_
  exact pool_matmul_apply oh (truncf .bf16 h bitsLt_bf16_f32) g j

/-! ## The tiles

Point t stages rows 2000 t … 2000 t + 1999 of the indicator and feature arrays (block index (t, 0)); the other five
inputs are staged whole. -/

/-- The indicator array, the feature array, and their tiles at a point, at their literal types. -/
abbrev ohArr (c : Dev nD) : Vec Ideal S50000x64 .bf16 := V c main_v48
abbrev hArr (c : Dev nD) : Vec Ideal S50000x256 .f32 := V c main_v47
abbrev ohBlk (c : Dev nD) (t : Fin cfg2.N) : Vec Ideal S2000x64 .bf16 := iblk2 V c 0 t
abbrev hBlk (c : Dev nD) (t : Fin cfg2.N) : Vec Ideal S2000x256 .f32 := iblk2 V c 1 t

/-- The block indices of the two tiled windows: (t, 0). -/
theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = t.val ∧ win2_1.index t 1 = 0 :=
  (by decide +kernel : ∀ t : Fin grid2.N, win2_1.index t 0 = t.val ∧ win2_1.index t 1 = 0)

theorem point_lt (t : Fin cfg2.N) : t.val < 25 := by
  have h := t.isLt
  have e : cfg2.N = 25 := N_2
  omega

/-- Row r of point t's indicator tile is row 2000 t + r of the array. -/
theorem ohBlk_apply (c : Dev nD) (t : Fin cfg2.N) (r : Fin 2000) (g : Fin 64) (hr : 2000 * t.val + r.val < 50000) :
    ohBlk V c t (ix2 r g) = ohArr V c (ix2 ⟨2000 * t.val + r.val, hr⟩ g) := by
  show iblk2 V c 0 t (ix2 r g) = V c main_v48 (ix2 ⟨2000 * t.val + r.val, hr⟩ g)
  unfold iblk2
  rw [View.read_apply]
  show V c main_v48 _ = V c main_v48 _
  congr 1
  funext a
  apply Fin.ext
  match a with
  | ⟨0, _⟩ => show win2_0.index t 0 * 2000 + 1 * r.val = 2000 * t.val + r.val; rw [(index2_0 t).1]; omega
  | ⟨1, _⟩ => show win2_0.index t 1 * 64 + 1 * g.val = g.val; rw [(index2_0 t).2]; omega

/-- Row r of point t's feature tile is row 2000 t + r of the array. -/
theorem hBlk_apply (c : Dev nD) (t : Fin cfg2.N) (r : Fin 2000) (j : Fin 256) (hr : 2000 * t.val + r.val < 50000) :
    hBlk V c t (ix2 r j) = hArr V c (ix2 ⟨2000 * t.val + r.val, hr⟩ j) := by
  show iblk2 V c 1 t (ix2 r j) = V c main_v47 (ix2 ⟨2000 * t.val + r.val, hr⟩ j)
  unfold iblk2
  rw [View.read_apply]
  show V c main_v47 _ = V c main_v47 _
  congr 1
  funext a
  apply Fin.ext
  match a with
  | ⟨0, _⟩ => show win2_1.index t 0 * 2000 + 1 * r.val = 2000 * t.val + r.val; rw [(index2_1 t).1]; omega
  | ⟨1, _⟩ => show win2_1.index t 1 * 256 + 1 * j.val = j.val; rw [(index2_1 t).2]; omega

/-! ## The scratch after each point: a partial sum over the rows seen so far -/

/-- Row r's term of entry (g, j) of the pooled sums; zero past the last row, so that sums over ranges of naturals
    can be split and joined freely. -/
def term (c : Dev nD) (g : Fin 64) (j : Fin 256) (r : ℕ) : EReal :=
  if h : r < 50000 then ohArr V c (ix2 ⟨r, h⟩ g) * hArr V c (ix2 ⟨r, h⟩ j) else 0

/-- Point t's product at (g, j) adds the terms of its 2000 rows. -/
theorem tile_sum (c : Dev nD) (t : Fin cfg2.N) (g : Fin 64) (j : Fin 256) :
    ∑ r : Fin 2000, ohBlk V c t (ix2 r g) * hBlk V c t (ix2 r j)
      = ∑ r ∈ Finset.range 2000, term V c g j (2000 * t.val + r) := by
  have ht := point_lt t
  rw [← Fin.sum_univ_eq_sum_range (fun r => term V c g j (2000 * t.val + r)) 2000]
  refine Finset.sum_congr rfl fun r _ => ?_
  have hr : 2000 * t.val + r.val < 50000 := by have := r.isLt; omega
  rw [ohBlk_apply V c t r g hr, hBlk_apply V c t r j hr]
  unfold term
  rw [dif_pos hr]

/-- After point n the scratch holds, at (g, j), the terms of rows 0 … 2000 (n + 1) − 1: the first point adds its tile to
    zero, each later one to what the point before left (extended-real addition; no finiteness is needed). -/
theorem accAt_apply (c : Dev nD) (g : Fin 64) (j : Fin 256) :
    ∀ (n : ℕ) (hn : n < cfg2.N), accAt V c n hn (ix2 g j) = ∑ r ∈ Finset.range (2000 * (n + 1)), term V c g j r
  | 0, hn => by
    rw [accAt_zero]
    refine (pay2_apply (ohBlk V c ⟨0, hn⟩) (hBlk V c ⟨0, hn⟩) (k2_pay1 (F := Ideal)) g j).trans ?_
    rw [pay1_apply, zero_add, tile_sum V c ⟨0, hn⟩ g j]
    simp only [Nat.mul_zero, Nat.zero_add, Nat.mul_one]
  | n + 1, hn => by
    rw [accAt_succ]
    refine (pay2_apply (ohBlk V c ⟨n + 1, hn⟩) (hBlk V c ⟨n + 1, hn⟩) (accAt V c n (Nat.lt_of_succ_lt hn)) g j).trans ?_
    rw [accAt_apply c g j n (Nat.lt_of_succ_lt hn), tile_sum V c ⟨n + 1, hn⟩ g j,
      show 2000 * (n + 1 + 1) = 2000 * (n + 1) + 2000 from by omega, Finset.sum_range_add]

theorem last_lt : 24 < cfg2.N := by
  have e : cfg2.N = 25 := N_2
  omega

/-- After the last point the scratch holds the pooled sums: the 25 tiles are all 50000 rows. -/
theorem accAt_last (c : Dev nD) (g : Fin 64) (j : Fin 256) :
    accAt V c 24 last_lt (ix2 g j) = Cert.Spec.pooled (V c main_v48) (V c main_v47) (ix2 g j) := by
  rw [accAt_apply V c g j 24 last_lt, show 2000 * (24 + 1) = 50000 from by norm_num,
    ← Fin.sum_univ_eq_sum_range (fun r => term V c g j r) 50000]
  unfold Cert.Spec.pooled
  refine Finset.sum_congr rfl fun n _ => ?_
  unfold term
  rw [dif_pos n.isLt]

/-! ## The head at an index -/

/-- The column of clamped counts broadcast along the features reads its row's entry. -/
theorem bcast_col_apply (v : FVec Ideal S64x1 .f32) (g : Fin 64) (j : Fin 256) :
    broadcastTo S64x256 v broadcasts_S64x1_S64x256 (ix2 g j) = v (ix2 g 0) :=
  broadcastTo_apply v broadcasts_S64x1_S64x256 (ix2 g j) (ix2 g 0) fun a => by
    match a with
    | ⟨0, _⟩ => rfl
    | ⟨1, _⟩ => rfl

/-- The first layer's bias row broadcast down the graphs reads its column's entry. -/
theorem bcast_row_apply (v : FVec Ideal S1x256 .f32) (g : Fin 64) (k : Fin 256) :
    broadcastTo S64x256 v broadcasts_S1x256_S64x256 (ix2 g k) = v (ix2 0 k) :=
  broadcastTo_apply v broadcasts_S1x256_S64x256 (ix2 g k) (ix2 0 k) fun a => by
    match a with
    | ⟨0, _⟩ => rfl
    | ⟨1, _⟩ => rfl

/-- The second layer's one bias broadcast down the graphs reads that entry. -/
theorem bcast_one_apply (v : FVec Ideal S1x1 .f32) (g : Fin 64) (z : Fin 1) :
    broadcastTo S64x1 v broadcasts_S1x1_S64x1 (ix2 g z) = v (ix2 0 0) :=
  broadcastTo_apply v broadcasts_S1x1_S64x1 (ix2 g z) (ix2 0 0) fun a => by
    match a with
    | ⟨0, _⟩ => rfl
    | ⟨1, _⟩ => rfl

/-- What the last point stores, index by index: the pooled sums divided by the clamped counts, through the two layers. -/
theorem pay3_apply (acc : Vec Ideal S64x256 .f32) (cnt : Vec Ideal S64x1 .f32) (w2 : Vec Ideal S256x256 .f32)
    (b2 : Vec Ideal S1x256 .f32) (w3 : Vec Ideal S256x1 .f32) (b3 : Vec Ideal S1x1 .f32) (g : Fin 64) :
    k2_pay3 acc cnt w2 b2 w3 b3 (ix2 g 0) = Cert.Spec.head acc cnt w2 b2 w3 b3 (ix2 g 0) := by
  unfold k2_pay3 Cert.Spec.head
  simp only [shapeCast_self]
  refine (addf_apply _ _ _).trans ?_
  refine congrArg₂ (· + ·) ?_ (bcast_one_apply b3 g 0)
  refine (l3_matmul_apply _ _ g 0).trans ?_
  refine Finset.sum_congr rfl fun k _ => ?_
  refine congrArg (· * w3 (ix2 k 0)) ?_
  show max (_ + _) _ = _
  refine congrArg₂ max (congrArg₂ (· + ·) ?_ (bcast_row_apply b2 g k)) rfl
  refine (l2_matmul_apply _ _ g k).trans ?_
  refine Finset.sum_congr rfl fun j _ => ?_
  refine congrArg (· * w2 (ix2 j k)) ?_
  show Ideal.div (acc (ix2 g j)) _ = _
  exact congrArg (Ideal.div (acc (ix2 g j))) (bcast_col_apply _ g j)

/-! ## From the last point's store to the array

The count, weight and bias windows, and the result window, have block index (0, 0) and the whole array as their block:
read through such a block an array is itself. The result is written back at the last point only. -/

theorem index2_2 : ∀ (t : Fin cfg2.N) (a : Fin 2), win2_2.index t a = 0 :=
  (by decide +kernel : ∀ (t : Fin grid2.N) (a : Fin 2), win2_2.index t a = 0)
theorem index2_3 : ∀ (t : Fin cfg2.N) (a : Fin 2), win2_3.index t a = 0 :=
  (by decide +kernel : ∀ (t : Fin grid2.N) (a : Fin 2), win2_3.index t a = 0)
theorem index2_4 : ∀ (t : Fin cfg2.N) (a : Fin 2), win2_4.index t a = 0 :=
  (by decide +kernel : ∀ (t : Fin grid2.N) (a : Fin 2), win2_4.index t a = 0)
theorem index2_5 : ∀ (t : Fin cfg2.N) (a : Fin 2), win2_5.index t a = 0 :=
  (by decide +kernel : ∀ (t : Fin grid2.N) (a : Fin 2), win2_5.index t a = 0)
theorem index2_6 : ∀ (t : Fin cfg2.N) (a : Fin 2), win2_6.index t a = 0 :=
  (by decide +kernel : ∀ (t : Fin grid2.N) (a : Fin 2), win2_6.index t a = 0)
theorem index2_7 : ∀ (t : Fin cfg2.N) (a : Fin 2), win2_7.index t a = 0 :=
  (by decide +kernel : ∀ (t : Fin grid2.N) (a : Fin 2), win2_7.index t a = 0)

theorem off2_2 (t : Fin cfg2.N) : (fun a => win2_2.index t a * main_v62.ty.shape.size a) = fun _ => 0 :=
  funext fun a => by rw [index2_2 t a, Nat.zero_mul]
theorem off2_3 (t : Fin cfg2.N) : (fun a => win2_3.index t a * main_arg5.ty.shape.size a) = fun _ => 0 :=
  funext fun a => by rw [index2_3 t a, Nat.zero_mul]
theorem off2_4 (t : Fin cfg2.N) : (fun a => win2_4.index t a * main_v60.ty.shape.size a) = fun _ => 0 :=
  funext fun a => by rw [index2_4 t a, Nat.zero_mul]
theorem off2_5 (t : Fin cfg2.N) : (fun a => win2_5.index t a * main_arg7.ty.shape.size a) = fun _ => 0 :=
  funext fun a => by rw [index2_5 t a, Nat.zero_mul]
theorem off2_6 (t : Fin cfg2.N) : (fun a => win2_6.index t a * main_v61.ty.shape.size a) = fun _ => 0 :=
  funext fun a => by rw [index2_6 t a, Nat.zero_mul]
theorem off2_7 (t : Fin cfg2.N) : (fun a => win2_7.index t a * main_v63.ty.shape.size a) = fun _ => 0 :=
  funext fun a => by rw [index2_7 t a, Nat.zero_mul]

/-- The counts' tile at any point is the counts array; likewise the two weight matrices and the two biases. -/
theorem iblk2_2 (c : Dev nD) (t : Fin cfg2.N) : iblk2 V c 2 t = V c main_v62 := by
  unfold iblk2
  exact Memref.read_access_unit_zero (Elt Ideal) main_v62 (off2_2 t) (fun a => by rw [congrFun (off2_2 t) a]; simp) (V c main_v62)
theorem iblk2_3 (c : Dev nD) (t : Fin cfg2.N) : iblk2 V c 3 t = V c main_arg5 := by
  unfold iblk2
  exact Memref.read_access_unit_zero (Elt Ideal) main_arg5 (off2_3 t) (fun a => by rw [congrFun (off2_3 t) a]; simp) (V c main_arg5)
theorem iblk2_4 (c : Dev nD) (t : Fin cfg2.N) : iblk2 V c 4 t = V c main_v60 := by
  unfold iblk2
  exact Memref.read_access_unit_zero (Elt Ideal) main_v60 (off2_4 t) (fun a => by rw [congrFun (off2_4 t) a]; simp) (V c main_v60)
theorem iblk2_5 (c : Dev nD) (t : Fin cfg2.N) : iblk2 V c 5 t = V c main_arg7 := by
  unfold iblk2
  exact Memref.read_access_unit_zero (Elt Ideal) main_arg7 (off2_5 t) (fun a => by rw [congrFun (off2_5 t) a]; simp) (V c main_arg7)
theorem iblk2_6 (c : Dev nD) (t : Fin cfg2.N) : iblk2 V c 6 t = V c main_v61 := by
  unfold iblk2
  exact Memref.read_access_unit_zero (Elt Ideal) main_v61 (off2_6 t) (fun a => by rw [congrFun (off2_6 t) a]; simp) (V c main_v61)

/-- What point t stores into the result tile, over the arrays themselves. -/
theorem headOut_eq (c : Dev nD) (t : Fin cfg2.N) :
    headOut V c t = k2_pay3 (accAt V c t.val t.isLt) (V c main_v62) (V c main_arg5) (V c main_v60) (V c main_arg7) (V c main_v61) := by
  unfold headOut
  rw [iblk2_2 V c t, iblk2_3 V c t, iblk2_4 V c t, iblk2_5 V c t, iblk2_6 V c t]

/-- The last point's store, as contents of the result array (its one block is the array). -/
abbrev lastStore (c : Dev nD) : Buf (Elt Ideal) ((c : Thread nD τ).loc main_v63) := headOut V c ⟨24, last_lt⟩

/-- The one write-back, at the last point, writes that store. -/
theorem flushed2_7 (c : Dev nD) (t : Fin cfg2.N) (hf : (cfg2.win 7).flush t = true) :
    (dat2 V c).flushed 7 t = ((cfg2.win 7).blk t).view.read (Elt Ideal) (lastStore V c) := by
  have h24 : t.val = 24 := by have := (flush2_7 t).mp hf; have := point_lt t; omega
  obtain rfl : t = ⟨24, last_lt⟩ := Fin.ext h24
  show (cfg2.win 7).cut (grid2.coords ⟨24, last_lt⟩) ((dat2 V c).after 7 ⟨24, last_lt⟩) = _
  rw [after2_7]
  exact (Memref.read_access_unit_zero (Elt Ideal) main_v63 (off2_7 ⟨24, last_lt⟩)
    (fun a => by rw [congrFun (off2_7 ⟨24, last_lt⟩) a]; simp) (lastStore V c)).symm

/-- So the result array ends holding the last point's store: that point's block covers it. -/
theorem arr2_last (c : Dev nD) : (dat2 V c).arrAt 7 cfg2.N = lastStore V c :=
  (dat2 V c).arrAt_eq_of_cover 7 (lastStore V c) (flushed2_7 V c) fun i =>
    ⟨⟨24, last_lt⟩, (flush2_7 ⟨24, last_lt⟩).mpr rfl, by
      show i ∈ ((View.whole main_v63).slice (win2_7.rect ⟨24, last_lt⟩)).set
      rw [View.set_slice_whole, Rect.mem_set_unit]
      intro a
      have h0 : (i 0 : Nat) < 64 := (i 0).isLt
      have h1 : (i 1 : Nat) < 1 := (i 1).isLt
      match a with
      | ⟨0, _⟩ =>
        show win2_7.index ⟨24, last_lt⟩ 0 * 64 ≤ (i 0 : Nat) ∧ (i 0 : Nat) < win2_7.index ⟨24, last_lt⟩ 0 * 64 + 64
        rw [index2_7 ⟨24, last_lt⟩ 0]; omega
      | ⟨1, _⟩ =>
        show win2_7.index ⟨24, last_lt⟩ 1 * 1 ≤ (i 1 : Nat) ∧ (i 1 : Nat) < win2_7.index ⟨24, last_lt⟩ 1 * 1 + 1
        rw [index2_7 ⟨24, last_lt⟩ 1]; omega⟩

/-- The scratch after the last point is the pooled sums, as arrays. -/
theorem accAt_last_eq (c : Dev nD) : accAt V c 24 last_lt = Cert.Spec.pooled (V c main_v48) (V c main_v47) :=
  funext fun i => by
    obtain ⟨g, j, rfl⟩ : ∃ (g : Fin 64) (j : Fin 256), i = ix2 g j := ⟨i 0, i 1, eq_ix2 i⟩
    exact accAt_last V c g j

/-- The last point's store, index by index, is the head of the pooled sums. -/
theorem lastStore_apply (c : Dev nD) (i : S64x1.Idx) : lastStore V c i
    = Cert.Spec.head (Cert.Spec.pooled (V c main_v48) (V c main_v47)) (V c main_v62) (V c main_arg5) (V c main_v60) (V c main_arg7) (V c main_v61) i := by
  obtain ⟨g, z, rfl⟩ : ∃ (g : Fin 64) (z : Fin 1), i = ix2 g z := ⟨i 0, i 1, eq_ix2 i⟩
  obtain rfl : z = 0 := Subsingleton.elim _ _
  show headOut V c ⟨24, last_lt⟩ (ix2 g 0) = _
  rw [headOut_eq V c ⟨24, last_lt⟩]
  refine (pay3_apply (accAt V c 24 last_lt) (V c main_v62) (V c main_arg5) (V c main_v60) (V c main_arg7) (V c main_v61) g).trans ?_
  rw [accAt_last_eq V c]

/-- What the third call leaves in its 64 x 1 result array: the head of the pooled sums of the arrays it was given. -/
theorem arr2_eq (c : Dev nD) : (dat2 (F := Ideal) V c).arrAt 7 cfg2.N
      = Cert.Spec.head (Cert.Spec.pooled (V c main_v48) (V c main_v47)) (V c main_v62) (V c main_arg5) (V c main_v60) (V c main_arg7) (V c main_v61) :=
  (arr2_last V c).trans (funext fun i => lastStore_apply V c i)

end Cert.KernelIdeal.Hand

end
-- ==== Proof.Chains.lean ====
/-
  The host computations both programs share, as pure functions of arrays: the normalised aggregation of
  a node-feature array along the edge list (with self loops), the pooled sums by scatter, the graph
  counts by scatter; and the kernel's own bookkeeping for pooling: the one-hot indicator matrix of the
  batch vector and its counts through an integer scatter of ones.
-/
import proofs.«423902_j15470472200268_1_alg».proof.KernelIdeal
import proofs.«423902_j15470472200268_1_alg».proof.Proof.Gen.KernelIdeal
import proofs.«423902_j15470472200268_1_alg».proof.Proof.RefRead

noncomputable section

namespace Cert.Chains

open Idealize.ShloMosaic Idealize.ShloMosaic.TcCoe Idealize.ShloMosaic.StableHlo

variable {F : FTy → Type} [FloatOps F]

section Ref
open Cert.ReferenceIdeal Cert.ReferenceIdeal.Gen Cert.ReferenceIdeal.ReadP

/-- The aggregation: gather the rows of `h` at the source nodes, scale each by the product of the two
    end nodes' inverse square-root degrees, and add them up at the destination nodes. -/
def agg (h : (⟨S50000x256, .f32⟩ : BufTy).Contents (Elt F)) (x1 : (⟨S2x800000, .i32⟩ : BufTy).Contents (Elt F)) :
    (⟨S50000x256, .f32⟩ : BufTy).Contents (Elt F) :=
  Host.scatterAdd scatter_S50000x256_S850000x1_S850000x256_1_0_0_1 (val_main_v41 (F := F)) (val_main_v42 (F := F) x1)
    (mulf (Host.gather gather_S50000x256_S850000x1_S850000x256_1_0_n_n_0_1_1256 h (val_main_v36 (F := F) x1)) (val_main_v39 (F := F) x1))

/-- The reference aggregates the feature product. -/
theorem val_main_v43_eq_agg (x0 : (⟨S50000x128, .f32⟩ : BufTy).Contents (Elt F)) (x1 : (⟨S2x800000, .i32⟩ : BufTy).Contents (Elt F))
    (x3 : (⟨S128x256, .f32⟩ : BufTy).Contents (Elt F)) :
    val_main_v43 (F := F) x0 x1 x3 = agg (val_main_v7 (F := F) x0 x3) x1 := rfl

/-- The pooled sums: row n of `h` added into row batch n of a zero 64 x 256 array (rows with an id outside 0..63 dropped). -/
def poolScatter (x2 : (⟨S50000, .i32⟩ : BufTy).Contents (Elt F)) (h : (⟨S50000x256, .f32⟩ : BufTy).Contents (Elt F)) :
    (⟨S64x256, .f32⟩ : BufTy).Contents (Elt F) :=
  Host.scatterAdd scatter_S64x256_S50000x1_S50000x256_1_0_0_1 (val_main_v52 (F := F)) (val_main_v53 (F := F) x2) h

/-- The graph counts: a one added into entry batch n of a zero vector of 64. -/
def cntScatter (x2 : (⟨S50000, .i32⟩ : BufTy).Contents (Elt F)) : (⟨S64, .f32⟩ : BufTy).Contents (Elt F) :=
  val_main_v51 (F := F) x2

end Ref

section Ker
open Cert.KernelIdeal Cert.KernelIdeal.Gen

/-- The indicator matrix: entry (n, g) is one when batch n is g, else zero. -/
def oneHotK (x2 : (⟨S50000, .i32⟩ : BufTy).Contents (Elt F)) : (⟨S50000x64, .bf16⟩ : BufTy).Contents (Elt F) :=
  uitofp (F := F) .bf16
    (cmpi .eq
      (broadcastInDim S50000x64 ![0, 1] bcast_S50000x1_S50000x64_0_1 (broadcastInDim S50000x1 ![0] bcast_S50000_S50000x1_0 x2))
      (broadcastInDim S50000x64 ![0, 1] bcast_S1x64_S50000x64_0_1 (iotaInDim S1x64 32 1)))

/-- The batch ids clamped below at zero, as the counting takes them. -/
def clippedK (x2 : (⟨S50000, .i32⟩ : BufTy).Contents (Elt F)) : (⟨S50000, .i32⟩ : BufTy).Contents (Elt F) :=
  maxsi (broadcastInDim S50000 ![] bcast_S_S50000 (constantI S_ 32 0#32)) x2

/-- The scatter positions of the counting: the clamped id, with 64 added where it is negative. -/
def cntPosK (x2 : (⟨S50000, .i32⟩ : BufTy).Contents (Elt F)) : (⟨S50000, .i32⟩ : BufTy).Contents (Elt F) :=
  select (cmpi .slt (clippedK (F := F) x2) (broadcastInDim S50000 ![] bcast_S_S50000 (constantI S_ 32 0#32)))
    (addi (clippedK (F := F) x2) (broadcastInDim S50000 ![] bcast_S_S50000 (constantI S_ 32 64#32)))
    (clippedK (F := F) x2)

/-- The counts as the kernel forms them: integer ones scattered with integer addition into 64 zeros, then
    read as floats and laid out as a 64 x 1 column. -/
def cntK (x2 : (⟨S50000, .i32⟩ : BufTy).Contents (Elt F)) : (⟨S64x1, .f32⟩ : BufTy).Contents (Elt F) :=
  shapeCast _
    (sitofp (F := F) .f32
      (Host.scatter scatter_S64_S50000x1_S50000_n_0_0_1 IntOp.addi
        (broadcastInDim S64 ![] bcast_S_S64 (constantI S_ 32 0#32))
        (broadcastInDim S50000x1 ![0] bcast_S50000_S50000x1_0 (cntPosK (F := F) x2))
        (broadcastInDim S50000 ![] bcast_S_S50000 (constantI S_ 32 1#32))))
    shapeCasts_S64_S64x1

end Ker

end Cert.Chains

end
-- ==== Proof.Glue.lean ====
/-
  The host glue of @main, read through the fold of buffer contents W0 … W11: what each array that the
  first and the second call read holds when that call is entered, as a pure function of the launch
  memory and of what the first call left. Also the general facts the later boundaries use: a reference
  that no earlier item writes still holds its launch contents.
-/
import proofs.«423902_j15470472200268_1_alg».proof.Proof.Fold
import proofs.«423902_j15470472200268_1_alg».proof.Proof.Chains
import proofs.«423902_j15470472200268_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (Dat Cfg Window BodyObligation cellOf)

variable {F : FTy → Type} [FloatOps F]

local notation "𝕄" => MT nD τ sig Unit (Elt F) ℕ (UR sig nD τ) ℕ

/-- A vector laid out as one row reads, at `(0, j)`, the vector at `j`. -/
theorem shapeCast_row {α : Type} {n : ℕ} (x : (⟨1, ![n]⟩ : Shape).Idx → α)
    (h : (⟨1, ![n]⟩ : Shape).ShapeCasts ⟨2, ![1, n]⟩) (i : (⟨2, ![1, n]⟩ : Shape).Idx) :
    shapeCast ⟨2, ![1, n]⟩ x h i = x (ValueIdx.ix1 (i 1)) := by
  rw [ValueIdx.eq_ix2 i]
  exact ValueIdx.shapeCast_a_1a_apply x h (i 0) (i 1)

section Generic
variable (m : (ℓ : Loc nD τ sig) → Buf (Elt F) ℓ)

/-! ## References no item before a boundary writes keep their launch contents -/

theorem W1_of (c : Dev nD) (r : Ref sig .tc) (h : r ∉ hostOps0_W) :
    W1 m c (Proc.devRef .tc r) = m ((c : Thread nD τ).loc r) :=
  StableHlo.after_of_writes_sub hostOps0 _ hostOps0_writes h

theorem W2_of (c : Dev nD) (r : Ref sig .tc) (h : r ∉ hostOps0_W) (h0 : ∀ w, Pipeline.arrRef spec0 w ≠ r) :
    W2 m c (Proc.devRef .tc r) = m ((c : Thread nD τ).loc r) :=
  (W2_of_ne m c r h0).trans (W1_of m c r h)

theorem W3_of (c : Dev nD) (r : Ref sig .tc) (h : r ∉ hostOps1_W) :
    W3 m c (Proc.devRef .tc r) = W2 m c (Proc.devRef .tc r) :=
  StableHlo.after_of_writes_sub hostOps1 _ hostOps1_writes h
theorem W4_of (c : Dev nD) (r : Ref sig .tc) (h : r ∉ hostOps1_1_W) :
    W4 m c (Proc.devRef .tc r) = W3 m c (Proc.devRef .tc r) :=
  StableHlo.after_of_writes_sub hostOps1_1 _ hostOps1_1_writes h
theorem W5_of (c : Dev nD) (r : Ref sig .tc) (h : r ∉ hostOps1_2_W) :
    W5 m c (Proc.devRef .tc r) = W4 m c (Proc.devRef .tc r) :=
  StableHlo.after_of_writes_sub hostOps1_2 _ hostOps1_2_writes h
theorem W7_of (c : Dev nD) (r : Ref sig .tc) (h : r ∉ hostOps2_W) :
    W7 m c (Proc.devRef .tc r) = W6 m c (Proc.devRef .tc r) :=
  StableHlo.after_of_writes_sub hostOps2 _ hostOps2_writes h
theorem W8_of (c : Dev nD) (r : Ref sig .tc) (h : r ∉ hostOps2_1_W) :
    W8 m c (Proc.devRef .tc r) = W7 m c (Proc.devRef .tc r) :=
  StableHlo.after_of_writes_sub hostOps2_1 _ hostOps2_1_writes h
theorem W9_of (c : Dev nD) (r : Ref sig .tc) (h : r ∉ hostOps2_2_W) :
    W9 m c (Proc.devRef .tc r) = W8 m c (Proc.devRef .tc r) :=
  StableHlo.after_of_writes_sub hostOps2_2 _ hostOps2_2_writes h
theorem W10_of (c : Dev nD) (r : Ref sig .tc) (h : r ∉ hostOps2_3_W) :
    W10 m c (Proc.devRef .tc r) = W9 m c (Proc.devRef .tc r) :=
  StableHlo.after_of_writes_sub hostOps2_3 _ hostOps2_3_writes h

/-- A reference none of the first call's items writes, at the entry of the second call's stretches. -/
theorem W4_arg (c : Dev nD) (r : Ref sig .tc) (h0 : r ∉ hostOps0_W) (hs0 : ∀ w, Pipeline.arrRef spec0 w ≠ r)
    (h1 : r ∉ hostOps1_W) (h2 : r ∉ hostOps1_1_W) :
    W4 m c (Proc.devRef .tc r) = m ((c : Thread nD τ).loc r) :=
  (W4_of m c r h2).trans <| (W3_of m c r h1).trans (W2_of m c r h0 hs0)

theorem W6_arg (c : Dev nD) (r : Ref sig .tc) (h0 : r ∉ hostOps0_W) (hs0 : ∀ w, Pipeline.arrRef spec0 w ≠ r)
    (h1 : r ∉ hostOps1_W) (h2 : r ∉ hostOps1_1_W) (h3 : r ∉ hostOps1_2_W) (hs1 : ∀ w, Pipeline.arrRef spec1 w ≠ r) :
    W6 m c (Proc.devRef .tc r) = m ((c : Thread nD τ).loc r) :=
  (W6_of_ne m c r hs1).trans <| (W5_of m c r h3).trans (W4_arg m c r h0 hs0 h1 h2)

theorem W9_arg (c : Dev nD) (r : Ref sig .tc) (h0 : r ∉ hostOps0_W) (hs0 : ∀ w, Pipeline.arrRef spec0 w ≠ r)
    (h1 : r ∉ hostOps1_W) (h2 : r ∉ hostOps1_1_W) (h3 : r ∉ hostOps1_2_W) (hs1 : ∀ w, Pipeline.arrRef spec1 w ≠ r)
    (h4 : r ∉ hostOps2_W) (h5 : r ∉ hostOps2_1_W) (h6 : r ∉ hostOps2_2_W) :
    W9 m c (Proc.devRef .tc r) = m ((c : Thread nD τ).loc r) :=
  (W9_of m c r h6).trans <| (W8_of m c r h5).trans <| (W7_of m c r h4).trans (W6_arg m c r h0 hs0 h1 h2 h3 hs1)

/-- The second call's bias row: the bias vector laid out as one row. -/
theorem V5_v46 (c : Dev nD) :
    V5 m c main_v46 = fun i => (m ((c : Thread nD τ).loc main_arg4)) (ValueIdx.ix1 (i 1)) := by
  show StableHlo.after hostOps1_2 _ (Proc.devRef .tc main_v46) = _
  after_results_simp
  rw [W2_of m c main_arg4 (by decide) (by decide)]
  funext i
  exact shapeCast_row (n := 256) _ _ i

theorem W2_main_v2 (c : Dev nD) : W2 m c (Proc.devRef .tc main_v2) = res0 m c := W2_arr m c 2

section Agg
open Cert.ReferenceIdeal.ReadP

/-! ## The aggregation chain, stage by stage

The three stretches between the first and the second call compute, from the edge list alone, the
source and destination index vectors (with self loops), the degrees, their inverse square roots
under the guard; then gather, scale and scatter the first call's product. Each stage's buffer is
read as the same function of the edge list that the reference's chain applies. -/

/-- The source nodes with the self loops appended. -/
theorem W3_v6 (c : Dev nD) :
    W3 m c (Proc.devRef .tc main_v6) = val_main_v3 (F := F) (m ((c : Thread nD τ).loc main_arg1)) := by
  show StableHlo.after hostOps1 (W2 m c) (Proc.devRef .tc main_v6) = _
  after_results
  rw [W2_of m c main_arg1 (by decide) (by decide)]
  rfl

/-- The destination nodes with the self loops appended. -/
theorem W3_v9 (c : Dev nD) :
    W3 m c (Proc.devRef .tc main_v9) = val_main_v6 (F := F) (m ((c : Thread nD τ).loc main_arg1)) := by
  show StableHlo.after hostOps1 (W2 m c) (Proc.devRef .tc main_v9) = _
  after_results
  rw [W2_of m c main_arg1 (by decide) (by decide)]
  rfl

/-- Where the degree is positive. -/
theorem W3_v15 (c : Dev nD) :
    W3 m c (Proc.devRef .tc main_v15) = val_main_v13 (F := F) (m ((c : Thread nD τ).loc main_arg1)) := by
  show StableHlo.after hostOps1 (W2 m c) (Proc.devRef .tc main_v15) = _
  after_results
  rw [W2_of m c main_arg1 (by decide) (by decide)]
  rfl

/-- The inverse square roots of the degrees. -/
theorem W3_v16 (c : Dev nD) :
    W3 m c (Proc.devRef .tc main_v16) = val_main_v14 (F := F) (m ((c : Thread nD τ).loc main_arg1)) := by
  show StableHlo.after hostOps1 (W2 m c) (Proc.devRef .tc main_v16) = _
  after_results
  rw [W2_of m c main_arg1 (by decide) (by decide)]
  rfl

/-- The zero the guard falls back to. -/
theorem W3_cst_2 (c : Dev nD) :
    W3 m c (Proc.devRef .tc main_cst_2) = (constant S_ .f32 0x00000000#32 : (⟨S_, .f32⟩ : BufTy).Contents (Elt F)) := by
  show StableHlo.after hostOps1 (W2 m c) (Proc.devRef .tc main_cst_2) = _
  after_results

/-- The guarded inverse square roots: zero where the degree is not positive. -/
theorem W4_v17 (c : Dev nD) :
    W4 m c (Proc.devRef .tc main_v17) = val_main_v15 (F := F) (m ((c : Thread nD τ).loc main_arg1)) := by
  have e15 := W3_v15 m c
  have e16 := W3_v16 m c
  have e2 := W3_cst_2 m c
  show StableHlo.after hostOps1_1 (W3 m c) (Proc.devRef .tc main_v17) = _
  generalize W3 m c = V3 at e15 e16 e2 ⊢
  after_results
  simp only [TRef.ofBuf, TRef.toBuf, cast_eq]
  rw [e15, e16, e2]
  rfl

theorem W4_v6 (c : Dev nD) :
    W4 m c (Proc.devRef .tc main_v6) = val_main_v3 (F := F) (m ((c : Thread nD τ).loc main_arg1)) :=
  (W4_of m c main_v6 (by decide)).trans (W3_v6 m c)
theorem W4_v9 (c : Dev nD) :
    W4 m c (Proc.devRef .tc main_v9) = val_main_v6 (F := F) (m ((c : Thread nD τ).loc main_arg1)) :=
  (W4_of m c main_v9 (by decide)).trans (W3_v9 m c)
theorem W4_v2 (c : Dev nD) : W4 m c (Proc.devRef .tc main_v2) = res0 m c :=
  (W4_of m c main_v2 (by decide)).trans <| (W3_of m c main_v2 (by decide)).trans (W2_main_v2 m c)

set_option maxHeartbeats 1000000 in
/-- The second call's first operand: the first call's product, aggregated along the edges. -/
theorem V5_v45 (c : Dev nD) :
    V5 m c main_v45 = Cert.Chains.agg (res0 m c) (m ((c : Thread nD τ).loc main_arg1)) := by
  have e6 := W4_v6 m c
  have e9 := W4_v9 m c
  have e17 := W4_v17 m c
  have e2 := W4_v2 m c
  show StableHlo.after hostOps1_2 (W4 m c) (Proc.devRef .tc main_v45) = _
  generalize W4 m c = V4 at e6 e9 e17 e2 ⊢
  generalize res0 m c = h at e2 ⊢
  generalize m ((c : Thread nD τ).loc main_arg1) = x1 at e6 e9 e17 ⊢
  after_results_simp
  rw [e6, e9, e17, e2]
  rfl

end Agg

end Generic

/-! ## The first call's operands: the casts are the identity on extended reals -/

theorem V1_v0 (m : (ℓ : Loc nD τ sig) → Buf (Elt Ideal) ℓ) (c : Dev nD) :
    V1 (F := Ideal) m c main_v0 = m ((c : Thread nD τ).loc main_arg0) := by
  show StableHlo.after hostOps0 _ (Proc.devRef .tc main_v0) = _
  after_results
  rfl

theorem V1_v1 (m : (ℓ : Loc nD τ sig) → Buf (Elt Ideal) ℓ) (c : Dev nD) :
    V1 (F := Ideal) m c main_v1 = m ((c : Thread nD τ).loc main_arg3) := by
  show StableHlo.after hostOps0 _ (Proc.devRef .tc main_v1) = _
  after_results
  rfl

end Cert.KernelIdeal.Hand

end
-- ==== Proof.Glue10.lean ====
/-
  The host operations between the second and the third pallas_call, read through the fold of buffer
  contents: what the third call finds in each of its seven input arrays, as functions of the launch
  memory. Two arrays come from the batch vector (the one-hot indicator matrix and the per-graph counts),
  one is the second call's result, two are arguments untouched, and two are arguments reshaped to rows.
-/
import proofs.«423902_j15470472200268_1_alg».proof.Proof.Fold
import proofs.«423902_j15470472200268_1_alg».proof.Proof.Chains
import proofs.«423902_j15470472200268_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Stepping back through the fold at a reference an item does not write -/

/-- From the third call's entry back to the second call's exit: the four stretches in between write none of `r`. -/
private theorem back10_6 (c : Dev nD) (r : Ref sig .tc) (h3 : r ∉ hostOps2_3_W) (h2 : r ∉ hostOps2_2_W) (h1 : r ∉ hostOps2_1_W)
    (h0 : r ∉ hostOps2_W) : W10 m c (Proc.devRef .tc r) = W6 m c (Proc.devRef .tc r) :=
  (StableHlo.after_of_writes_sub hostOps2_3 _ hostOps2_3_writes h3).trans <|
  (StableHlo.after_of_writes_sub hostOps2_2 _ hostOps2_2_writes h2).trans <|
  (StableHlo.after_of_writes_sub hostOps2_1 _ hostOps2_1_writes h1).trans <|
  StableHlo.after_of_writes_sub hostOps2 _ hostOps2_writes h0

/-- From the third call's entry back to the end of the one-hot function's stretch. -/
private theorem back10_6' (c : Dev nD) (r : Ref sig .tc) (h3 : r ∉ hostOps2_3_W) (h2 : r ∉ hostOps2_2_W) (h1 : r ∉ hostOps2_1_W) :
    W10 m c (Proc.devRef .tc r) = W7 m c (Proc.devRef .tc r) :=
  (StableHlo.after_of_writes_sub hostOps2_3 _ hostOps2_3_writes h3).trans <|
  (StableHlo.after_of_writes_sub hostOps2_2 _ hostOps2_2_writes h2).trans <|
  StableHlo.after_of_writes_sub hostOps2_1 _ hostOps2_1_writes h1

/-- From the second call's exit back to the launch memory, at a reference that is no array of either call and
    that no stretch before writes. -/
private theorem back6_0 (c : Dev nD) (r : Ref sig .tc) (a1 : ∀ w, Pipeline.arrRef spec1 w ≠ r) (h12 : r ∉ hostOps1_2_W)
    (h11 : r ∉ hostOps1_1_W) (h1 : r ∉ hostOps1_W) (a0 : ∀ w, Pipeline.arrRef spec0 w ≠ r) (h0 : r ∉ hostOps0_W) :
    W6 m c (Proc.devRef .tc r) = m ((c : Thread nD τ).loc r) :=
  (W6_of_ne m c r a1).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m c r a0).trans <|
  StableHlo.after_of_writes_sub hostOps0 _ hostOps0_writes h0

/-! ## The arguments nothing writes -/

/-- The batch vector, at the second call's exit. -/
private theorem W6_arg2 (c : Dev nD) : W6 m c (Proc.devRef .tc main_arg2) = m ((c : Thread nD τ).loc main_arg2) :=
  back6_0 m c main_arg2 (by decide) (by decide) (by decide) (by decide) (by decide) (by decide)

theorem V10_arg5 (c : Dev nD) : V10 m c main_arg5 = m ((c : Thread nD τ).loc main_arg5) :=
  (back10_6 m c main_arg5 (by decide) (by decide) (by decide) (by decide)).trans
    (back6_0 m c main_arg5 (by decide) (by decide) (by decide) (by decide) (by decide) (by decide))

theorem V10_arg7 (c : Dev nD) : V10 m c main_arg7 = m ((c : Thread nD τ).loc main_arg7) :=
  (back10_6 m c main_arg7 (by decide) (by decide) (by decide) (by decide)).trans
    (back6_0 m c main_arg7 (by decide) (by decide) (by decide) (by decide) (by decide) (by decide))

/-! ## The second call's result -/

theorem V10_v47 (c : Dev nD) : V10 m c main_v47 = res1 m c :=
  (back10_6 m c main_v47 (by decide) (by decide) (by decide) (by decide)).trans (W6_arr m c 2)

/-! ## The two arguments laid out as rows -/

/-- A vector of `a` entries cast to a 1 x `a` array reads, at (u, j), the vector's entry j. -/
private theorem row_read {α : Type} {a : ℕ} (x : (⟨1, ![a]⟩ : Shape).Idx → α) (h : (⟨1, ![a]⟩ : Shape).ShapeCasts ⟨2, ![1, a]⟩)
    (i : (⟨2, ![1, a]⟩ : Shape).Idx) : shapeCast ⟨2, ![1, a]⟩ x h i = x (ValueIdx.ix1 (i 1)) :=
  (congrArg (shapeCast ⟨2, ![1, a]⟩ x h) (ValueIdx.eq_ix2 i)).trans (ValueIdx.shapeCast_a_1a_apply x h (i 0) (i 1))

/-- The hidden layer's bias, a vector of 256, laid out as a 1 x 256 row: entry (u, j) is entry j. -/
theorem V10_v60 (c : Dev nD) :
    V10 m c main_v60 = fun i => (m ((c : Thread nD τ).loc main_arg6)) (ValueIdx.ix1 (i 1)) := by
  show StableHlo.after hostOps2_3 (W9 m c) (Proc.devRef .tc main_v60) = _
  after_results
  rw [back6_0 m c main_arg6 (by decide) (by decide) (by decide) (by decide) (by decide) (by decide)]
  funext i
  exact row_read (m ((c : Thread nD τ).loc main_arg6)) shapeCasts_S256_S1x256 i

/-- The output layer's bias, a vector of one entry, laid out as a 1 x 1 array. -/
theorem V10_v61 (c : Dev nD) :
    V10 m c main_v61 = fun i => (m ((c : Thread nD τ).loc main_arg8)) (ValueIdx.ix1 (i 1)) := by
  show StableHlo.after hostOps2_3 (W9 m c) (Proc.devRef .tc main_v61) = _
  after_results
  rw [back6_0 m c main_arg8 (by decide) (by decide) (by decide) (by decide) (by decide) (by decide)]
  funext i
  exact row_read (m ((c : Thread nD τ).loc main_arg8)) shapeCasts_S1_S1x1 i

/-! ## The pooling bookkeeping computed from the batch vector -/

/-- The indicator matrix the third call multiplies by: the one-hot function's six operations on the batch vector. -/
theorem V10_v48 (c : Dev nD) : V10 m c main_v48 = Cert.Chains.oneHotK (m ((c : Thread nD τ).loc main_arg2)) := by
  refine (back10_6' m c main_v48 (by decide) (by decide) (by decide)).trans ?_
  show StableHlo.after hostOps2 (W6 m c) (Proc.devRef .tc main_v48) = _
  after_results
  simp only [TRef.ofBuf, TRef.toBuf, cast_eq]
  rw [W6_arg2]
  rfl

set_option maxHeartbeats 1000000 in
/-- The per-graph node counts as the kernel forms them: the clip function clamps the batch ids at zero, the main
    function wraps negative positions, scatters integer ones into 64 zeros, converts and lays the result out as a column. -/
theorem V10_v62 (c : Dev nD) : V10 m c main_v62 = Cert.Chains.cntK (m ((c : Thread nD τ).loc main_arg2)) := by
  have e50 : W9 m c (Proc.devRef .tc main_v50) = Cert.Chains.clippedK (m ((c : Thread nD τ).loc main_arg2)) := by
    show StableHlo.after hostOps2_2 (W8 m c) (Proc.devRef .tc main_v50) = _
    after_results
    simp only [TRef.ofBuf, TRef.toBuf, cast_eq]
    rw [W6_arg2]
    rfl
  have e49 : W9 m c (Proc.devRef .tc main_v49) = broadcastInDim S64 ![] bcast_S_S64 (constantI S_ 32 0#32) := by
    show StableHlo.after hostOps2_2 (W8 m c) (Proc.devRef .tc main_v49) = _
    after_results
  show StableHlo.after hostOps2_3 (W9 m c) (Proc.devRef .tc main_v62) = _
  generalize W9 m c = X at e50 e49 ⊢
  after_results
  rw [e50, e49]
  rfl

end Cert.KernelIdeal.Hand

end
-- ==== Proof.PreBatch.lean ====
/-
  The conjunct the precondition carries beyond finiteness, decoded: every node's graph id is
  non-negative as a signed 32-bit word. The printed predicate ends in an `and` whose last operand is
  the reduction by `and`, from the constant 1, of the 50000 one-bit comparisons "graph id ≥ 0" against
  a broadcast zero word. A reduction by `and` that came out 1 met only 1s, and one such comparison
  being 1 says the zero word's signed value is at most the graph id's.
-/
import proofs.«423902_j15470472200268_1_alg».proof.Pre_finite_inputs
import proofs.«423902_j15470472200268_1_alg».proof.Proof.Gen.Pre_finite_inputs
import Idealize.ShloMosaic.Lib.StableHlo.Predicate
import Idealize.ShloMosaic.Lib.ReduceAll
import Idealize.ShloMosaic.Lib.ValueIdx
import Idealize.ShloMosaic.PureOps.Ideal

set_option maxRecDepth 16384

noncomputable section

namespace Cert.Pool

open Idealize.ShloMosaic Idealize.ShloMosaic.ValueIdx
open Cert.Pre_finite_inputs

/-- The rank-0 shape has one index. -/
instance scalarIdx_subsingleton : Subsingleton S_.Idx := ⟨fun a b => funext fun d => d.elim0⟩

/-- The zero word reads 0 as a signed integer. -/
theorem toInt_zero32 : (0#32 : BitVec 32).toInt = 0 := by decide

/-- Under the precondition every graph id is a non-negative signed word. -/
theorem batch_nonneg_of_pre [Cert.Pre_finite_inputs.Facts]
    (a0 : FVec Ideal S50000x128 .f32) (a1 : IVec S2x800000 32) (a2 : IVec S50000 32) (a3 : FVec Ideal S128x256 .f32)
    (a4 : FVec Ideal S256 .f32) (a5 : FVec Ideal S256x256 .f32) (a6 : FVec Ideal S256 .f32) (a7 : FVec Ideal S256x1 .f32)
    (a8 : FVec Ideal S1 .f32)
    (hpre : Cert.Pre_finite_inputs.fn (F := Ideal) a0 a1 a2 a3 a4 a5 a6 a7 a8 = fun _ => 1#1) :
    ∀ n : S50000.Idx, 0 ≤ (a2 n).toInt := by
  intro n
  have e := congrFun hpre ix0
  unfold Cert.Pre_finite_inputs.fn Cert.Pre_finite_inputs.fn_part1 Cert.Pre_finite_inputs.fn_part2 at e
  dsimp only at e
  have e2 := (IntOp.andi_eq_one.mp e).2
  have e3 := Host.reduce_andi_all _ _ _ _ ix0 e2 n
  have e4 := IntOp.cmpi_sge.mp e3
  exact toInt_zero32 ▸ e4

end Cert.Pool

end
-- ==== Proof.Pool.lean ====
/-
  Pooling by graph id, as pure mathematics over the extended reals. Where an update of a scatter lands, for the
  two scatters whose indices are the batch vector as a column; the indicator-weighted sums over the nodes are the
  scatter of the feature rows by id (rows whose id is outside 0..63 have a zero indicator row and are dropped by the
  scatter alike); and the integer scatter of ones, read as floats, is the float scatter of ones when no id is negative.
-/
import proofs.«423902_j15470472200268_1_alg».proof.Proof.Chains
import proofs.«423902_j15470472200268_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost

noncomputable section

namespace Cert.Pool

open Idealize.ShloMosaic Idealize.ShloMosaic.ValueIdx

abbrev SN : Shape := ⟨1, ![50000]⟩
abbrev SNx1 : Shape := ⟨2, ![50000, 1]⟩
abbrev SG : Shape := ⟨1, ![64]⟩
abbrev SGx1 : Shape := ⟨2, ![64, 1]⟩
abbrev SGxH : Shape := ⟨2, ![64, 256]⟩
abbrev SNxH : Shape := ⟨2, ![50000, 256]⟩

/-! ## Where an update lands -/

/-- An update lands at `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have := congrArg Fin.val e'
      simp only at this
      have h0 := (h a).1
      omega
    · intro e
      congr 1
      funext a
      apply Fin.ext
      have := e a
      simp only
      omega
  · next h =>
    constructor
    · intro e; cases e
    · intro e
      exfalso
      apply h
      intro a
      have := e a
      have := (i a).isLt
      omega

/-- The counting scatter's dimension numbers: one scattered axis, no window. -/
def rec1 (wf : ScatterDims.WF SG SNx1 SN [] [0] [0] 1) : ScatterDims SG SNx1 SN := ⟨[], [0], [0], 1, wf⟩
/-- The pooling scatter's dimension numbers: rows scattered, the row itself the window. -/
def rec2 (wf : ScatterDims.WF SGxH SNx1 SNxH [1] [0] [0] 1) : ScatterDims SGxH SNx1 SNxH := ⟨[1], [0], [0], 1, wf⟩

theorem start2_0 (wf) (hb : SN.BroadcastsInDim SNx1 ![0]) (x2 : SN.Idx → BitVec 32) (a : Fin 50000) (b : Fin 256) :
    (rec2 wf).start (ix2 a b) (broadcastInDim SNx1 ![0] hb x2) 0 = (x2 (ix1 a)).toInt := by
  unfold ScatterDims.start
  rw [dif_pos (by simp [rec2])]
  congr 1
  simp only [broadcastInDim]
  congr 1
  funext c
  match c with
  | ⟨0, _⟩ => rfl

theorem start2_1 (wf) (hb : SN.BroadcastsInDim SNx1 ![0]) (x2 : SN.Idx → BitVec 32) (j : SNxH.Idx) :
    (rec2 wf).start j (broadcastInDim SNx1 ![0] hb x2) 1 = 0 := by
  unfold ScatterDims.start
  rw [dif_neg (by simp [rec2])]

theorem window2_0 (wf) (j : SNxH.Idx) : (rec2 wf).window j 0 = 0 := by
  unfold ScatterDims.window
  rw [dif_neg (by simp [rec2, ScatterDims.sKept, Shape.kept])]

theorem window2_1 (wf) (a : Fin 50000) (b : Fin 256) : (rec2 wf).window (ix2 a b) 1 = b.val := by
  unfold ScatterDims.window
  rw [dif_pos (by simp [rec2, ScatterDims.sKept, Shape.kept])]
  rfl

/-- Row `a`, column `b` of the updates lands at `i` exactly when the id of row `a` is `i`'s row and `b` its column. -/
theorem resultIdx2 (wf) (hb : SN.BroadcastsInDim SNx1 ![0]) (x2 : SN.Idx → BitVec 32) (a : Fin 50000) (b : Fin 256)
    (g : Fin 64) (c : Fin 256) :
    (rec2 wf).resultIdx? (ix2 a b) (broadcastInDim SNx1 ![0] hb x2) = some (ix2 g c)
      ↔ (x2 (ix1 a)).toInt = (g.val : Int) ∧ b = c := by
  rw [resultIdx?_eq_some_iff, Fin.forall_fin_two, start2_0, start2_1, window2_0, window2_1]
  show (x2 (ix1 a)).toInt + ((0 : ℕ) : Int) = (g.val : Int) ∧ (0 : Int) + (b.val : Int) = (c.val : Int) ↔ _
  constructor
  · rintro ⟨h0, h1⟩
    exact ⟨by simpa using h0, Fin.ext (by omega)⟩
  · rintro ⟨h0, h1⟩
    subst h1
    exact ⟨by simpa using h0, by simp⟩

/-! ## The integer scatter of ones counts -/

/-- Scattering ones with integer addition adds, at `g`, the number of updates that land at `g` (as a word). -/
theorem scatter_ones {s si u : Shape} {w : Nat} (d : ScatterDims s si u) (idx : IVec si w) (upd : u.Idx → BitVec 32)
    (hupd : ∀ j, upd j = 1#32) (x : s.Idx → BitVec 32) (g : s.Idx) :
    Host.scatter d IntOp.addi x idx upd g
      = x g + BitVec.ofNat 32 ((List.finRange u.numel).filter
          (fun n => decide (d.resultIdx? (u.rowMajor.symm n) idx = some g))).length := by
  unfold Host.scatter
  generalize List.finRange u.numel = l
  induction l generalizing x with
  | nil => simp
  | cons a l ih =>
    rw [List.foldl_cons, ih, List.filter_cons]
    cases hp : d.resultIdx? (u.rowMajor.symm a) idx with
    | none => simp
    | some i =>
      by_cases hg : g = i
      · subst hg
        simp [hupd, IntOp.addi, BitVec.ofNat_add, add_assoc, add_comm]
        rw [BitVec.add_assoc]
      · have hg' : ¬ i = g := fun e => hg e.symm
        simp [hg, hg']

theorem card_filter_univ_fin (n : Nat) (q : Fin n → Prop) [DecidablePred q] :
    (Finset.univ.filter q).card = ((List.finRange n).filter (fun i => decide (q i))).length := by
  rfl

/-- Counting along the row-major enumeration of a shape's indices is counting the indices. -/
theorem length_filter_rowMajor (u : Shape) (q : u.Idx → Prop) [DecidablePred q] :
    ((List.finRange u.numel).filter (fun n => decide (q (u.rowMajor.symm n)))).length = (Finset.univ.filter q).card := by
  rw [← card_filter_univ_fin u.numel (fun n => q (u.rowMajor.symm n))]
  exact Finset.card_equiv u.rowMajor.symm (by simp)

theorem sum_ones (α : Type) (S : Finset α) : ∑ _j ∈ S, (1 : EReal) = ((S.card : ℝ) : EReal) := by
  rw [Finset.sum_const, nsmul_one]
  simp

/-! ## Reading the printed arrays at an entry -/

abbrev SNxG : Shape := ⟨2, ![50000, 64]⟩
abbrev S1xG : Shape := ⟨2, ![1, 64]⟩

/-- A vector laid as a column and then along the rows reads, at (n, g), the vector at n. -/
theorem bcast_col_row {α : Type} (h1 : SN.BroadcastsInDim SNx1 ![0]) (h2 : SNx1.BroadcastsInDim SNxG ![0, 1])
    (v : SN.Idx → α) (n : Fin 50000) (g : Fin 64) :
    broadcastInDim SNxG ![0, 1] h2 (broadcastInDim SNx1 ![0] h1 v) (ix2 n g) = v (ix1 n) := by
  simp only [broadcastInDim]
  congr 1
  funext a
  match a with
  | ⟨0, _⟩ => rfl

/-- The column positions 0..63 laid down the rows read, at (n, g), the word g. -/
theorem bcast_iota (h3 : S1xG.BroadcastsInDim SNxG ![0, 1]) (n : Fin 50000) (g : Fin 64) :
    broadcastInDim SNxG ![0, 1] h3 (iotaInDim S1xG 32 1) (ix2 n g) = BitVec.ofNat 32 g.val := by
  simp only [broadcastInDim, iotaInDim]
  rfl

/-- A vector of 64 reshaped to a 64 x 1 column reads, at (g, 0), the vector at g. -/
theorem shapeCast_col_apply {α : Type} (v : SG.Idx → α) (h : SG.ShapeCasts SGx1) (g : Fin 64) (z : Fin 1) :
    shapeCast SGx1 v h (ix2 g z) = v (ix1 g) := by
  unfold shapeCast
  congr 1
  apply Shape.reshapeEquiv_eq_of_rowMajor
  rw [Shape.rowMajor_val_one, Shape.rowMajor_val_two]
  show g.val = g.val * 1 + z.val
  omega

/-! ## The indicator matrix at an entry -/

section Statements
open Cert.Chains Cert.ReferenceIdeal Cert.ReferenceIdeal.Gen Cert.ReferenceIdeal.ReadP

/-- Entry (n, g) of the indicator matrix is one when the id of node n is g, else zero. -/
theorem oneHot_apply (x2 : SN.Idx → BitVec 32) (n : Fin 50000) (g : Fin 64) :
    Cert.Chains.oneHotK (F := Ideal) x2 (ix2 n g) = if (x2 (ix1 n)).toInt = (g.val : Int) then 1 else 0 := by
  unfold Cert.Chains.oneHotK
  show (((IntOp.cmpi .eq (broadcastInDim SNxG ![0, 1] _ (broadcastInDim SNx1 ![0] _ x2) (ix2 n g))
      (broadcastInDim SNxG ![0, 1] _ (iotaInDim S1xG 32 1) (ix2 n g))).toNat : ℝ) : EReal) = _
  rw [bcast_col_row, bcast_iota]
  have hg : g.val < 2 ^ 31 := by have := g.isLt; omega
  by_cases hc : (x2 (ix1 n)).toInt = (g.val : Int)
  · rw [if_pos hc]
    have e : x2 (ix1 n) = BitVec.ofNat 32 g.val :=
      BitVec.eq_of_toInt_eq (by rw [hc, StableHlo.Predicate.toInt_ofNat_small _ hg])
    rw [e, StableHlo.Predicate.cmpi_eq_iff.2 rfl]
    simp
  · rw [if_neg hc]
    have e : IntOp.cmpi .eq (x2 (ix1 n)) (BitVec.ofNat 32 g.val) = 0#1 :=
      eq_zero_of_ne_one (fun e => hc (by rw [StableHlo.Predicate.cmpi_eq_iff.1 e, StableHlo.Predicate.toInt_ofNat_small _ hg]))
    rw [e]
    simp

/-- The pooled sums, with the batch vector as a plain function into words. -/
theorem pooled_oneHot_fn (x2 : SN.Idx → BitVec 32) (h : SNxH.Idx → EReal) :
    Cert.Spec.pooled (Cert.Chains.oneHotK (F := Ideal) x2) h = Cert.Chains.poolScatter (F := Ideal) x2 h := by
  funext i
  obtain ⟨g, c, rfl⟩ : ∃ g c, i = ix2 g c := ⟨i 0, i 1, eq_ix2 i⟩
  unfold Cert.Spec.pooled Cert.Chains.poolScatter
  show ∑ n : Fin 50000, Cert.Chains.oneHotK (F := Ideal) x2 (ix2 n g) * h (ix2 n c)
    = Ideal.hostScatterAdd (rec2 _) (val_main_v52 (F := Ideal)) (broadcastInDim SNx1 ![0] _ x2) h (ix2 g c)
  unfold Ideal.hostScatterAdd
  have h0 : val_main_v52 (F := Ideal) (ix2 g c) = 0 := by
    rw [val_main_v52_apply, val_main_cst_11_apply]
    exact Ideal.ofBits_zero_f32
  rw [h0, zero_add, Finset.sum_filter, sum_idx2]
  refine Finset.sum_congr rfl (fun n _ => ?_)
  rw [oneHot_apply]
  refine Eq.trans ?_ (Finset.sum_congr rfl (fun b _ => if_congr (resultIdx2 _ _ x2 n b g c) rfl rfl)).symm
  by_cases hc : (x2 (ix1 n)).toInt = (g.val : Int)
  · simp [hc]
  · simp [hc]

/-- The indicator-weighted sums over the nodes are the scatter of the feature rows by id. -/
theorem pooled_oneHot (x2 : (⟨Cert.KernelIdeal.S50000, .i32⟩ : BufTy).Contents (Elt Ideal)) (h : Cert.Spec.SNxH.Idx → EReal) :
    Cert.Spec.pooled (Cert.Chains.oneHotK (F := Ideal) x2) h = Cert.Chains.poolScatter (F := Ideal) x2 h :=
  pooled_oneHot_fn x2 h

/-- With no id negative the clamp at zero and the wrap of negative positions do nothing. -/
theorem cntPos_eq (x2 : SN.Idx → BitVec 32) (hnn : ∀ n : SN.Idx, 0 ≤ (x2 n).toInt) :
    Cert.Chains.cntPosK (F := Ideal) x2 = x2 := by
  funext n
  have hn := hnn n
  have z0 : (0#32 : BitVec 32).toInt = 0 := by decide
  unfold Cert.Chains.cntPosK Cert.Chains.clippedK
  show Scalar.select (IntOp.cmpi .slt (IntOp.maxsi 0#32 (x2 n)) 0#32)
      (IntOp.addi (IntOp.maxsi 0#32 (x2 n)) 64#32) (IntOp.maxsi 0#32 (x2 n)) = x2 n
  have hmax : IntOp.maxsi 0#32 (x2 n) = x2 n := by
    unfold IntOp.maxsi
    rw [if_neg]
    rw [BitVec.slt_iff_toInt_lt, z0]
    omega
  rw [hmax]
  have hlt : IntOp.cmpi .slt (x2 n) 0#32 = 0#1 :=
    eq_zero_of_ne_one (fun e => by have := IntOp.cmpi_slt.1 e; rw [z0] at this; omega)
  rw [hlt]
  rfl

/-- Scattering ones from zeros with integer addition leaves, at `g`, the number of updates landing there, also when the
    word is read signed: there are fewer than 2^31 updates. -/
theorem toInt_scatter_ones {s si u : Shape} {w : Nat} (d : ScatterDims s si u) (idx : IVec si w) (upd : u.Idx → BitVec 32)
    (hupd : ∀ j, upd j = 1#32) (x : s.Idx → BitVec 32) (g : s.Idx) (hx : x g = 0#32) (hu : u.numel < 2 ^ 31) :
    (Host.scatter d IntOp.addi x idx upd g).toInt
      = ((Finset.univ.filter (fun j => d.resultIdx? j idx = some g)).card : Int) := by
  rw [scatter_ones d idx upd hupd, hx, BitVec.zero_add, StableHlo.Predicate.toInt_ofNat_small,
    length_filter_rowMajor u (fun j => d.resultIdx? j idx = some g)]
  refine lt_of_le_of_lt (List.length_filter_le _ _) ?_
  rw [List.length_finRange]
  exact hu

/-- The counts, with the batch vector as a plain function into words. -/
theorem cnt_eq_fn (x2 : SN.Idx → BitVec 32) (hnn : ∀ n : SN.Idx, 0 ≤ (x2 n).toInt) :
    Cert.Chains.cntK (F := Ideal) x2 = fun i => Cert.Chains.cntScatter (F := Ideal) x2 (ValueIdx.ix1 (i 0)) := by
  funext i
  obtain ⟨g, z, rfl⟩ : ∃ g z, i = ix2 g z := ⟨i 0, i 1, eq_ix2 i⟩
  unfold Cert.Chains.cntK Cert.Chains.cntScatter
  rw [cntPos_eq x2 hnn, shapeCast_col_apply]
  show (((Host.scatter (rec1 _) IntOp.addi (fun _ => 0#32) (broadcastInDim SNx1 ![0] _ x2) (fun _ => 1#32) (ix1 g)).toInt : ℝ) : EReal)
     = Ideal.hostScatterAdd (rec1 _) (val_main_v49 (F := Ideal)) (broadcastInDim SNx1 ![0] _ x2) (val_main_v48 (F := Ideal)) (ix1 g)
  rw [toInt_scatter_ones (rec1 _) _ _ (fun _ => rfl) _ _ rfl (by simp [Shape.numel])]
  unfold Ideal.hostScatterAdd
  have h0 : val_main_v49 (F := Ideal) (ix1 g) = 0 := by
    rw [val_main_v49_apply, val_main_cst_10_apply]
    exact Ideal.ofBits_zero_f32
  have h1 : ∀ j, val_main_v48 (F := Ideal) j = 1 := fun j => by
    rw [val_main_v48_apply, val_main_cst_9_apply]
    exact Ideal.ofBits_one_f32
  rw [h0, zero_add, Finset.sum_congr rfl (fun j _ => h1 j), sum_ones, Int.cast_natCast]

/-- With no id negative, the integer count of ids, read as floats, is the float scatter of ones. -/
theorem cnt_eq (x2 : (⟨Cert.KernelIdeal.S50000, .i32⟩ : BufTy).Contents (Elt Ideal))
    (hnn : ∀ n : Cert.KernelIdeal.S50000.Idx, 0 ≤ (x2 n).toInt) :
    Cert.Chains.cntK (F := Ideal) x2 = fun i => Cert.Chains.cntScatter (F := Ideal) x2 (ValueIdx.ix1 (i 0)) :=
  cnt_eq_fn x2 hnn

end Statements

end Cert.Pool

end
-- ==== Proof.RefSpec.lean ====
/-
  The reference's result is the specification. Stage by stage, each array the reference forms is one of the
  specification's functions, index by index: the feature product; the bias-and-clamp of its aggregation; the
  pooled sums divided by the clamped graph counts; the 256 x 256 layer with bias and clamp; the 256 x 1 layer
  with bias. The aggregation and the two scatters stay closed: both sides carry them as the same functions.
-/
import proofs.«423902_j15470472200268_1_alg».proof.Proof.RefRead
import proofs.«423902_j15470472200268_1_alg».proof.Proof.Chains
import proofs.«423902_j15470472200268_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.RefSpec

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x1, .f32⟩ : BufTy).Contents (Elt Ideal))
  (x8 : (⟨S1, .f32⟩ : BufTy).Contents (Elt Ideal))

/-- The first contraction is the feature product: entry (n, j) sums over the 128 input channels. -/
theorem featProduct_eq : val_main_v7 (F := Ideal) x0 x3 = Cert.Spec.featProduct x0 x3 := by
  funext i
  obtain ⟨n, j, rfl⟩ : ∃ (n : Fin 50000) (j : Fin 256), i = ix2 n j := ⟨i 0, i 1, eq_ix2 i⟩
  rw [val_main_v7_apply]
  unfold Cert.Spec.featProduct
  refine Finset.sum_congr rfl fun k _ => ?_
  have el : lidx_main_v7 (ix2 n j) k = ix2 n k :=
    funext fun a => Fin.ext (by match a with | ⟨0, _⟩ => rfl | ⟨1, _⟩ => rfl)
  have er : ridx_main_v7 (ix2 n j) k = ix2 k j :=
    funext fun a => Fin.ext (by match a with | ⟨0, _⟩ => rfl | ⟨1, _⟩ => rfl)
  rw [el, er]

/-- The node features after the first layer: the aggregated feature product plus the bias row, clamped at zero. -/
theorem biasClamp_eq :
    val_main_v47 (F := Ideal) x0 x1 x3 x4
      = Cert.Spec.biasClamp (Cert.Chains.agg (F := Ideal) (Cert.Spec.featProduct x0 x3) x1) (fun i => x4 (ix1 (i 1))) := by
  funext i
  obtain ⟨n, j, rfl⟩ : ∃ (n : Fin 50000) (j : Fin 256), i = ix2 n j := ⟨i 0, i 1, eq_ix2 i⟩
  rw [val_main_v47_apply, val_main_v46_apply, val_main_v45_apply, val_main_v44_apply, val_main_call1_v0_apply,
    val_main_call1_cst_apply, Cert.Chains.val_main_v43_eq_agg, featProduct_eq]
  have e4 : idx_main_v44 (idx_main_v45 (ix2 n j)) = ix1 j :=
    funext fun a => Fin.ext (by match a with | ⟨0, _⟩ => rfl)
  rw [e4]
  simp only [Ideal.maximumf_def, Ideal.addf_def, Ideal.ofBits_def]
  rfl

/-- The pooled mean at (g, j): the pooled sum over the graph's count clamped below at one. -/
theorem mean_eq (g : Fin 64) (j : Fin 256) :
    val_main_v59 (F := Ideal) x0 x1 x2 x3 x4 (ix2 g j)
      = Ideal.div ((Cert.Chains.poolScatter (F := Ideal) x2
        (Cert.Spec.biasClamp (Cert.Chains.agg (F := Ideal) (Cert.Spec.featProduct x0 x3) x1) (fun i => x4 (ix1 (i 1))))) (ix2 g j))
          (max (Cert.Chains.cntScatter (F := Ideal) x2 (ix1 g)) (Ideal.ofBits .f32 0x3F800000#32)) := by
  have hp : val_main_v54 (F := Ideal) x0 x1 x2 x3 x4
      = Cert.Chains.poolScatter (F := Ideal) x2 (val_main_v47 (F := Ideal) x0 x1 x3 x4) := rfl
  have hc : val_main_v51 (F := Ideal) x2 = Cert.Chains.cntScatter (F := Ideal) x2 := rfl
  rw [val_main_v59_apply, val_main_v58_apply, val_main_v57_apply, val_main_v56_apply, val_main_v55_apply,
    val_main_cst_12_apply, hp, hc, biasClamp_eq]
  have e : idx_main_v57 (idx_main_v58 (ix2 g j)) = ix1 g :=
    funext fun a => Fin.ext (by match a with | ⟨0, _⟩ => rfl)
  rw [e]
  simp only [Ideal.hostDivf_def, Ideal.maximumf_def, Ideal.ofBits_def]

/-- The hidden layer at (g, k): the means against column k of the 256 x 256 weights, plus the bias, clamped at zero. -/
theorem hidden_eq (g : Fin 64) (k : Fin 256) :
    val_main_v64 (F := Ideal) x0 x1 x2 x3 x4 x5 x6 (ix2 g k)
      = max ((∑ j : Fin 256,
              Ideal.div ((Cert.Chains.poolScatter (F := Ideal) x2
        (Cert.Spec.biasClamp (Cert.Chains.agg (F := Ideal) (Cert.Spec.featProduct x0 x3) x1) (fun i => x4 (ix1 (i 1))))) (ix2 g j))
                (max (Cert.Chains.cntScatter (F := Ideal) x2 (ix1 g)) (Ideal.ofBits .f32 0x3F800000#32)) * x5 (ix2 j k))
            + x6 (ix1 k)) (Ideal.ofBits .f32 0x00000000#32) := by
  rw [val_main_v64_apply, val_main_v63_apply, val_main_v60_apply, val_main_v62_apply, val_main_v61_apply,
    val_main_call2_v0_apply, val_main_call2_cst_apply]
  have e6 : idx_main_v61 (idx_main_v62 (ix2 g k)) = ix1 k :=
    funext fun a => Fin.ext (by match a with | ⟨0, _⟩ => rfl)
  have hs : (∑ j : Fin 256, val_main_v59 (F := Ideal) x0 x1 x2 x3 x4 (lidx_main_v60 (ix2 g k) j) * x5 (ridx_main_v60 (ix2 g k) j))
      = ∑ j : Fin 256,
          Ideal.div ((Cert.Chains.poolScatter (F := Ideal) x2
        (Cert.Spec.biasClamp (Cert.Chains.agg (F := Ideal) (Cert.Spec.featProduct x0 x3) x1) (fun i => x4 (ix1 (i 1))))) (ix2 g j))
            (max (Cert.Chains.cntScatter (F := Ideal) x2 (ix1 g)) (Ideal.ofBits .f32 0x3F800000#32)) * x5 (ix2 j k) :=
    Finset.sum_congr rfl fun j _ => by
      have el : lidx_main_v60 (ix2 g k) j = ix2 g j :=
        funext fun a => Fin.ext (by match a with | ⟨0, _⟩ => rfl | ⟨1, _⟩ => rfl)
      have er : ridx_main_v60 (ix2 g k) j = ix2 j k :=
        funext fun a => Fin.ext (by match a with | ⟨0, _⟩ => rfl | ⟨1, _⟩ => rfl)
      rw [el, er, mean_eq]
  rw [e6, hs]
  simp only [Ideal.maximumf_def, Ideal.addf_def, Ideal.ofBits_def]

/-- The reference's result is the head on the pooled sums and the graph counts. -/
theorem ref_eq :
    val_main_v68 (F := Ideal) x0 x1 x2 x3 x4 x5 x6 x7 x8
      = Cert.Spec.head
          (Cert.Chains.poolScatter (F := Ideal) x2
        (Cert.Spec.biasClamp (Cert.Chains.agg (F := Ideal) (Cert.Spec.featProduct x0 x3) x1) (fun i => x4 (ix1 (i 1)))))
          (fun i => Cert.Chains.cntScatter (F := Ideal) x2 (ix1 (i 0)))
          x5 (fun i => x6 (ix1 (i 1))) x7 (fun i => x8 (ix1 (i 1))) := by
  funext i
  obtain ⟨g, z, rfl⟩ : ∃ (g : Fin 64) (z : Fin 1), i = ix2 g z := ⟨i 0, i 1, eq_ix2 i⟩
  obtain rfl : z = 0 := Subsingleton.elim _ _
  rw [val_main_v68_apply, val_main_v65_apply, val_main_v67_apply, val_main_v66_apply]
  have e8 : idx_main_v66 (idx_main_v67 (ix2 g (0 : Fin 1))) = ix1 (0 : Fin 1) :=
    funext fun a => Fin.ext (by match a with | ⟨0, _⟩ => rfl)
  have hs : (∑ k : Fin 256, val_main_v64 (F := Ideal) x0 x1 x2 x3 x4 x5 x6 (lidx_main_v65 (ix2 g (0 : Fin 1)) k)
        * x7 (ridx_main_v65 (ix2 g (0 : Fin 1)) k))
      = ∑ k : Fin 256,
          max ((∑ j : Fin 256,
                  Ideal.div ((Cert.Chains.poolScatter (F := Ideal) x2
        (Cert.Spec.biasClamp (Cert.Chains.agg (F := Ideal) (Cert.Spec.featProduct x0 x3) x1) (fun i => x4 (ix1 (i 1))))) (ix2 g j))
                    (max (Cert.Chains.cntScatter (F := Ideal) x2 (ix1 g)) (Ideal.ofBits .f32 0x3F800000#32)) * x5 (ix2 j k))
                + x6 (ix1 k)) (Ideal.ofBits .f32 0x00000000#32)
            * x7 (ix2 k (0 : Fin 1)) :=
    Finset.sum_congr rfl fun k _ => by
      have el : lidx_main_v65 (ix2 g (0 : Fin 1)) k = ix2 g k :=
        funext fun a => Fin.ext (by match a with | ⟨0, _⟩ => rfl | ⟨1, _⟩ => rfl)
      have er : ridx_main_v65 (ix2 g (0 : Fin 1)) k = ix2 k (0 : Fin 1) :=
        funext fun a => Fin.ext (by match a with | ⟨0, _⟩ => rfl | ⟨1, _⟩ => rfl)
      rw [el, er, hidden_eq]
  rw [e8, hs]
  simp only [Ideal.addf_def]
  rfl

/-- The run's result term is the last stage at the nine arguments as the run finds them. -/
theorem res_eq {F : FTy → Type} [FloatOps F] (m : (ℓ : Loc nD τ sig) → Buf (Elt F) ℓ) (c : Dev nD) :
    Cert.ReferenceIdeal.ValueP.res_main_v68 m c
      = val_main_v68 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  val_main_v68_eq m c

end Cert.RefSpec

end
-- ==== Proof.Bridge.lean ====
/-
  The two programs compute one function. The kernel's result, read through its three calls and the host
  glue between them, is the head applied to the pooled sums of the clamped, bias-shifted aggregation of
  the feature product, with the pooling written as an indicator-matrix product and the counts through an
  integer scatter; the reference's result is the same head on the same aggregation with both poolings
  written as float scatters. The indicator product IS the scatter for every batch vector; the two counts
  agree when no graph id is negative, which the precondition states.
-/
import proofs.«423902_j15470472200268_1_alg».proof.Defs
import proofs.«423902_j15470472200268_1_alg».proof.Proof.Fold
import proofs.«423902_j15470472200268_1_alg».proof.Proof.Val0
import proofs.«423902_j15470472200268_1_alg».proof.Proof.Val1
import proofs.«423902_j15470472200268_1_alg».proof.Proof.Val2
import proofs.«423902_j15470472200268_1_alg».proof.Proof.Glue
import proofs.«423902_j15470472200268_1_alg».proof.Proof.Glue10
import proofs.«423902_j15470472200268_1_alg».proof.Proof.PreBatch
import proofs.«423902_j15470472200268_1_alg».proof.Proof.Pool
import proofs.«423902_j15470472200268_1_alg».proof.Proof.RefSpec

noncomputable section

namespace Cert.Bridge

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- Equal arrays give equal products, clamps and heads: the congruences the chain below is threaded through. -/
theorem featProduct_congr {x x' : Cert.Spec.SNxI.Idx → EReal} {w w' : Cert.Spec.SIxH.Idx → EReal} (hx : x = x') (hw : w = w') :
    Cert.Spec.featProduct x w = Cert.Spec.featProduct x' w' := by subst hx hw; rfl

theorem biasClamp_congr {h h' : Cert.Spec.SNxH.Idx → EReal} {b b' : Cert.Spec.S1xH.Idx → EReal} (hh : h = h') (hb : b = b') :
    Cert.Spec.biasClamp h b = Cert.Spec.biasClamp h' b' := by subst hh hb; rfl

theorem head_pooled_congr {oh oh' : Cert.Spec.SNxG.Idx → EReal} {h h' : Cert.Spec.SNxH.Idx → EReal}
    {cnt cnt' : Cert.Spec.SGx1.Idx → EReal} {w2 w2' : Cert.Spec.SHxH.Idx → EReal} {b2 b2' : Cert.Spec.S1xH.Idx → EReal}
    {w3 w3' : Cert.Spec.SHx1.Idx → EReal} {b3 b3' : Cert.Spec.S1x1'.Idx → EReal}
    (e1 : oh = oh') (e2 : h = h') (e3 : cnt = cnt') (e4 : w2 = w2') (e5 : b2 = b2') (e6 : w3 = w3') (e7 : b3 = b3') :
    Cert.Spec.head (Cert.Spec.pooled oh h) cnt w2 b2 w3 b3 = Cert.Spec.head (Cert.Spec.pooled oh' h') cnt' w2' b2' w3' b3' := by
  subst e1 e2 e3 e4 e5 e6 e7; rfl

/-- What the first call leaves: the feature product of the launch arguments. -/
theorem res0_value : (res0 (F := Ideal) m c : Cert.Spec.SNxH.Idx → EReal) = Cert.Spec.featProduct (m ((c.tc : Thread nD τ).loc main_arg0)) (m ((c.tc : Thread nD τ).loc main_arg3)) :=
  (arr0_eq (V1 m) c).trans (featProduct_congr (V1_v0 m c) (V1_v1 m c))

/-- What the second call leaves: the clamped bias shift of the aggregated feature product. -/
theorem res1_value :
    (res1 (F := Ideal) m c : Cert.Spec.SNxH.Idx → EReal)
      = Cert.Spec.biasClamp (Cert.Chains.agg (F := Ideal) (Cert.Spec.featProduct (m ((c.tc : Thread nD τ).loc main_arg0)) (m ((c.tc : Thread nD τ).loc main_arg3))) (m ((c.tc : Thread nD τ).loc main_arg1))) (fun i => (m ((c.tc : Thread nD τ).loc main_arg4)) (ValueIdx.ix1 (i 1))) :=
  (arr1_eq (V5 m) c).trans
    (biasClamp_congr ((V5_v45 m c).trans (congrArg (fun h => Cert.Chains.agg (F := Ideal) h (m ((c.tc : Thread nD τ).loc main_arg1))) (res0_value m c))) (V5_v46 m c))

/-- What the kernel's third call leaves in the result array, as a function of the launch arguments. -/
theorem kernel_value :
    res2 (F := Ideal) m c
      = Cert.Spec.head
          (Cert.Spec.pooled (Cert.Chains.oneHotK (F := Ideal) (m ((c.tc : Thread nD τ).loc main_arg2)))
            (Cert.Spec.biasClamp (Cert.Chains.agg (F := Ideal) (Cert.Spec.featProduct (m ((c.tc : Thread nD τ).loc main_arg0)) (m ((c.tc : Thread nD τ).loc main_arg3))) (m ((c.tc : Thread nD τ).loc main_arg1))) (fun i => (m ((c.tc : Thread nD τ).loc main_arg4)) (ValueIdx.ix1 (i 1)))))
          (Cert.Chains.cntK (F := Ideal) (m ((c.tc : Thread nD τ).loc main_arg2)))
          (m ((c.tc : Thread nD τ).loc main_arg5)) (fun i => (m ((c.tc : Thread nD τ).loc main_arg6)) (ValueIdx.ix1 (i 1))) (m ((c.tc : Thread nD τ).loc main_arg7)) (fun i => (m ((c.tc : Thread nD τ).loc main_arg8)) (ValueIdx.ix1 (i 1))) :=
  (arr2_eq (V10 m) c).trans
    (head_pooled_congr (V10_v48 m c) ((V10_v47 m c).trans (res1_value m c)) (V10_v62 m c) (V10_arg5 m c) (V10_v60 m c) (V10_arg7 m c) (V10_v61 m c))

section Final
open Cert.ReferenceIdeal.ReadP

variable (m' : (ℓ : Loc Cert.ReferenceIdeal.nD Cert.ReferenceIdeal.τ Cert.ReferenceIdeal.sig) → Buf (Elt Ideal) ℓ)

/-- From memories agreeing on the arguments, under the precondition, the reference's result is the kernel's. -/
theorem final [hPre : Cert.Pre_finite_inputs.Facts] (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)) :
    Cert.ReferenceIdeal.ValueP.res_main_v68 (F := Ideal) m' c = res2 (F := Ideal) m c := by
  obtain ⟨h0, h1, h2, h3, h4, h5, h6, h7, h8⟩ := hagree c
  rw [Cert.RefSpec.res_eq, h0, h1, h2, h3, h4, h5, h6, h7, h8, Cert.RefSpec.ref_eq, kernel_value,
    Cert.Pool.pooled_oneHot, Cert.Pool.cnt_eq _ (Cert.Pool.batch_nonneg_of_pre _ _ _ _ _ _ _ _ _ (hpre c))]

end Final

end Cert.Bridge

end
-- ==== Proof.lean ====
/-
  The certificate: a graph-convolution layer with mean pooling and a two-layer head, computed by three
  pallas_calls among host gathers and scatters, against its jnp reference. Frames: each program runs to
  its end leaving its arguments as launched — the kernel's through one segment record per pallas_call
  (the third carries its accumulator scratch between grid points), at the word-level instance and at the
  ideal one from one text; the reference's is its run with the result dropped. Values at the ideal
  instance: the first call leaves the feature product, the second the clamped bias shift of the
  aggregated features, the third the head of the pooled sums, its pooling an indicator-matrix product
  summed over 25 row blocks; the reference pools by scatter; the two agree, the counts under the
  precondition that no graph id is negative.
-/
import proofs.«423902_j15470472200268_1_alg».proof.Defs
import proofs.«423902_j15470472200268_1_alg».proof.Proof.Gen.Kernel
import proofs.«423902_j15470472200268_1_alg».proof.Proof.Gen.KernelIdeal
import proofs.«423902_j15470472200268_1_alg».proof.Proof.Gen.ReferenceIdeal
import proofs.«423902_j15470472200268_1_alg».proof.Proof.Gen.Pre_finite_inputs
import proofs.«423902_j15470472200268_1_alg».proof.Proof.Run
import proofs.«423902_j15470472200268_1_alg».proof.Proof.KRun
import proofs.«423902_j15470472200268_1_alg».proof.Proof.RefRun
import proofs.«423902_j15470472200268_1_alg».proof.Proof.Bridge

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame_all (F := Bits) m ρ

theorem frame_ki [Cert.KernelIdeal.Facts] [Cert.Pre_finite_inputs.Facts] : Cert.frame_KernelIdeal :=
  fun m ρ _ => Cert.KernelIdeal.Hand.frame_all (F := Ideal) m ρ

theorem frame_r [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.res2 (F := Ideal) m c, Cert.KernelIdeal.Hand.run_all (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.final m c m' hpre hagree

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
